-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S3x240000 : Shape := ⟨2, ![3, 240000]⟩
abbrev S6x256x128 : Shape := ⟨3, ![6, 256, 128]⟩
abbrev S_ : Shape := ⟨0, ![]⟩
abbrev S1x240000 : Shape := ⟨2, ![1, 240000]⟩
abbrev S240000 : Shape := ⟨1, ![240000]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S6x256x128 : S_.BroadcastsInDim S6x256x128 (![] : Fin 0 → Fin S6x256x128.rank)
  reducesTo_S6x256x128_S_d0_1_2 : S6x256x128.ReducesTo [0, 1, 2] S_
  slices_S3x240000_S1x240000_0_0 : S3x240000.Slices ![0, 0] S1x240000
  shapeCasts_S1x240000_S240000 : S1x240000.ShapeCasts S240000
  bcast_S_S240000 : S_.BroadcastsInDim S240000 (![] : Fin 0 → Fin S240000.rank)
  reducesTo_S240000_S_d0 : S240000.ReducesTo [0] S_

variable [Facts]

def fn_part1 {F : FTy → Type} [FloatOps F] (main_v8 : IVec S_ 1) (main_v17 : IVec S240000 1) : IVec S_ 1 :=
  let main_c_4 : IVec S_ 1 := constantI S_ 1 1#1
  let main_v18 : IVec S_ 1 := (fun x v => Host.reduce IntOp.andi x v reducesTo_S240000_S_d0 h_S_) main_v17 main_c_4
  let main_v19 : IVec S_ 1 := andi main_v8 main_v18
  main_v19

def fn {F : FTy → Type} [FloatOps F] (main_arg0 : FVec F S200000x128 .f32) (main_arg1 : IVec S3x240000 32) (main_arg2 : FVec F S6x256x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S6x256x128 .f32 := Host.absf main_arg2
  let main_cst_0 : FVec F S_ .f32 := constant S_ .f32 0x7F800000#32
  let main_v5 : FVec F S6x256x128 .f32 := broadcastInDim S6x256x128 ![] bcast_S_S6x256x128 main_cst_0
  let main_v6 : IVec S6x256x128 1 := cmpf .olt main_v4 main_v5
  let main_c_1 : IVec S_ 1 := constantI S_ 1 1#1
  let main_v7 : IVec S_ 1 := (fun x v => Host.reduce IntOp.andi x v reducesTo_S6x256x128_S_d0_1_2 h_S_) main_v6 main_c_1
  let main_v8 : IVec S_ 1 := andi main_v3 main_v7
  let main_v9 : IVec S1x240000 32 := (extractStridedSlice S1x240000 ![0, 0] · slices_S3x240000_S1x240000_0_0) main_arg1
  let main_v10 : IVec S240000 32 := shapeCast S240000 main_v9 shapeCasts_S1x240000_S240000
  let main_c_2 : IVec S_ 32 := constantI S_ 32 1#32
  let main_v11 : IVec S240000 32 := broadcastInDim S240000 ![] bcast_S_S240000 main_c_2
  let main_v12 : IVec S240000 1 := cmpi .sge main_v10 main_v11
  let main_v13 : IVec S1x240000 32 := (extractStridedSlice S1x240000 ![0, 0] · slices_S3x240000_S1x240000_0_0) main_arg1
  let main_v14 : IVec S240000 32 := shapeCast S240000 main_v13 shapeCasts_S1x240000_S240000
  let main_c_3 : IVec S_ 32 := constantI S_ 32 6#32
  let main_v15 : IVec S240000 32 := broadcastInDim S240000 ![] bcast_S_S240000 main_c_3
  let main_v16 : IVec S240000 1 := cmpi .sle main_v14 main_v15
  let main_v17 : IVec S240000 1 := andi main_v12 main_v16
  fn_part1 (F := F) main_v8 main_v17
-- ==== Kernel.lean ====
abbrev S200000x128 : Shape := ⟨2, ![200000, 128]⟩
abbrev S3x240000 : Shape := ⟨2, ![3, 240000]⟩
abbrev S6x256x128 : Shape := ⟨3, ![6, 256, 128]⟩
abbrev S1x240000 : Shape := ⟨2, ![1, 240000]⟩
abbrev S240000 : Shape := ⟨1, ![240000]⟩
abbrev S6 : Shape := ⟨1, ![6]⟩
abbrev S_ : Shape := ⟨0, ![]⟩
abbrev S240000x1 : Shape := ⟨2, ![240000, 1]⟩
abbrev S1x6 : Shape := ⟨2, ![1, 6]⟩
abbrev S240000x6 : Shape := ⟨2, ![240000, 6]⟩
abbrev S240000x1x1 : Shape := ⟨3, ![240000, 1, 1]⟩
abbrev S1 : Shape := ⟨1, ![1]⟩
abbrev S1x1x1 : Shape := ⟨3, ![1, 1, 1]⟩
abbrev S5 : Shape := ⟨1, ![5]⟩
abbrev S294912 : Shape := ⟨1, ![294912]⟩
abbrev S36 : Shape := ⟨1, ![36]⟩
abbrev S36x1 : Shape := ⟨2, ![36, 1]⟩
abbrev S36x6 : Shape := ⟨2, ![36, 6]⟩
abbrev S294912x1 : Shape := ⟨2, ![294912, 1]⟩
abbrev S294912x128 : Shape := ⟨2, ![294912, 128]⟩
abbrev S6x128x128 : Shape := ⟨3, ![6, 128, 128]⟩
abbrev S8192x128 : Shape := ⟨2, ![8192, 128]⟩
abbrev S1x128x128 : Shape := ⟨3, ![1, 128, 128]⟩
abbrev S128x128 : Shape := ⟨2, ![128, 128]⟩
abbrev S200001x128 : Shape := ⟨2, ![200001, 128]⟩

abbrev nBuf : Space → Nat
  | .hbm => 197
  | .vmem => 10
  | .smem => 1
  | _ => 0

abbrev hbmTy0_0 (i : Nat) : BufTy := match i % 128 with
  | 0 => ⟨S200000x128, .f32⟩
  | 1 => ⟨S3x240000, .i32⟩
  | 2 => ⟨S6x256x128, .f32⟩
  | 3 => ⟨S1x240000, .i32⟩
  | 4 => ⟨S240000, .i32⟩
  | 5 => ⟨S1x240000, .i32⟩
  | 6 => ⟨S240000, .i32⟩
  | 7 => ⟨S1x240000, .i32⟩
  | 8 => ⟨S240000, .i32⟩
  | 9 => ⟨S6, .i32⟩
  | 10 => ⟨S_, .i32⟩
  | 11 => ⟨S6, .i32⟩
  | 12 => ⟨S6, .i32⟩
  | 13 => ⟨S240000x1, .i32⟩
  | 14 => ⟨S1x6, .i32⟩
  | 15 => ⟨S240000x6, .i32⟩
  | 16 => ⟨S240000x6, .i32⟩
  | 17 => ⟨S240000x6, .i1⟩
  | 18 => ⟨S240000x6, .i32⟩
  | 19 => ⟨S_, .i32⟩
  | 20 => ⟨S_, .i32⟩
  | 21 => ⟨S240000x6, .i32⟩
  | 22 => ⟨S1x6, .i32⟩
  | 23 => ⟨S6, .i32⟩
  | 24 => ⟨S_, .i32⟩
  | 25 => ⟨S240000, .i32⟩
  | 26 => ⟨S240000, .i1⟩
  | 27 => ⟨S_, .i32⟩
  | 28 => ⟨S240000, .i32⟩
  | 29 => ⟨S240000, .i1⟩
  | 30 => ⟨S240000, .i1⟩
  | 31 => ⟨S_, .i32⟩
  | 32 => ⟨S240000, .i32⟩
  | 33 => ⟨S240000, .i32⟩
  | 34 => ⟨S_, .i32⟩
  | 35 => ⟨S_, .i32⟩
  | 36 => ⟨S_, .i32⟩
  | 37 => ⟨S240000, .i32⟩
  | 38 => ⟨S240000, .i32⟩
  | 39 => ⟨S_, .i32⟩
  | 40 => ⟨S240000, .i32⟩
  | 41 => ⟨S240000, .i32⟩
  | 42 => ⟨S240000x1, .i32⟩
  | 43 => ⟨S_, .i32⟩
  | 44 => ⟨S240000x1, .i32⟩
  | 45 => ⟨S240000x1, .i1⟩
  | 46 => ⟨S_, .i32⟩
  | 47 => ⟨S240000x1, .i32⟩
  | 48 => ⟨S240000x1, .i32⟩
  | 49 => ⟨S240000x1, .i32⟩
  | 50 => ⟨S240000x1x1, .i32⟩
  | 51 => ⟨S1, .i32⟩
  | 52 => ⟨S_, .i32⟩
  | 53 => ⟨S240000x1x1, .i32⟩
  | 54 => ⟨S240000x1x1, .i1⟩
  | 55 => ⟨S1x1x1, .i32⟩
  | 56 => ⟨S240000x1x1, .i32⟩
  | 57 => ⟨S240000x1x1, .i1⟩
  | 58 => ⟨S240000x1x1, .i1⟩
  | 59 => ⟨S_, .i1⟩
  | 60 => ⟨S240000x1, .i1⟩
  | 61 => ⟨S240000x1, .i32⟩
  | 62 => ⟨S_, .i32⟩
  | 63 => ⟨S240000x1, .i32⟩
  | 64 => ⟨S240000x1, .i32⟩
  | 65 => ⟨S240000, .i32⟩
  | 66 => ⟨S_, .i32⟩
  | 67 => ⟨S240000, .i32⟩
  | 68 => ⟨S240000, .i32⟩
  | 69 => ⟨S_, .i32⟩
  | 70 => ⟨S6, .i32⟩
  | 71 => ⟨S6, .i32⟩
  | 72 => ⟨S_, .i32⟩
  | 73 => ⟨S6, .i32⟩
  | 74 => ⟨S6, .i32⟩
  | 75 => ⟨S_, .i32⟩
  | 76 => ⟨S_, .i32⟩
  | 77 => ⟨S6, .i32⟩
  | 78 => ⟨S6, .i32⟩
  | 79 => ⟨S6, .i32⟩
  | 80 => ⟨S_, .i32⟩
  | 81 => ⟨S6, .i32⟩
  | 82 => ⟨S6, .i1⟩
  | 83 => ⟨S6, .i32⟩
  | 84 => ⟨S6, .i32⟩
  | 85 => ⟨S_, .i32⟩
  | 86 => ⟨S6, .i32⟩
  | 87 => ⟨S6, .i1⟩
  | 88 => ⟨S6, .i1⟩
  | 89 => ⟨S_, .i32⟩
  | 90 => ⟨S6, .i32⟩
  | 91 => ⟨S6, .i32⟩
  | 92 => ⟨S6, .i32⟩
  | 93 => ⟨S_, .i32⟩
  | 94 => ⟨S6, .i32⟩
  | 95 => ⟨S6, .i32⟩
  | 96 => ⟨S_, .i32⟩
  | 97 => ⟨S_, .i32⟩
  | 98 => ⟨S6, .i32⟩
  | 99 => ⟨S_, .i32⟩
  | 100 => ⟨S1, .i32⟩
  | 101 => ⟨S5, .i32⟩
  | 102 => ⟨S6, .i32⟩
  | 103 => ⟨S_, .i32⟩
  | 104 => ⟨S240000, .i32⟩
  | 105 => ⟨S240000, .i1⟩
  | 106 => ⟨S_, .i32⟩
  | 107 => ⟨S240000, .i32⟩
  | 108 => ⟨S240000, .i32⟩
  | 109 => ⟨S240000, .i32⟩
  | 110 => ⟨S240000x1, .i32⟩
  | 111 => ⟨S240000, .i32⟩
  | 112 => ⟨S240000, .i32⟩
  | 113 => ⟨S_, .i32⟩
  | 114 => ⟨S294912, .i32⟩
  | 115 => ⟨S_, .i32⟩
  | 116 => ⟨S240000, .i32⟩
  | 117 => ⟨S240000, .i1⟩
  | 118 => ⟨S_, .i32⟩
  | 119 => ⟨S240000, .i32⟩
  | 120 => ⟨S240000, .i32⟩
  | 121 => ⟨S240000, .i32⟩
  | 122 => ⟨S240000x1, .i32⟩
  | 123 => ⟨S294912, .i32⟩
  | 124 => ⟨S_, .i32⟩
  | 125 => ⟨S294912, .i32⟩
  | 126 => ⟨S_, .i32⟩
  | 127 => ⟨S240000, .i32⟩
  | _ => ⟨S200000x128, .f32⟩

abbrev hbmTy0_1 (i : Nat) : BufTy := match i % 128 with
  | 0 => ⟨S240000, .i1⟩
  | 1 => ⟨S_, .i32⟩
  | 2 => ⟨S240000, .i32⟩
  | 3 => ⟨S240000, .i32⟩
  | 4 => ⟨S240000, .i32⟩
  | 5 => ⟨S240000x1, .i32⟩
  | 6 => ⟨S294912, .i32⟩
  | 7 => ⟨S_, .i32⟩
  | 8 => ⟨S294912, .i32⟩
  | 9 => ⟨S_, .i32⟩
  | 10 => ⟨S_, .i32⟩
  | 11 => ⟨S240000, .i32⟩
  | 12 => ⟨S240000, .i32⟩
  | 13 => ⟨S_, .i32⟩
  | 14 => ⟨S240000, .i32⟩
  | 15 => ⟨S240000, .i1⟩
  | 16 => ⟨S_, .i32⟩
  | 17 => ⟨S240000, .i32⟩
  | 18 => ⟨S240000, .i32⟩
  | 19 => ⟨S240000, .i32⟩
  | 20 => ⟨S240000x1, .i32⟩
  | 21 => ⟨S294912, .i32⟩
  | 22 => ⟨S_, .i32⟩
  | 23 => ⟨S_, .i32⟩
  | 24 => ⟨S6, .i32⟩
  | 25 => ⟨S36, .i32⟩
  | 26 => ⟨S_, .i32⟩
  | 27 => ⟨S36, .i32⟩
  | 28 => ⟨S36, .i32⟩
  | 29 => ⟨S36x1, .i32⟩
  | 30 => ⟨S1x6, .i32⟩
  | 31 => ⟨S36x6, .i32⟩
  | 32 => ⟨S36x6, .i32⟩
  | 33 => ⟨S36x6, .i1⟩
  | 34 => ⟨S36x6, .i32⟩
  | 35 => ⟨S_, .i32⟩
  | 36 => ⟨S36, .i32⟩
  | 37 => ⟨S_, .i32⟩
  | 38 => ⟨S36, .i32⟩
  | 39 => ⟨S_, .i32⟩
  | 40 => ⟨S294912, .i32⟩
  | 41 => ⟨S294912, .i1⟩
  | 42 => ⟨S_, .i32⟩
  | 43 => ⟨S294912, .i32⟩
  | 44 => ⟨S294912, .i32⟩
  | 45 => ⟨S294912, .i32⟩
  | 46 => ⟨S294912x1, .i32⟩
  | 47 => ⟨S294912x128, .f32⟩
  | 48 => ⟨S294912x128, .bf16⟩
  | 49 => ⟨S_, .i32⟩
  | 50 => ⟨S294912, .i32⟩
  | 51 => ⟨S294912, .i1⟩
  | 52 => ⟨S_, .i32⟩
  | 53 => ⟨S294912, .i32⟩
  | 54 => ⟨S294912, .i32⟩
  | 55 => ⟨S294912, .i32⟩
  | 56 => ⟨S294912x1, .i32⟩
  | 57 => ⟨S294912x128, .f32⟩
  | 58 => ⟨S294912x128, .bf16⟩
  | 59 => ⟨S6x256x128, .bf16⟩
  | 60 => ⟨S6x128x128, .bf16⟩
  | 61 => ⟨S6x128x128, .bf16⟩
  | 62 => ⟨S294912x128, .bf16⟩
  | 63 => ⟨S294912x128, .f32⟩
  | 64 => ⟨S_, .f32⟩
  | 65 => ⟨S200001x128, .f32⟩
  | 66 => ⟨S294912x1, .i32⟩
  | 67 => ⟨S200001x128, .f32⟩
  | 68 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S8192x128, .bf16⟩
  | .local _ .vmem, ⟨9, _⟩ => ⟨S8192x128, .bf16⟩
  | .local _ .smem, ⟨0, _⟩ => ⟨S36, .i32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_call0_c : Ref sig .tc := ⟨.hbm, 19, rfl⟩
abbrev main_call0_call0_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v25 : Ref sig .tc := ⟨.hbm, 41, rfl⟩
abbrev main_v26 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_c_4 : Ref sig .tc := ⟨.hbm, 62, rfl⟩
abbrev main_call2_v14 : Ref sig .tc := ⟨.hbm, 63, rfl⟩
abbrev main_v27 : Ref sig .tc := ⟨.hbm, 64, rfl⟩
abbrev main_v28 : Ref sig .tc := ⟨.hbm, 65, rfl⟩
abbrev main_c_5 : Ref sig .tc := ⟨.hbm, 66, rfl⟩
abbrev main_v29 : Ref sig .tc := ⟨.hbm, 67, rfl⟩
abbrev main_v30 : Ref sig .tc := ⟨.hbm, 68, rfl⟩
abbrev main_c_6 : Ref sig .tc := ⟨.hbm, 69, rfl⟩
abbrev main_v31 : Ref sig .tc := ⟨.hbm, 70, rfl⟩
abbrev main_v32 : Ref sig .tc := ⟨.hbm, 71, rfl⟩
abbrev main_c_7 : Ref sig .tc := ⟨.hbm, 72, rfl⟩
abbrev main_v33 : Ref sig .tc := ⟨.hbm, 73, rfl⟩
abbrev main_v34 : Ref sig .tc := ⟨.hbm, 74, rfl⟩
abbrev main_c_8 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_c : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_0 : Ref sig .tc := ⟨.hbm, 89, rfl⟩
abbrev main_call3_v12 : Ref sig .tc := ⟨.hbm, 90, rfl⟩
abbrev main_call3_v13 : Ref sig .tc := ⟨.hbm, 91, rfl⟩
abbrev main_v35 : Ref sig .tc := ⟨.hbm, 92, rfl⟩
abbrev main_c_9 : Ref sig .tc := ⟨.hbm, 93, rfl⟩
abbrev main_v36 : Ref sig .tc := ⟨.hbm, 94, rfl⟩
abbrev main_v37 : Ref sig .tc := ⟨.hbm, 95, rfl⟩
abbrev main_call4_call0_c : Ref sig .tc := ⟨.hbm, 96, rfl⟩
abbrev main_call4_call0_v0 : Ref sig .tc := ⟨.hbm, 97, rfl⟩
abbrev main_v38 : Ref sig .tc := ⟨.hbm, 98, rfl⟩
abbrev main_c_10 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_c_11 : Ref sig .tc := ⟨.hbm, 103, rfl⟩
abbrev main_v42 : Ref sig .tc := ⟨.hbm, 104, rfl⟩
abbrev main_v43 : Ref sig .tc := ⟨.hbm, 105, rfl⟩
abbrev main_c_12 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_c_13 : Ref sig .tc := ⟨.hbm, 113, rfl⟩
abbrev main_v50 : Ref sig .tc := ⟨.hbm, 114, rfl⟩
abbrev main_c_14 : Ref sig .tc := ⟨.hbm, 115, rfl⟩
abbrev main_v51 : Ref sig .tc := ⟨.hbm, 116, rfl⟩
abbrev main_v52 : Ref sig .tc := ⟨.hbm, 117, rfl⟩
abbrev main_c_15 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_c_16 : Ref sig .tc := ⟨.hbm, 124, rfl⟩
abbrev main_v58 : Ref sig .tc := ⟨.hbm, 125, rfl⟩
abbrev main_c_17 : Ref sig .tc := ⟨.hbm, 126, rfl⟩
abbrev main_v59 : Ref sig .tc := ⟨.hbm, 127, rfl⟩
abbrev main_v60 : Ref sig .tc := ⟨.hbm, 128, rfl⟩
abbrev main_c_18 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_c_19 : Ref sig .tc := ⟨.hbm, 135, rfl⟩
abbrev main_v66 : Ref sig .tc := ⟨.hbm, 136, rfl⟩
abbrev main_c_20 : Ref sig .tc := ⟨.hbm, 137, rfl⟩
abbrev main_call5_v0 : Ref sig .tc := ⟨.hbm, 138, rfl⟩
abbrev main_call5_v1 : Ref sig .tc := ⟨.hbm, 139, rfl⟩
abbrev main_v67 : Ref sig .tc := ⟨.hbm, 140, rfl⟩
abbrev main_c_21 : Ref sig .tc := ⟨.hbm, 141, rfl⟩
abbrev main_v68 : Ref sig .tc := ⟨.hbm, 142, rfl⟩
abbrev main_v69 : Ref sig .tc := ⟨.hbm, 143, rfl⟩
abbrev main_c_22 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_call6_call0_c : Ref sig .tc := ⟨.hbm, 150, rfl⟩
abbrev main_call6_call0_v0 : Ref sig .tc := ⟨.hbm, 151, rfl⟩
abbrev main_v75 : Ref sig .tc := ⟨.hbm, 152, rfl⟩
abbrev main_v76 : Ref sig .tc := ⟨.hbm, 153, rfl⟩
abbrev main_c_23 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_c_24 : Ref sig .tc := ⟨.hbm, 163, rfl⟩
abbrev main_v85 : Ref sig .tc := ⟨.hbm, 164, rfl⟩
abbrev main_c_25 : Ref sig .tc := ⟨.hbm, 165, rfl⟩
abbrev main_v86 : Ref sig .tc := ⟨.hbm, 166, rfl⟩
abbrev main_c_26 : Ref sig .tc := ⟨.hbm, 167, rfl⟩
abbrev main_v88 : Ref sig .tc := ⟨.hbm, 168, rfl⟩
abbrev main_v89 : Ref sig .tc := ⟨.hbm, 169, rfl⟩
abbrev main_c_27 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_c_28 : Ref sig .tc := ⟨.hbm, 177, rfl⟩
abbrev main_v96 : Ref sig .tc := ⟨.hbm, 178, rfl⟩
abbrev main_v97 : Ref sig .tc := ⟨.hbm, 179, rfl⟩
abbrev main_c_29 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_cst : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v87 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![36], ![false]⟩

abbrev pre0 : Pipeline.Prefetch sig := ⟨1, ![main_v87.idx], fun | 0 => main_v87.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S3x240000_S1x240000_0_0 : S3x240000.Slices ![0, 0] S1x240000
  shapeCasts_S1x240000_S240000 : S1x240000.ShapeCasts S240000
  slices_S3x240000_S1x240000_1_0 : S3x240000.Slices ![1, 0] S1x240000
  slices_S3x240000_S1x240000_2_0 : S3x240000.Slices ![2, 0] S1x240000
  bcast_S_S6 : S_.BroadcastsInDim S6 (![] : Fin 0 → Fin S6.rank)
  bcast_S240000_S240000x1_0 : S240000.BroadcastsInDim S240000x1 (![0] : Fin 1 → Fin S240000x1.rank)
  bcast_S6_S1x6_1 : S6.BroadcastsInDim S1x6 (![1] : Fin 1 → Fin S1x6.rank)
  bcast_S240000x1_S240000x6_0_1 : S240000x1.BroadcastsInDim S240000x6 (![0, 1] : Fin 2 → Fin S240000x6.rank)
  bcast_S1x6_S240000x6_0_1 : S1x6.BroadcastsInDim S240000x6 (![0, 1] : Fin 2 → Fin S240000x6.rank)
  natLt_1_32 : 1 < 32
  bcast_S_S_ : S_.BroadcastsInDim S_ (![] : Fin 0 → Fin S_.rank)
  reduceWindows_S240000x6_S240000x6_w240000s1p239999_0_w1s1p0_0 : S240000x6.ReduceWindows (![240000, 1] : Fin 2 → Nat) ![1, 1] ![239999, 0] ![0, 0] S240000x6
  h_S_ : 0 < S_.numel
  slices_S240000x6_S1x6_239999_0 : S240000x6.Slices ![239999, 0] S1x6
  shapeCasts_S1x6_S6 : S1x6.ShapeCasts S6
  bcast_S_S240000 : S_.BroadcastsInDim S240000 (![] : Fin 0 → Fin S240000.rank)
  bcast_S_S240000x1 : S_.BroadcastsInDim S240000x1 (![] : Fin 0 → Fin S240000x1.rank)
  shapeCasts_S240000x1_S240000x1x1 : S240000x1.ShapeCasts S240000x1x1
  bcast_S_S240000x1x1 : S_.BroadcastsInDim S240000x1x1 (![] : Fin 0 → Fin S240000x1x1.rank)
  bcast_S1_S1x1x1_2 : S1.BroadcastsInDim S1x1x1 (![2] : Fin 1 → Fin S1x1x1.rank)
  bcast_S1x1x1_S240000x1x1_0_1_2 : S1x1x1.BroadcastsInDim S240000x1x1 (![0, 1, 2] : Fin 3 → Fin S240000x1x1.rank)
  reducesTo_S240000x1x1_S240000x1_d2 : S240000x1x1.ReducesTo [2] S240000x1
  shapeCasts_S240000x1_S240000 : S240000x1.ShapeCasts S240000
  reduceWindows_S6_S6_w6s1p5_0 : S6.ReduceWindows (![6] : Fin 1 → Nat) ![1] ![5] ![0] S6
  bcast_S_S1 : S_.BroadcastsInDim S1 (![] : Fin 0 → Fin S1.rank)
  slices_S6_S5_0 : S6.Slices ![0] S5
  concatenates_S1_S5_S6_d0 : Shape.Concatenates [S1, S5] S6 0
  bcast_S_S294912 : S_.BroadcastsInDim S294912 (![] : Fin 0 → Fin S294912.rank)
  bcast_S_S36 : S_.BroadcastsInDim S36 (![] : Fin 0 → Fin S36.rank)
  bcast_S36_S36x1_0 : S36.BroadcastsInDim S36x1 (![0] : Fin 1 → Fin S36x1.rank)
  bcast_S36x1_S36x6_0_1 : S36x1.BroadcastsInDim S36x6 (![0, 1] : Fin 2 → Fin S36x6.rank)
  bcast_S1x6_S36x6_0_1 : S1x6.BroadcastsInDim S36x6 (![0, 1] : Fin 2 → Fin S36x6.rank)
  reducesTo_S36x6_S36_d1 : S36x6.ReducesTo [1] S36
  bcast_S294912_S294912x1_0 : S294912.BroadcastsInDim S294912x1 (![0] : Fin 1 → Fin S294912x1.rank)
  bitsLt_bf16_f32 : FTy.bits .bf16 < FTy.bits .f32
  slices_S6x256x128_S6x128x128_0_0_0 : S6x256x128.Slices ![0, 0, 0] S6x128x128
  slices_S6x256x128_S6x128x128_0_128_0 : S6x256x128.Slices ![0, 128, 0] S6x128x128
  numel1_S1 : S1.numel = 1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  packedbf16_S8192x128_S8192x128_0_0 : (Rect.unit (s := S8192x128) ![0, 0] S8192x128.size inb_S8192x128_S8192x128_0_0).PackedRows (EltTy.packing .bf16)
  bcast_S_S200001x128 : S_.BroadcastsInDim S200001x128 (![] : Fin 0 → Fin S200001x128.rank)
  slices_S200001x128_S200000x128_0_0 : S200001x128.Slices ![0, 0] S200000x128
  gather_S240000x6_S240000x1x1_S240000x1_n_1_0_0_1_2_11_wf : GatherDims.WF S240000x6 S240000x1x1 S240000x1 [] [1] [0] [1] [0] 2 ![1, 1]
  gather_S6_S240000x1_S240000_n_0_n_n_0_1_1_wf : GatherDims.WF S6 S240000x1 S240000 [] [0] [] [0] [] 1 ![1]
  scatter_S294912_S240000x1_S240000_n_0_0_1_wf : ScatterDims.WF S294912 S240000x1 S240000 [] [0] [0] 1
  gather_S200000x128_S294912x1_S294912x128_1_0_n_n_0_1_1128_wf : GatherDims.WF S200000x128 S294912x1 S294912x128 [1] [0] [] [0] [] 1 ![1, 128]
  dot_S8192x128_S128x128_S8192x128_1_0_0_1_n_n_wf : DotDims.WF S8192x128 S128x128 S8192x128 [1] [0] [0] [1] [] []
  scatter_S200001x128_S294912x1_S294912x128_1_0_0_1_wf : ScatterDims.WF S200001x128 S294912x1 S294912x128 [1] [0] [0] 1
  hrank0 : 0 < grid0.rank
  k0_off1_inb : ∀ i : grid0.Coords, ∀ a, (k0_off1 i) a + S1.size a ≤ S36.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S294912x128.size a
  hwx0_0 : ∀ i : grid0.Coords, EltTy.bits .bf16 = 32 ∨ (Rect.block (s := S294912x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S294912x128.size a
  hwx0_1 : ∀ i : grid0.Coords, EltTy.bits .bf16 = 32 ∨ (Rect.block (s := S294912x128) S8192x128.size (cc0_transform_1 i) (hinb0_1 i)).WholeWords (EltTy.packing .bf16)
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S294912x128.size a
  hwx0_4 : ∀ i : grid0.Coords, EltTy.bits .bf16 = 32 ∨ (Rect.block (s := S294912x128) S8192x128.size (cc0_transform_4 i) (hinb0_4 i)).WholeWords (EltTy.packing .bf16)

variable [Facts₀]

def gather_S240000x6_S240000x1x1_S240000x1_n_1_0_0_1_2_11 : GatherDims S240000x6 S240000x1x1 S240000x1 where
  offsetDims := []
  collapsedSliceDims := [1]
  operandBatchingDims := [0]
  startIndicesBatchingDims := [0]
  startIndexMap := [1]
  indexVectorDim := 2
  sliceSizes := ![1, 1]
  wf := gather_S240000x6_S240000x1x1_S240000x1_n_1_0_0_1_2_11_wf
def gather_S6_S240000x1_S240000_n_0_n_n_0_1_1 : GatherDims S6 S240000x1 S240000 where
  offsetDims := []
  collapsedSliceDims := [0]
  operandBatchingDims := []
  startIndicesBatchingDims := []
  startIndexMap := [0]
  indexVectorDim := 1
  sliceSizes := ![1]
  wf := gather_S6_S240000x1_S240000_n_0_n_n_0_1_1_wf
def scatter_S294912_S240000x1_S240000_n_0_0_1 : ScatterDims S294912 S240000x1 S240000 where
  updateWindowDims := []
  insertedWindowDims := [0]
  scatterDimsToOperandDims := [0]
  indexVectorDim := 1
  wf := scatter_S294912_S240000x1_S240000_n_0_0_1_wf
def gather_S200000x128_S294912x1_S294912x128_1_0_n_n_0_1_1128 : GatherDims S200000x128 S294912x1 S294912x128 where
  offsetDims := [1]
  collapsedSliceDims := [0]
  operandBatchingDims := []
  startIndicesBatchingDims := []
  startIndexMap := [0]
  indexVectorDim := 1
  sliceSizes := ![1, 128]
  wf := gather_S200000x128_S294912x1_S294912x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S200001x128_S294912x1_S294912x128_1_0_0_1 : ScatterDims S200001x128 S294912x1 S294912x128 where
  updateWindowDims := [1]
  insertedWindowDims := [0]
  scatterDimsToOperandDims := [0]
  indexVectorDim := 1
  wf := scatter_S200001x128_S294912x1_S294912x128_1_0_0_1_wf

abbrev spec0_0 : Pipeline.WinSpec sig grid0.rank :=
  Pipeline.WinSpec.ofSpec (Memref.whole main_v95) S8192x128.size reads0_0 false false 2 stage0_0 sem0_0 nbuf0_0 hstage0_0

abbrev spec0_1 : Pipeline.WinSpec sig grid0.rank :=
  Pipeline.WinSpec.ofSpec (Memref.whole main_v103) S8192x128.size reads0_1 false false 2 stage0_1 sem0_1 nbuf0_1 hstage0_1

abbrev spec0_2 : Pipeline.WinSpec sig grid0.rank :=
  Pipeline.WinSpec.ofSpec (Memref.whole main_v105) S1x128x128.size reads0_2 false false 2 stage0_2 sem0_2 nbuf0_2 hstage0_2

abbrev spec0_3 : Pipeline.WinSpec sig grid0.rank :=
  Pipeline.WinSpec.ofSpec (Memref.whole main_v106) S1x128x128.size reads0_3 false false 2 stage0_3 sem0_3 nbuf0_3 hstage0_3

abbrev spec0_4 : Pipeline.WinSpec sig grid0.rank :=
  Pipeline.WinSpec.ofSpec (Memref.whole main_v107) S8192x128.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 k0_off1_inb numel1_S1 pf | 3 => cc0_transform_3 k0_off1_inb numel1_S1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 pf | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_2 k0_off1_inb numel1_S1 pf i a + 1) * S1x128x128.size a ≤ S6x128x128.size a), EltTy.bits .bf16 = 32 ∨ (Rect.block (s := S6x128x128) S1x128x128.size (cc0_transform_2 k0_off1_inb numel1_S1 pf i) h).WholeWords (EltTy.packing .bf16)) ∧
  (∀ i : grid0.Coords, ∃ h : (∀ a, (cc0_transform_3 k0_off1_inb numel1_S1 pf i a + 1) * S1x128x128.size a ≤ S6x128x128.size a), EltTy.bits .bf16 = 32 ∨ (Rect.block (s := S6x128x128) S1x128x128.size (cc0_transform_3 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => fun i a => (hok.1 i).elim fun h _ => h a | 3 => fun i a => (hok.2 i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => fun i => (hok.1 i).elim fun _ h => h | 3 => fun i => (hok.2 i).elim fun _ h => h | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S200000x128 : Shape := ⟨2, ![200000, 128]⟩
abbrev S3x240000 : Shape := ⟨2, ![3, 240000]⟩
abbrev S6x256x128 : Shape := ⟨3, ![6, 256, 128]⟩
abbrev S1x240000 : Shape := ⟨2, ![1, 240000]⟩
abbrev S240000 : Shape := ⟨1, ![240000]⟩
abbrev S_ : Shape := ⟨0, ![]⟩
abbrev S240000x1 : Shape := ⟨2, ![240000, 1]⟩
abbrev S240000x128 : Shape := ⟨2, ![240000, 128]⟩
abbrev S240000x256 : Shape := ⟨2, ![240000, 256]⟩
abbrev S1x256x128 : Shape := ⟨3, ![1, 256, 128]⟩
abbrev S256x128 : Shape := ⟨2, ![256, 128]⟩

abbrev nBuf : Space → Nat
  | .hbm => 106
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S3x240000, .i32⟩
  | .hbm, ⟨2, _⟩ => ⟨S6x256x128, .f32⟩
  | .hbm, ⟨3, _⟩ => ⟨S1x240000, .i32⟩
  | .hbm, ⟨4, _⟩ => ⟨S240000, .i32⟩
  | .hbm, ⟨5, _⟩ => ⟨S1x240000, .i32⟩
  | .hbm, ⟨6, _⟩ => ⟨S240000, .i32⟩
  | .hbm, ⟨7, _⟩ => ⟨S1x240000, .i32⟩
  | .hbm, ⟨8, _⟩ => ⟨S240000, .i32⟩
  | .hbm, ⟨9, _⟩ => ⟨S_, .i32⟩
  | .hbm, ⟨10, _⟩ => ⟨S240000, .i32⟩
  | .hbm, ⟨11, _⟩ => ⟨S240000, .i1⟩
  | .hbm, ⟨12, _⟩ => ⟨S_, .i32⟩
  | .hbm, ⟨13, _⟩ => ⟨S240000, .i32⟩
  | .hbm, ⟨14, _⟩ => ⟨S240000, .i32⟩
  | .hbm, ⟨15, _⟩ => ⟨S240000, .i32⟩
  | .hbm, ⟨16, _⟩ => ⟨S240000x1, .i32⟩
  | .hbm, ⟨17, _⟩ => ⟨S240000x128, .f32⟩
  | .hbm, ⟨18, _⟩ => ⟨S_, .i32⟩
  | .hbm, ⟨19, _⟩ => ⟨S240000, .i32⟩
  | .hbm, ⟨20, _⟩ => ⟨S240000, .i1⟩
  | .hbm, ⟨21, _⟩ => ⟨S_, .i32⟩
  | .hbm, ⟨22, _⟩ => ⟨S240000, .i32⟩
  | .hbm, ⟨23, _⟩ => ⟨S240000, .i32⟩
  | .hbm, ⟨24, _⟩ => ⟨S240000, .i32⟩
  | .hbm, ⟨25, _⟩ => ⟨S240000x1, .i32⟩
  | .hbm, ⟨26, _⟩ => ⟨S240000x128, .f32⟩
  | .hbm, ⟨27, _⟩ => ⟨S240000x256, .f32⟩
  | .hbm, ⟨28, _⟩ => ⟨S_, .f32⟩
  | .hbm, ⟨29, _⟩ => ⟨S240000x128, .f32⟩
  | .hbm, ⟨30, _⟩ => ⟨S_, .i32⟩
  | .hbm, ⟨31, _⟩ => ⟨S240000, .i32⟩
  | .hbm, ⟨32, _⟩ => ⟨S240000, .i1⟩
  | .hbm, ⟨33, _⟩ => ⟨S240000x1, .i1⟩
  | .hbm, ⟨34, _⟩ => ⟨S1x256x128, .f32⟩
  | .hbm, ⟨35, _⟩ => ⟨S256x128, .f32⟩
  | .hbm, ⟨36, _⟩ => ⟨S240000x128, .f32⟩
  | .hbm, ⟨37, _⟩ => ⟨S_, .f32⟩
  | .hbm, ⟨38, _⟩ => ⟨S240000x128, .i1⟩
  | .hbm, ⟨39, _⟩ => ⟨S240000x128, .f32⟩
  | .hbm, ⟨40, _⟩ => ⟨S240000x128, .f32⟩
  | .hbm, ⟨41, _⟩ => ⟨S240000x128, .f32⟩
  | .hbm, ⟨42, _⟩ => ⟨S_, .i32⟩
  | .hbm, ⟨43, _⟩ => ⟨S240000, .i32⟩
  | .hbm, ⟨44, _⟩ => ⟨S240000, .i1⟩
  | .hbm, ⟨45, _⟩ => ⟨S240000x1, .i1⟩
  | .hbm, ⟨46, _⟩ => ⟨S1x256x128, .f32⟩
  | .hbm, ⟨47, _⟩ => ⟨S256x128, .f32⟩
  | .hbm, ⟨48, _⟩ => ⟨S240000x128, .f32⟩
  | .hbm, ⟨49, _⟩ => ⟨S_, .f32⟩
  | .hbm, ⟨50, _⟩ => ⟨S240000x128, .i1⟩
  | .hbm, ⟨51, _⟩ => ⟨S240000x128, .f32⟩
  | .hbm, ⟨52, _⟩ => ⟨S240000x128, .f32⟩
  | .hbm, ⟨53, _⟩ => ⟨S240000x128, .f32⟩
  | .hbm, ⟨54, _⟩ => ⟨S_, .i32⟩
  | .hbm, ⟨55, _⟩ => ⟨S240000, .i32⟩
  | .hbm, ⟨56, _⟩ => ⟨S240000, .i1⟩
  | .hbm, ⟨57, _⟩ => ⟨S240000x1, .i1⟩
  | .hbm, ⟨58, _⟩ => ⟨S1x256x128, .f32⟩
  | .hbm, ⟨59, _⟩ => ⟨S256x128, .f32⟩
  | .hbm, ⟨60, _⟩ => ⟨S240000x128, .f32⟩
  | .hbm, ⟨61, _⟩ => ⟨S_, .f32⟩
  | .hbm, ⟨62, _⟩ => ⟨S240000x128, .i1⟩
  | .hbm, ⟨63, _⟩ => ⟨S240000x128, .f32⟩
  | .hbm, ⟨64, _⟩ => ⟨S240000x128, .f32⟩
  | .hbm, ⟨65, _⟩ => ⟨S240000x128, .f32⟩
  | .hbm, ⟨66, _⟩ => ⟨S_, .i32⟩
  | .hbm, ⟨67, _⟩ => ⟨S240000, .i32⟩
  | .hbm, ⟨68, _⟩ => ⟨S240000, .i1⟩
  | .hbm, ⟨69, _⟩ => ⟨S240000x1, .i1⟩
  | .hbm, ⟨70, _⟩ => ⟨S1x256x128, .f32⟩
  | .hbm, ⟨71, _⟩ => ⟨S256x128, .f32⟩
  | .hbm, ⟨72, _⟩ => ⟨S240000x128, .f32⟩
  | .hbm, ⟨73, _⟩ => ⟨S_, .f32⟩
  | .hbm, ⟨74, _⟩ => ⟨S240000x128, .i1⟩
  | .hbm, ⟨75, _⟩ => ⟨S240000x128, .f32⟩
  | .hbm, ⟨76, _⟩ => ⟨S240000x128, .f32⟩
  | .hbm, ⟨77, _⟩ => ⟨S240000x128, .f32⟩
  | .hbm, ⟨78, _⟩ => ⟨S_, .i32⟩
  | .hbm, ⟨79, _⟩ => ⟨S240000, .i32⟩
  | .hbm, ⟨80, _⟩ => ⟨S240000, .i1⟩
  | .hbm, ⟨81, _⟩ => ⟨S240000x1, .i1⟩
  | .hbm, ⟨82, _⟩ => ⟨S1x256x128, .f32⟩
  | .hbm, ⟨83, _⟩ => ⟨S256x128, .f32⟩
  | .hbm, ⟨84, _⟩ => ⟨S240000x128, .f32⟩
  | .hbm, ⟨85, _⟩ => ⟨S_, .f32⟩
  | .hbm, ⟨86, _⟩ => ⟨S240000x128, .i1⟩
  | .hbm, ⟨87, _⟩ => ⟨S240000x128, .f32⟩
  | .hbm, ⟨88, _⟩ => ⟨S240000x128, .f32⟩
  | .hbm, ⟨89, _⟩ => ⟨S240000x128, .f32⟩
  | .hbm, ⟨90, _⟩ => ⟨S_, .i32⟩
  | .hbm, ⟨91, _⟩ => ⟨S240000, .i32⟩
  | .hbm, ⟨92, _⟩ => ⟨S240000, .i1⟩
  | .hbm, ⟨93, _⟩ => ⟨S240000x1, .i1⟩
  | .hbm, ⟨94, _⟩ => ⟨S1x256x128, .f32⟩
  | .hbm, ⟨95, _⟩ => ⟨S256x128, .f32⟩
  | .hbm, ⟨96, _⟩ => ⟨S240000x128, .f32⟩
  | .hbm, ⟨97, _⟩ => ⟨S_, .f32⟩
  | .hbm, ⟨98, _⟩ => ⟨S240000x128, .i1⟩
  | .hbm, ⟨99, _⟩ => ⟨S240000x128, .f32⟩
  | .hbm, ⟨100, _⟩ => ⟨S240000x128, .f32⟩
  | .hbm, ⟨101, _⟩ => ⟨S240000x128, .f32⟩
  | .hbm, ⟨102, _⟩ => ⟨S_, .f32⟩
  | .hbm, ⟨103, _⟩ => ⟨S200000x128, .f32⟩
  | .hbm, ⟨104, _⟩ => ⟨S240000x1, .i32⟩
  | .hbm, ⟨105, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_call1_v0 : Ref sig .tc := ⟨.hbm, 50, rfl⟩
abbrev main_call1_v1 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_call3_v0 : Ref sig .tc := ⟨.hbm, 74, rfl⟩
abbrev main_call3_v1 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_call4_v0 : Ref sig .tc := ⟨.hbm, 86, rfl⟩
abbrev main_call4_v1 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_call5_v0 : Ref sig .tc := ⟨.hbm, 98, rfl⟩
abbrev main_call5_v1 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]

class Facts₀ : Prop where
  slices_S3x240000_S1x240000_0_0 : S3x240000.Slices ![0, 0] S1x240000
  shapeCasts_S1x240000_S240000 : S1x240000.ShapeCasts S240000
  slices_S3x240000_S1x240000_1_0 : S3x240000.Slices ![1, 0] S1x240000
  slices_S3x240000_S1x240000_2_0 : S3x240000.Slices ![2, 0] S1x240000
  bcast_S_S240000 : S_.BroadcastsInDim S240000 (![] : Fin 0 → Fin S240000.rank)
  bcast_S240000_S240000x1_0 : S240000.BroadcastsInDim S240000x1 (![0] : Fin 1 → Fin S240000x1.rank)
  concatenates_S240000x128_S240000x128_S240000x256_d1 : Shape.Concatenates [S240000x128, S240000x128] S240000x256 1
  bcast_S_S240000x128 : S_.BroadcastsInDim S240000x128 (![] : Fin 0 → Fin S240000x128.rank)
  slices_S6x256x128_S1x256x128_0_0_0 : S6x256x128.Slices ![0, 0, 0] S1x256x128
  shapeCasts_S1x256x128_S256x128 : S1x256x128.ShapeCasts S256x128
  bcast_S240000x1_S240000x128_0_1 : S240000x1.BroadcastsInDim S240000x128 (![0, 1] : Fin 2 → Fin S240000x128.rank)
  slices_S6x256x128_S1x256x128_1_0_0 : S6x256x128.Slices ![1, 0, 0] S1x256x128
  slices_S6x256x128_S1x256x128_2_0_0 : S6x256x128.Slices ![2, 0, 0] S1x256x128
  slices_S6x256x128_S1x256x128_3_0_0 : S6x256x128.Slices ![3, 0, 0] S1x256x128
  slices_S6x256x128_S1x256x128_4_0_0 : S6x256x128.Slices ![4, 0, 0] S1x256x128
  slices_S6x256x128_S1x256x128_5_0_0 : S6x256x128.Slices ![5, 0, 0] S1x256x128
  bcast_S_S200000x128 : S_.BroadcastsInDim S200000x128 (![] : Fin 0 → Fin S200000x128.rank)
  gather_S200000x128_S240000x1_S240000x128_1_0_n_n_0_1_1128_wf : GatherDims.WF S200000x128 S240000x1 S240000x128 [1] [0] [] [0] [] 1 ![1, 128]
  dot_S240000x256_S256x128_S240000x128_1_0_0_1_n_n_wf : DotDims.WF S240000x256 S256x128 S240000x128 [1] [0] [0] [1] [] []
  scatter_S200000x128_S240000x1_S240000x128_1_0_0_1_wf : ScatterDims.WF S200000x128 S240000x1 S240000x128 [1] [0] [0] 1

variable [Facts₀]

def gather_S200000x128_S240000x1_S240000x128_1_0_n_n_0_1_1128 : GatherDims S200000x128 S240000x1 S240000x128 where
  offsetDims := [1]
  collapsedSliceDims := [0]
  operandBatchingDims := []
  startIndicesBatchingDims := []
  startIndexMap := [0]
  indexVectorDim := 1
  sliceSizes := ![1, 128]
  wf := gather_S200000x128_S240000x1_S240000x128_1_0_n_n_0_1_1128_wf
def dot_S240000x256_S256x128_S240000x128_1_0_0_1_n_n : DotDims S240000x256 S256x128 S240000x128 where
  lhsContracting := [1]
  rhsContracting := [0]
  lhsNonContracting := [0]
  rhsNonContracting := [1]
  lhsBatch := []
  rhsBatch := []
  wf := dot_S240000x256_S256x128_S240000x128_1_0_0_1_n_n_wf
def scatter_S200000x128_S240000x1_S240000x128_1_0_0_1 : ScatterDims S200000x128 S240000x1 S240000x128 where
  updateWindowDims := [1]
  insertedWindowDims := [0]
  scatterDimsToOperandDims := [0]
  indexVectorDim := 1
  wf := scatter_S200000x128_S240000x1_S240000x128_1_0_0_1_wf

class Facts : Prop extends Facts₀ where

variable [Facts]
-- ==== Proof.OkPre.lean ====
/-
  The side condition of the launch's prefetched table, from nothing: the table is computed by the program itself as
  min(number of the six boundaries a tile's start has reached, 5), so each of its 36 words is below 6 as an
  unsigned number whatever the inputs are, and the block (word, 0, 0) of extents [1, 128, 128] the two weight
  windows fetch lies inside the [6, 128, 128] arrays; its rows are whole 128-element rows of a 16-bit type, so its
  transfers are word-exact.
-/
import proofs.«420624_j70128226009226_3_alg».proof.Proof.Gen.KernelIdeal.Frame
import Idealize.ShloMosaic.Lib.StableHlo.Predicate
import Idealize.ShloMosaic.Lib.StableHlo.Run
import Idealize.ShloMosaic.Lib.Affine

set_option maxRecDepth 16384

noncomputable section

namespace Cert.OkPre

open Cert.KernelIdeal Cert.KernelIdeal.Gen
open Idealize.ShloMosaic Idealize.ShloMosaic.TcCoe Idealize.SL.Sem
open Idealize.ShloMosaic.StableHlo.Predicate

variable {F : FTy → Type} [FloatOps F]

/-! ## A count of six bits, capped at five, is below six -/

/-- The signed minimum of a word that is at most 6 and the word 5 is below 6, unsigned. -/
theorem minsi_five_lt (x : BitVec 32) (hx : x.toNat ≤ 6) : (IntOp.minsi x 5#32).toNat < 6 := by
  unfold IntOp.minsi
  split
  · rename_i hc
    have hti : x.toInt = x.toNat := toInt_eq_toNat_of_lt (by omega)
    have h5 : (5#32 : BitVec 32).toInt = 5 := by decide
    simp only [BitVec.slt, hti, h5, decide_eq_true_eq] at hc
    omega
  · decide

/-- Whatever the [36 × 6] mask `X` is: the row sums of its widened bits, capped at 5, are all below 6. -/
theorem capped_count_lt (X : IVec ⟨2, ![36, 6]⟩ 1) (hw : 1 < 32)
    (hr : (⟨2, ![36, 6]⟩ : Shape).ReducesTo [1] ⟨1, ![36]⟩) (h0 : 0 < (⟨0, ![]⟩ : Shape).numel)
    (hb : (⟨0, ![]⟩ : Shape).BroadcastsInDim ⟨1, ![36]⟩ ![]) (j : (⟨1, ![36]⟩ : Shape).Idx) :
    (minsi (Host.reduce IntOp.addi (extui 32 X hw) (constantI ⟨0, ![]⟩ 32 0#32) hr h0)
      (broadcastInDim ⟨1, ![36]⟩ ![] hb (constantI ⟨0, ![]⟩ 32 5#32)) j).toNat < 6 := by
  show (IntOp.minsi (Host.reduce IntOp.addi (extui 32 X hw) (constantI ⟨0, ![]⟩ 32 0#32) hr h0 j)
    (broadcastInDim ⟨1, ![36]⟩ ![] hb (constantI ⟨0, ![]⟩ 32 5#32) j)).toNat < 6
  rw [bcast_scalar hb h0]
  show (IntOp.minsi _ 5#32).toNat < 6
  apply minsi_five_lt
  rw [toNat_reduce_count_cols (by decide) X hw hr h0 j]
  exact (Finset.card_le_univ _).trans (by simp)

/-! ## The side condition at any contents whose words are below six -/

/-- With the table's contents a variable: if every word is below 6, both weight windows' blocks lie inside their
    arrays at every grid point — (word + 1) · 1 ≤ 6 on the first axis, one whole [128, 128] tile on the others —
    and end on whole words (the block's rows are 128 elements of a type packed two to a word). -/
theorem ok0_of_lt (pf : pre0.Contents (Elt F)) (hpf : ∀ x, (pf 0 x).toNat < 6) : ok0 (F := F) pf := by
  refine ⟨fun i => ?_, fun i => ?_⟩
  · obtain ⟨w, hw, e⟩ : ∃ w : BitVec 32, w.toNat < 6 ∧ cc0_transform_2 k0_off1_inb numel1_S1 pf i = ![w.toNat, 0, 0] :=
      ⟨_, hpf _, rfl⟩
    refine ⟨fun a => ?_, .inr (Affine.block_words_dvd (of_decide_eq_true rfl) (by decide))⟩
    rw [e]
    fin_cases a <;> simp [S1x128x128, S6x128x128] <;> omega
  · obtain ⟨w, hw, e⟩ : ∃ w : BitVec 32, w.toNat < 6 ∧ cc0_transform_3 k0_off1_inb numel1_S1 pf i = ![w.toNat, 0, 0] :=
      ⟨_, hpf _, rfl⟩
    refine ⟨fun a => ?_, .inr (Affine.block_words_dvd (of_decide_eq_true rfl) (by decide))⟩
    rw [e]
    fin_cases a <;> simp [S1x128x128, S6x128x128] <;> omega

/-! ## The table the launch holds -/

variable (m : (ℓ : Loc nD τ sig) → Buf (Elt F) ℓ)

/-- The table's contents when the region is entered, read off the host operations before it: the signed minimum
    of the row sums of a widened [36 × 6] mask (the comparisons of the tile starts with the group boundaries, whose
    value does not matter here) and the constant 5. Only the last three operations' shape is stated; the mask is
    whatever the operations before them leave. -/
theorem tbl_eq : ∃ X : IVec S36x6 1, (tbl m 0 : IVec S36 32)
    = minsi (Host.reduce IntOp.addi (extui 32 X natLt_1_32) (constantI S_ 32 0#32) reducesTo_S36x6_S36_d1 h_S_)
        (broadcastInDim S36 ![] bcast_S_S36 (constantI S_ 32 5#32)) := by
  refine ⟨?_, ?_⟩
  swap
  unfold Gen.tbl
  show V m 0 main_v87 = _
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  rfl

/-- Every word of the table is below 6. -/
theorem tbl_lt (x : S36.Idx) : ((tbl m 0 : IVec S36 32) x).toNat < 6 := by
  obtain ⟨X, e⟩ := tbl_eq m
  rw [e]
  exact capped_count_lt X natLt_1_32 reducesTo_S36x6_S36_d1 h_S_ bcast_S_S36 x

/-- The pipeline's side condition holds of the table the launch holds, with no precondition. -/
theorem ok : Cert.KernelIdeal.Gen.Ok (F := F) m :=
  ok0_of_lt (tbl m) (tbl_lt m)

end Cert.OkPre

end
-- ==== Proof.OkPreBits.lean ====
/-
  The side condition of the launch's prefetched table, from nothing: the table is computed by the program itself as
  min(number of the six boundaries a tile's start has reached, 5), so each of its 36 words is below 6 as an
  unsigned number whatever the inputs are, and the block (word, 0, 0) of extents [1, 128, 128] the two weight
  windows fetch lies inside the [6, 128, 128] arrays; its rows are whole 128-element rows of a 16-bit type, so its
  transfers are word-exact.
-/
import proofs.«420624_j70128226009226_3_alg».proof.Proof.Gen.Kernel.Frame
import Idealize.ShloMosaic.Lib.StableHlo.Predicate
import Idealize.ShloMosaic.Lib.StableHlo.Run
import Idealize.ShloMosaic.Lib.Affine

set_option maxRecDepth 16384

noncomputable section

namespace Cert.OkPreBits

open Cert.Kernel Cert.Kernel.Gen
open Idealize.ShloMosaic Idealize.ShloMosaic.TcCoe Idealize.SL.Sem
open Idealize.ShloMosaic.StableHlo.Predicate

variable {F : FTy → Type} [FloatOps F]

/-! ## A count of six bits, capped at five, is below six -/

/-- The signed minimum of a word that is at most 6 and the word 5 is below 6, unsigned. -/
theorem minsi_five_lt (x : BitVec 32) (hx : x.toNat ≤ 6) : (IntOp.minsi x 5#32).toNat < 6 := by
  unfold IntOp.minsi
  split
  · rename_i hc
    have hti : x.toInt = x.toNat := toInt_eq_toNat_of_lt (by omega)
    have h5 : (5#32 : BitVec 32).toInt = 5 := by decide
    simp only [BitVec.slt, hti, h5, decide_eq_true_eq] at hc
    omega
  · decide

/-- Whatever the [36 × 6] mask `X` is: the row sums of its widened bits, capped at 5, are all below 6. -/
theorem capped_count_lt (X : IVec ⟨2, ![36, 6]⟩ 1) (hw : 1 < 32)
    (hr : (⟨2, ![36, 6]⟩ : Shape).ReducesTo [1] ⟨1, ![36]⟩) (h0 : 0 < (⟨0, ![]⟩ : Shape).numel)
    (hb : (⟨0, ![]⟩ : Shape).BroadcastsInDim ⟨1, ![36]⟩ ![]) (j : (⟨1, ![36]⟩ : Shape).Idx) :
    (minsi (Host.reduce IntOp.addi (extui 32 X hw) (constantI ⟨0, ![]⟩ 32 0#32) hr h0)
      (broadcastInDim ⟨1, ![36]⟩ ![] hb (constantI ⟨0, ![]⟩ 32 5#32)) j).toNat < 6 := by
  show (IntOp.minsi (Host.reduce IntOp.addi (extui 32 X hw) (constantI ⟨0, ![]⟩ 32 0#32) hr h0 j)
    (broadcastInDim ⟨1, ![36]⟩ ![] hb (constantI ⟨0, ![]⟩ 32 5#32) j)).toNat < 6
  rw [bcast_scalar hb h0]
  show (IntOp.minsi _ 5#32).toNat < 6
  apply minsi_five_lt
  rw [toNat_reduce_count_cols (by decide) X hw hr h0 j]
  exact (Finset.card_le_univ _).trans (by simp)

/-! ## The side condition at any contents whose words are below six -/

/-- With the table's contents a variable: if every word is below 6, both weight windows' blocks lie inside their
    arrays at every grid point — (word + 1) · 1 ≤ 6 on the first axis, one whole [128, 128] tile on the others —
    and end on whole words (the block's rows are 128 elements of a type packed two to a word). -/
theorem ok0_of_lt (pf : pre0.Contents (Elt F)) (hpf : ∀ x, (pf 0 x).toNat < 6) : ok0 (F := F) pf := by
  refine ⟨fun i => ?_, fun i => ?_⟩
  · obtain ⟨w, hw, e⟩ : ∃ w : BitVec 32, w.toNat < 6 ∧ cc0_transform_2 k0_off1_inb numel1_S1 pf i = ![w.toNat, 0, 0] :=
      ⟨_, hpf _, rfl⟩
    refine ⟨fun a => ?_, .inr (Affine.block_words_dvd (of_decide_eq_true rfl) (by decide))⟩
    rw [e]
    fin_cases a <;> simp [S1x128x128, S6x128x128] <;> omega
  · obtain ⟨w, hw, e⟩ : ∃ w : BitVec 32, w.toNat < 6 ∧ cc0_transform_3 k0_off1_inb numel1_S1 pf i = ![w.toNat, 0, 0] :=
      ⟨_, hpf _, rfl⟩
    refine ⟨fun a => ?_, .inr (Affine.block_words_dvd (of_decide_eq_true rfl) (by decide))⟩
    rw [e]
    fin_cases a <;> simp [S1x128x128, S6x128x128] <;> omega

/-! ## The table the launch holds -/

variable (m : (ℓ : Loc nD τ sig) → Buf (Elt F) ℓ)

/-- The table's contents when the region is entered, read off the host operations before it: the signed minimum
    of the row sums of a widened [36 × 6] mask (the comparisons of the tile starts with the group boundaries, whose
    value does not matter here) and the constant 5. Only the last three operations' shape is stated; the mask is
    whatever the operations before them leave. -/
theorem tbl_eq : ∃ X : IVec S36x6 1, (tbl m 0 : IVec S36 32)
    = minsi (Host.reduce IntOp.addi (extui 32 X natLt_1_32) (constantI S_ 32 0#32) reducesTo_S36x6_S36_d1 h_S_)
        (broadcastInDim S36 ![] bcast_S_S36 (constantI S_ 32 5#32)) := by
  refine ⟨?_, ?_⟩
  swap
  unfold Gen.tbl
  show V m 0 main_v87 = _
  dsimp only [Gen.V, Gen.V0]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, Gen.hostOps0_11, Gen.hostOps0_12, Gen.hostOps0_13, Gen.hostOps0_14,
    List.flatten_cons, List.flatten_nil, List.append_nil, List.cons_append, List.nil_append]
  after_results_simp
  rfl

/-- Every word of the table is below 6. -/
theorem tbl_lt (x : S36.Idx) : ((tbl m 0 : IVec S36 32) x).toNat < 6 := by
  obtain ⟨X, e⟩ := tbl_eq m
  rw [e]
  exact capped_count_lt X natLt_1_32 reducesTo_S36x6_S36_d1 h_S_ bcast_S_S36 x

/-- The pipeline's side condition holds of the table the launch holds, with no precondition. -/
theorem ok : Cert.Kernel.Gen.Ok (F := F) m :=
  ok0_of_lt (tbl m) (tbl_lt m)

end Cert.OkPreBits

end
-- ==== Proof.PreDecode.lean ====
/-
  The precondition decoded into the one fact used about the integer input: every word of row 0 of the edge table
  (the edge type) lies in 1 … 6, read signed. The precondition is a conjunction of three conditions, each an
  and-reduction over a whole array; only the third is opened. It is the and-reduction, over all 240000 positions, of
  (x ≥ 1) ∧ (x ≤ 6), where x is row 0 of the table: the unit-stride slice [0:1, 0:240000] with its unit axis dropped.
-/
import proofs.«420624_j70128226009226_3_alg».proof.Proof.Gen.Pre_finite_inputs
import Idealize.ShloMosaic.Lib.ReduceAll
import Idealize.ShloMosaic.Lib.ValueLayout

noncomputable section

namespace Cert.PreDecode

open Idealize.ShloMosaic Idealize.ShloMosaic.ValueIdx

/-- The scalar shape has exactly one index. -/
instance : Subsingleton Cert.Pre_finite_inputs.S_.Idx := ⟨fun a b => funext fun d => d.elim0⟩

/-- Rows [0, 1) of a [3 × 240000] table, viewed as a vector, read at `e` the table at (0, e). -/
theorem row0_read (te : IVec Cert.Pre_finite_inputs.S3x240000 32)
    (hs : Cert.Pre_finite_inputs.S3x240000.Slices ![0, 0] Cert.Pre_finite_inputs.S1x240000)
    (hc : Cert.Pre_finite_inputs.S1x240000.ShapeCasts Cert.Pre_finite_inputs.S240000) (e : Fin 240000) :
    shapeCast Cert.Pre_finite_inputs.S240000 (extractStridedSlice Cert.Pre_finite_inputs.S1x240000 ![0, 0] te hs) hc (ix1 e)
      = te (ix2 (0 : Fin 3) e) :=
  (shapeCast_1a_a_apply _ hc e).trans (slice2_axis0_apply 0 te hs (0 : Fin 1) e (0 : Fin 3) rfl)

/-- Under the precondition every edge type word is between 1 and 6, as a signed integer. -/
theorem etype_range {F : FTy → Type} [FloatOps F] (se : FVec F Cert.Pre_finite_inputs.S200000x128 .f32) (te : IVec Cert.Pre_finite_inputs.S3x240000 32) (W : FVec F Cert.Pre_finite_inputs.S6x256x128 .f32)
    (hpre : Cert.Pre_finite_inputs.fn (F := F) se te W = fun _ => 1#1) :
    ∀ e : Fin 240000, 1 ≤ (te (ix2 (0 : Fin 3) e)).toInt ∧ (te (ix2 (0 : Fin 3) e)).toInt ≤ 6 := by
  intro e
  have h0 := congrFun hpre ix0
  dsimp only [Cert.Pre_finite_inputs.fn, Cert.Pre_finite_inputs.fn_part1] at h0
  -- the third conjunct: the and-reduction over all positions is 1
  have h3 := (IntOp.andi_eq_one.1 h0).2
  -- so the reduced mask is 1 at position e
  have hall := Host.reduce_andi_all _ _ _ _ _ h3 (ix1 e)
  -- the mask at e is (x ≥ 1) ∧ (x ≤ 6), x the reshaped slice at e; each compare is one of signed integers
  obtain ⟨hge, hle⟩ := IntOp.andi_eq_one.1 hall
  have hge' := IntOp.cmpi_sge.1 hge
  have hle' := IntOp.cmpi_sle.1 hle
  -- x is the table at (0, e); a broadcast scalar reads the scalar everywhere
  rw [row0_read] at hge' hle'
  have hge'' : (1#32 : BitVec 32).toInt ≤ (te (ix2 (0 : Fin 3) e)).toInt := hge'
  have hle'' : (te (ix2 (0 : Fin 3) e)).toInt ≤ (6#32 : BitVec 32).toInt := hle'
  rw [show (1#32 : BitVec 32).toInt = 1 from by decide] at hge''
  rw [show (6#32 : BitVec 32).toInt = 6 from by decide] at hle''
  exact ⟨hge'', hle''⟩

end Cert.PreDecode

end
-- ==== Proof.KSpec.lean ====
/-
  The arrays the kernel's entry point computes around its one launch, each as a function of the three
  arguments: the edge types, sources and targets (rows of the edge table), each edge's rank among the edges
  of its type (a running count of a one-hot table), the per-type counts rounded up to whole tiles, where each
  type's run of slots starts and ends, each edge's slot, the source and target tables laid out by slot, the
  type each tile serves, the node rows gathered by slot, and the two halves of the weights.
-/
import proofs.«420624_j70128226009226_3_alg».proof.Proof.Gen.KernelIdeal

noncomputable section

namespace Cert.KSpec

open Idealize.ShloMosaic Cert.KernelIdeal Cert.KernelIdeal.Facts₀

/-- The edge table: row 0 the edge types, row 1 the sources, row 2 the targets. -/
abbrev TE : Type := IVec S3x240000 32

/-- A scalar word. -/
def cst (n : BitVec 32) : IVec S_ 32 := constantI S_ 32 n

/-- Row 0: the edge types. -/
def etypeA (te : TE) : IVec S240000 32 :=
  shapeCast S240000 (extractStridedSlice S1x240000 ![0, 0] te slices_S3x240000_S1x240000_0_0) shapeCasts_S1x240000_S240000
/-- Row 1: the sources. -/
def srcA (te : TE) : IVec S240000 32 :=
  shapeCast S240000 (extractStridedSlice S1x240000 ![1, 0] te slices_S3x240000_S1x240000_1_0) shapeCasts_S1x240000_S240000
/-- Row 2: the targets. -/
def tgtA (te : TE) : IVec S240000 32 :=
  shapeCast S240000 (extractStridedSlice S1x240000 ![2, 0] te slices_S3x240000_S1x240000_2_0) shapeCasts_S1x240000_S240000

/-- The type numbers 1 … 6. -/
def typeIdsA : IVec S6 32 := addi (broadcastInDim S6 ![] bcast_S_S6 (cst 1#32)) (iotaInDim S6 32 0)

/-- The one-hot table: entry (e, t) is 1 when edge e has type t + 1. -/
def onehotA (te : TE) : IVec S240000x6 32 :=
  extui 32 (cmpi .eq
    (broadcastInDim S240000x6 ![0, 1] bcast_S240000x1_S240000x6_0_1 (broadcastInDim S240000x1 ![0] bcast_S240000_S240000x1_0 (etypeA te)))
    (broadcastInDim S240000x6 ![0, 1] bcast_S1x6_S240000x6_0_1 (broadcastInDim S1x6 ![1] bcast_S6_S1x6_1 typeIdsA))) natLt_1_32

/-- Its running sums down the edges: entry (e, t) counts the edges up to e of type t + 1. -/
def rankA (te : TE) : IVec S240000x6 32 :=
  Host.reduceWindow IntOp.addi ![240000, 1] ![1, 1] ![239999, 0] ![0, 0] (onehotA te) (broadcastInDim S_ ![] bcast_S_S_ (cst 0#32))
    reduceWindows_S240000x6_S240000x6_w240000s1p239999_0_w1s1p0_0 h_S_

/-- The last row of the running sums: the count of each type. -/
def countsA (te : TE) : IVec S6 32 :=
  shapeCast S6 (extractStridedSlice S1x6 ![239999, 0] (rankA te) slices_S240000x6_S1x6_239999_0) shapeCasts_S1x6_S6

/-- Whether an edge's type lies in 1 … 6. -/
def validA (te : TE) : IVec S240000 1 :=
  andi (cmpi .sge (etypeA te) (broadcastInDim S240000 ![] bcast_S_S240000 (cst 1#32)))
       (cmpi .sle (etypeA te) (broadcastInDim S240000 ![] bcast_S_S240000 (cst 6#32)))

/-- The type index: the type less one, clamped into 0 … 5. -/
def tidxA (te : TE) : IVec S240000 32 :=
  minsi (broadcastInDim S240000 ![] bcast_S_S240000 (id (cst 5#32)))
    (maxsi (broadcastInDim S240000 ![] bcast_S_S240000 (id (cst 0#32)))
      (subi (etypeA te) (broadcastInDim S240000 ![] bcast_S_S240000 (cst 1#32))))

/-- The type index as a column. -/
def tidxColA (te : TE) : IVec S240000x1 32 := broadcastInDim S240000x1 ![0] bcast_S240000_S240000x1_0 (tidxA te)

/-- The column index of the running-sum table each edge reads: its type index, a negative one moved up by 6. -/
def takeIdxA (te : TE) : IVec S240000x1x1 32 :=
  shapeCast S240000x1x1
    (select (cmpi .slt (tidxColA te) (broadcastInDim S240000x1 ![] bcast_S_S240000x1 (cst 0#32)))
      (addi (tidxColA te) (broadcastInDim S240000x1 ![] bcast_S_S240000x1 (cst 6#32))) (tidxColA te))
    shapeCasts_S240000x1_S240000x1x1

/-- Each edge's entry of the running sums in its own type's column (a fill word where the index is out of range). -/
def takenA (te : TE) : IVec S240000x1 32 :=
  select
    (Host.reduce IntOp.andi
      (andi (cmpi .sge (takeIdxA te) (broadcastInDim S240000x1x1 ![] bcast_S_S240000x1x1 (cst 0#32)))
            (cmpi .sle (takeIdxA te) (broadcastInDim S240000x1x1 ![0, 1, 2] bcast_S1x1x1_S240000x1x1_0_1_2
              (broadcastInDim S1x1x1 ![2] bcast_S1_S1x1x1_2 (constantI S1 32 5#32)))))
      (constantI S_ 1 1#1) reducesTo_S240000x1x1_S240000x1_d2 h_S_)
    (Host.gather gather_S240000x6_S240000x1x1_S240000x1_n_1_0_0_1_2_11 (rankA te) (takeIdxA te))
    (broadcastInDim S240000x1 ![] bcast_S_S240000x1 (cst 2147483648#32))

/-- Each edge's rank among the edges of its type, from 0. -/
def localA (te : TE) : IVec S240000 32 :=
  subi (shapeCast S240000 (takenA te) shapeCasts_S240000x1_S240000) (broadcastInDim S240000 ![] bcast_S_S240000 (cst 1#32))

/-- The counts plus 8191. -/
def countsUpA (te : TE) : IVec S6 32 :=
  subi (addi (countsA te) (broadcastInDim S6 ![] bcast_S_S6 (cst 8192#32))) (broadcastInDim S6 ![] bcast_S_S6 (cst 1#32))

/-- That, divided by 8192 rounding down (the quotient, less one where the signs differ and the remainder is not zero). -/
def tilesA (te : TE) : IVec S6 32 :=
  select
    (andi (cmpi .ne (signi (countsUpA te)) (broadcastInDim S6 ![] bcast_S_S6 (signi (id (cst 8192#32)))))
          (cmpi .ne (Host.remsi (countsUpA te) (broadcastInDim S6 ![] bcast_S_S6 (id (cst 8192#32)))) (broadcastInDim S6 ![] bcast_S_S6 (cst 0#32))))
    (subi (Host.divsi (countsUpA te) (broadcastInDim S6 ![] bcast_S_S6 (id (cst 8192#32)))) (broadcastInDim S6 ![] bcast_S_S6 (cst 1#32)))
    (Host.divsi (countsUpA te) (broadcastInDim S6 ![] bcast_S_S6 (id (cst 8192#32))))

/-- The counts rounded up to whole tiles of 8192. -/
def pcountsA (te : TE) : IVec S6 32 := muli (tilesA te) (broadcastInDim S6 ![] bcast_S_S6 (cst 8192#32))

/-- Their running sums: where each type's run of slots ends. -/
def boundsA (te : TE) : IVec S6 32 :=
  Host.reduceWindow IntOp.addi ![6] ![1] ![5] ![0] (pcountsA te) (broadcastInDim S_ ![] bcast_S_S_ (cst 0#32)) reduceWindows_S6_S6_w6s1p5_0 h_S_

/-- Where each type's run starts: zero, then the first five ends. -/
def gstartA (te : TE) : IVec S6 32 :=
  concatenate S6 0 [⟨S1, broadcastInDim S1 ![] bcast_S_S1 (cst 0#32)⟩, ⟨S5, extractStridedSlice S5 ![0] (boundsA te) slices_S6_S5_0⟩] concatenates_S1_S5_S6_d0

/-- Each edge's slot: its type's start plus its rank. -/
def posA (te : TE) : IVec S240000 32 :=
  addi
    (Host.gather gather_S6_S240000x1_S240000_n_0_n_n_0_1_1 (gstartA te)
      (broadcastInDim S240000x1 ![0] bcast_S240000_S240000x1_0
        (select (cmpi .slt (tidxA te) (broadcastInDim S240000 ![] bcast_S_S240000 (cst 0#32)))
          (addi (tidxA te) (broadcastInDim S240000 ![] bcast_S_S240000 (cst 6#32))) (tidxA te))))
    (localA te)

/-- The slots as scatter indices: a negative one moved up by the number of slots. -/
def slotIdxA (te : TE) : IVec S240000x1 32 :=
  broadcastInDim S240000x1 ![0] bcast_S240000_S240000x1_0
    (select (cmpi .slt (posA te) (broadcastInDim S240000 ![] bcast_S_S240000 (cst 0#32)))
      (addi (posA te) (broadcastInDim S240000 ![] bcast_S_S240000 (cst 294912#32))) (posA te))

/-- The sources laid out by slot, zero where no edge lands. -/
def psrcA (te : TE) : IVec S294912 32 :=
  Host.scatter scatter_S294912_S240000x1_S240000_n_0_0_1 (fun _ b => b) (broadcastInDim S294912 ![] bcast_S_S294912 (cst 0#32)) (slotIdxA te) (srcA te)
/-- The targets laid out by slot, zero where no edge lands. -/
def ptgtGA (te : TE) : IVec S294912 32 :=
  Host.scatter scatter_S294912_S240000x1_S240000_n_0_0_1 (fun _ b => b) (broadcastInDim S294912 ![] bcast_S_S294912 (cst 0#32)) (slotIdxA te) (tgtA te)
/-- The targets laid out by slot for the final sum: the number of nodes where no edge lands or the type is out of range. -/
def ptgtSA (te : TE) : IVec S294912 32 :=
  Host.scatter scatter_S294912_S240000x1_S240000_n_0_0_1 (fun _ b => b) (broadcastInDim S294912 ![] bcast_S_S294912 (cst 200000#32)) (slotIdxA te)
    (select (validA te) (tgtA te) (broadcastInDim S240000 ![] bcast_S_S240000 (id (cst 200000#32))))

/-- The type index each tile of 8192 slots serves: the number of runs ending at or before the tile's first slot, at most 5. -/
def tgA (te : TE) : IVec S36 32 :=
  minsi
    (Host.reduce IntOp.addi
      (extui 32 (cmpi .sge
        (broadcastInDim S36x6 ![0, 1] bcast_S36x1_S36x6_0_1 (broadcastInDim S36x1 ![0] bcast_S36_S36x1_0
          (muli (iotaInDim S36 32 0) (broadcastInDim S36 ![] bcast_S_S36 (cst 8192#32)))))
        (broadcastInDim S36x6 ![0, 1] bcast_S1x6_S36x6_0_1 (broadcastInDim S1x6 ![1] bcast_S6_S1x6_1 (boundsA te)))) natLt_1_32)
      (cst 0#32) reducesTo_S36x6_S36_d1 h_S_)
    (broadcastInDim S36 ![] bcast_S_S36 (cst 5#32))

/-- A slot table as row indices of the node table: a negative word moved up by the number of nodes. -/
def rowIdxA (t : IVec S294912 32) : IVec S294912x1 32 :=
  broadcastInDim S294912x1 ![0] bcast_S294912_S294912x1_0
    (select (cmpi .slt t (broadcastInDim S294912 ![] bcast_S_S294912 (cst 0#32)))
      (addi t (broadcastInDim S294912 ![] bcast_S_S294912 (cst 200000#32))) t)

variable {F : FTy → Type} [FloatOps F]

/-- The node rows gathered by the slots' sources. -/
def xsA (se : FVec F S200000x128 .f32) (te : TE) : FVec F S294912x128 .bf16 :=
  truncf .bf16 (Host.gather gather_S200000x128_S294912x1_S294912x128_1_0_n_n_0_1_1128 se (rowIdxA (psrcA te))) bitsLt_bf16_f32
/-- The node rows gathered by the slots' targets. -/
def xtA (se : FVec F S200000x128 .f32) (te : TE) : FVec F S294912x128 .bf16 :=
  truncf .bf16 (Host.gather gather_S200000x128_S294912x1_S294912x128_1_0_n_n_0_1_1128 se (rowIdxA (ptgtGA te))) bitsLt_bf16_f32
/-- The weights' first 128 rows of each type. -/
def wtopA (w : FVec F S6x256x128 .f32) : FVec F S6x128x128 .bf16 :=
  extractStridedSlice S6x128x128 ![0, 0, 0] (truncf .bf16 w bitsLt_bf16_f32) slices_S6x256x128_S6x128x128_0_0_0
/-- The weights' last 128 rows of each type. -/
def wbotA (w : FVec F S6x256x128 .f32) : FVec F S6x128x128 .bf16 :=
  extractStridedSlice S6x128x128 ![0, 128, 0] (truncf .bf16 w bitsLt_bf16_f32) slices_S6x256x128_S6x128x128_0_128_0

/-- What follows the launch: the messages by slot widened, summed into the row the slot table `pt` names for each slot
    (one row more than there are nodes), the first 200000 rows kept. -/
def tailA (pt : IVec S294912 32) (msgs : FVec F S294912x128 .bf16) : FVec F S200000x128 .f32 :=
  extractStridedSlice S200000x128 ![0, 0]
    (Host.scatterAdd scatter_S200001x128_S294912x1_S294912x128_1_0_0_1
      (broadcastInDim S200001x128 ![] bcast_S_S200001x128 (constant S_ .f32 0x00000000#32))
      (broadcastInDim S294912x1 ![0] bcast_S294912_S294912x1_0 pt)
      (extf .f32 msgs bitsLt_bf16_f32))
    slices_S200001x128_S200000x128_0_0

end Cert.KSpec

end
-- ==== Proof.KHostVals.lean ====
/-
  The arrays the launch finds when it is entered, as the functions of the three arguments that the operations before
  it compute — here the tile table and the two halves of the weights.  Each is the program's own sequence of
  operations applied to the launch contents: the sequence is unfolded, a called function's operations are read at
  their buffers' own types, every operation's result is replaced by its function of its operands, and the two
  sides are then the same term.
-/
import proofs.«420624_j70128226009226_3_alg».proof.Proof.Gen.KernelIdeal.Frame
import proofs.«420624_j70128226009226_3_alg».proof.Proof.KSpec
import Idealize.ShloMosaic.Lib.StableHlo.Run

-- one declaration at a time: each walks the whole sequence of operations before the launch
set_option Elab.async false

noncomputable section

namespace Cert.KHostVals

open Idealize.ShloMosaic Idealize.ShloMosaic.TcCoe Idealize.SL.Sem Idealize.ShloMosaic.StableHlo
open Cert.KernelIdeal Cert.KernelIdeal.Gen Cert.KSpec

variable {F : FTy → Type} [FloatOps F]
variable (m : (ℓ : Loc nD τ sig) → Buf (Elt F) ℓ)

/-- The edge table as launched. -/
abbrev teOf (c : Dev nD) : TE := m ((c.tc : Thread nD τ).loc main_arg1)
/-- The node table as launched. -/
abbrev seOf (c : Dev nD) : FVec F S200000x128 .f32 := m ((c.tc : Thread nD τ).loc main_arg0)
/-- The weights as launched. -/
abbrev wOf (c : Dev nD) : FVec F S6x256x128 .f32 := m ((c.tc : Thread nD τ).loc main_arg2)

/-- Rewrites each remaining operation result at a buffer to the operation's function of its operands (at its own result
    buffer) or to what was there before (at any other buffer), until none is left. -/
macro "results_inside" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 40000000 in
/-- The tile table. -/
theorem v87_eq (c : Dev nD) : (V m c main_v87 : IVec S36 32) = tgA (teOf m c) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    TRef.nullary, TRef.unary, TRef.binary, TRef.ternary, TRef.reshape, TRef.toBuf, TRef.ofBuf, cast_eq]
  after_results_simp
  rfl

set_option maxHeartbeats 40000000 in
/-- The first 128 rows of each type's weights. -/
theorem v105_eq (c : Dev nD) : (V m c main_v105 : FVec F S6x128x128 .bf16) = wtopA (wOf m c) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    TRef.nullary, TRef.unary, TRef.binary, TRef.ternary, TRef.reshape, TRef.toBuf, TRef.ofBuf, cast_eq]
  after_results_simp
  rfl

set_option maxHeartbeats 40000000 in
/-- The last 128 rows of each type's weights. -/
theorem v106_eq (c : Dev nD) : (V m c main_v106 : FVec F S6x128x128 .bf16) = wbotA (wOf m c) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    TRef.nullary, TRef.unary, TRef.binary, TRef.ternary, TRef.reshape, TRef.toBuf, TRef.ofBuf, cast_eq]
  after_results_simp
  rfl

end Cert.KHostVals

end
-- ==== Proof.KHostValsT.lean ====
/-
  The slot target table the launch's result is summed by, as the function of the edge table that the operations
  before the launch compute.
  (The run starts are a concatenation; its two operands are evaluated where they stand, inside the operand list.)
-/
import proofs.«420624_j70128226009226_3_alg».proof.Proof.Gen.KernelIdeal.Frame
import proofs.«420624_j70128226009226_3_alg».proof.Proof.KSpec
import proofs.«420624_j70128226009226_3_alg».proof.Proof.KHostVals
import Idealize.ShloMosaic.Lib.StableHlo.Run

-- one declaration at a time: each walks the whole sequence of operations before the launch
set_option Elab.async false

noncomputable section

namespace Cert.KHostVals

open Idealize.ShloMosaic Idealize.ShloMosaic.TcCoe Idealize.SL.Sem Idealize.ShloMosaic.StableHlo
open Cert.KernelIdeal Cert.KernelIdeal.Gen Cert.KSpec

variable {F : FTy → Type} [FloatOps F]
variable (m : (ℓ : Loc nD τ sig) → Buf (Elt F) ℓ)

set_option maxHeartbeats 40000000 in
/-- The slot target table for the final sum. -/
theorem v74_eq (c : Dev nD) : (V m c main_v74 : IVec S294912 32) = ptgtSA (teOf m c) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    TRef.nullary, TRef.unary, TRef.binary, TRef.ternary, TRef.reshape, TRef.toBuf, TRef.ofBuf, cast_eq]
  after_results_simp
  results_inside
  rfl

end Cert.KHostVals

end
-- ==== Proof.KHostValsS.lean ====
/-
  The node rows gathered by the slots' sources, as the function of the node table and the edge table that the
  operations before the launch compute.
  (The run starts are a concatenation; its two operands are evaluated where they stand, inside the operand list.)
-/
import proofs.«420624_j70128226009226_3_alg».proof.Proof.Gen.KernelIdeal.Frame
import proofs.«420624_j70128226009226_3_alg».proof.Proof.KSpec
import proofs.«420624_j70128226009226_3_alg».proof.Proof.KHostVals
import Idealize.ShloMosaic.Lib.StableHlo.Run

-- one declaration at a time: each walks the whole sequence of operations before the launch
set_option Elab.async false

noncomputable section

namespace Cert.KHostVals

open Idealize.ShloMosaic Idealize.ShloMosaic.TcCoe Idealize.SL.Sem Idealize.ShloMosaic.StableHlo
open Cert.KernelIdeal Cert.KernelIdeal.Gen Cert.KSpec

variable {F : FTy → Type} [FloatOps F]
variable (m : (ℓ : Loc nD τ sig) → Buf (Elt F) ℓ)

set_option maxHeartbeats 40000000 in
/-- The node rows gathered by the slots' sources. -/
theorem v95_eq (c : Dev nD) : (V m c main_v95 : FVec F S294912x128 .bf16) = xsA (seOf m c) (teOf m c) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    TRef.nullary, TRef.unary, TRef.binary, TRef.ternary, TRef.reshape, TRef.toBuf, TRef.ofBuf, cast_eq]
  after_results_simp
  results_inside
  rfl

end Cert.KHostVals

end
-- ==== Proof.KHostValsG.lean ====
/-
  The node rows gathered by the slots' targets, as the function of the node table and the edge table that the
  operations before the launch compute.
  (The run starts are a concatenation; its two operands are evaluated where they stand, inside the operand list.)
-/
import proofs.«420624_j70128226009226_3_alg».proof.Proof.Gen.KernelIdeal.Frame
import proofs.«420624_j70128226009226_3_alg».proof.Proof.KSpec
import proofs.«420624_j70128226009226_3_alg».proof.Proof.KHostVals
import Idealize.ShloMosaic.Lib.StableHlo.Run

-- one declaration at a time: each walks the whole sequence of operations before the launch
set_option Elab.async false

noncomputable section

namespace Cert.KHostVals

open Idealize.ShloMosaic Idealize.ShloMosaic.TcCoe Idealize.SL.Sem Idealize.ShloMosaic.StableHlo
open Cert.KernelIdeal Cert.KernelIdeal.Gen Cert.KSpec

variable {F : FTy → Type} [FloatOps F]
variable (m : (ℓ : Loc nD τ sig) → Buf (Elt F) ℓ)

set_option maxHeartbeats 40000000 in
/-- The node rows gathered by the slots' targets. -/
theorem v103_eq (c : Dev nD) : (V m c main_v103 : FVec F S294912x128 .bf16) = xtA (seOf m c) (teOf m c) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append,
    TRef.nullary, TRef.unary, TRef.binary, TRef.ternary, TRef.reshape, TRef.toBuf, TRef.ofBuf, cast_eq]
  after_results_simp
  results_inside
  rfl

end Cert.KHostVals

end
-- ==== Proof.Common.lean ====
/-
  The vocabulary the two sides of the equivalence are stated in.  A node index word reads a row of the node table:
  a negative word is first moved up by the number of nodes, the result read signed and clamped into the table.  An
  edge of type index t with source word s and target word g sends, in column h, the source's row against the first
  128 rows of the type's weights plus the target's row against the last 128.  A slot's message is the same sum over
  the rows and weights laid out by slot, the weights' type read from the slot's tile.
-/
import Idealize.ShloMosaic.PureOps.Ideal
import Idealize.ShloMosaic.Lib.ValueIdx

noncomputable section

open Idealize.ShloMosaic Idealize.ShloMosaic.ValueIdx
open scoped BigOperators

namespace Cert.Common

/-- A node index word, a negative one moved up by the number of nodes. -/
def wrapRow (w : BitVec 32) : BitVec 32 := Scalar.select (IntOp.cmpi .slt w 0#32) (IntOp.addi w 200000#32) w

/-- The row of the node table a node index word reads. -/
def rowOf (w : BitVec 32) : Fin 200000 := ⟨min (wrapRow w).toInt.toNat (200000 - 1), by omega⟩

/-- The type index a type word names (the word less one; any word outside 1 … 6 names some index, never used). -/
def tyOf (w : BitVec 32) : Fin 6 := ⟨(w.toNat + 5) % 6, Nat.mod_lt _ (by decide)⟩

/-- A type word in range is its type index plus one. -/
theorem tyOf_spec (w : BitVec 32) (h1 : 1 ≤ w.toInt) (h6 : w.toInt ≤ 6) : w = BitVec.ofNat 32 ((tyOf w).val + 1) := by
  have hlt : w.toNat < 2 ^ 32 := w.isLt
  have hnn : w.toInt = (w.toNat : ℤ) := by
    rw [BitVec.toInt_eq_toNat_cond] at h1 h6 ⊢
    split <;> rename_i hc
    · rfl
    · exfalso; rw [if_neg hc] at h6; omega
  rw [hnn] at h1 h6
  apply BitVec.eq_of_toNat_eq
  simp only [tyOf, BitVec.toNat_ofNat]
  omega

/-- Each edge's type index, off the edge table's row 0. -/
def tyFn (te : (⟨2, ![3, 240000]⟩ : Shape).Idx → BitVec 32) (e : Fin 240000) : Fin 6 := tyOf (te (ix2 (0 : Fin 3) e))

/-- Every edge type word lies in 1 … 6. -/
def TyOk (te : (⟨2, ![3, 240000]⟩ : Shape).Idx → BitVec 32) : Prop :=
  ∀ e : Fin 240000, 1 ≤ (te (ix2 (0 : Fin 3) e)).toInt ∧ (te (ix2 (0 : Fin 3) e)).toInt ≤ 6

/-- One edge's message in column h. -/
def edgeMsg (se : (⟨2, ![200000, 128]⟩ : Shape).Idx → EReal) (W : (⟨3, ![6, 256, 128]⟩ : Shape).Idx → EReal)
    (t : Fin 6) (s g : BitVec 32) (h : Fin 128) : EReal :=
  (∑ k : Fin 128, se (ix2 (rowOf s) k) * W (ix3 t (⟨k.val, by omega⟩ : Fin 256) h))
    + ∑ k : Fin 128, se (ix2 (rowOf g) k) * W (ix3 t (⟨128 + k.val, by omega⟩ : Fin 256) h)

/-- The tile a slot lies in. -/
def tileOf (p : Fin 294912) : Fin 36 := ⟨p.val / 8192, by omega⟩

/-- One slot's message in column h: the slot's two gathered rows against the two weight halves of its tile's type. -/
def slotMsg (xs xt : (⟨2, ![294912, 128]⟩ : Shape).Idx → EReal) (wt wb : (⟨3, ![6, 128, 128]⟩ : Shape).Idx → EReal)
    (tg : Fin 36 → Fin 6) (p : Fin 294912) (h : Fin 128) : EReal :=
  (∑ k : Fin 128, xs (ix2 p k) * wt (ix3 (tg (tileOf p)) k h)) + ∑ k : Fin 128, xt (ix2 p k) * wb (ix3 (tg (tileOf p)) k h)

end Cert.Common

end
-- ==== Proof.LibDotCols.lean ====
/-
  A product of two matrices that contracts the left operand's LAST axis with the right operand's FIRST, read at an entry.

  For a left operand of shape [R, K], a right operand of shape [K, N] and dimension numbers
  "contract axis 1 with axis 0, free axes 0 and 1, no batch axes", the contraction shape has the one axis of extent
  K, the left operand is read at (p, k) and the right at (k, n); so over the extended reals the product accumulated
  into an accumulator `acc` is, at (p, n), `acc (p, n) + ∑ k, l (p, k) * r (k, n)`: row p of the left operand against
  column n of the right.  Stated for ANY such record of dimension numbers, whatever its name, from the six equations
  that say which lists it holds (each `rfl` for a printed record).
-/
import Idealize.ShloMosaic.PureOps.Ideal.Laws
import Idealize.ShloMosaic.Lib.ValueIdx

noncomputable section

namespace Cert.LibDotCols

open Idealize.ShloMosaic Idealize.ShloMosaic.ValueIdx

variable {R K N : Nat} (D : DotDims ⟨2, ![R, K]⟩ ⟨2, ![K, N]⟩ ⟨2, ![R, N]⟩)

/-- Two coordinates of an index named by equal numbers are equal. -/
private theorem coord_congr {s : Shape} (i : s.Idx) (a b : Nat) (ha : a < s.rank) (hb : b < s.rank) (h : a = b) :
    (i ⟨a, ha⟩).val = (i ⟨b, hb⟩).val := by subst h; rfl

/-- One axis is contracted. -/
theorem contr_rank (hlc : D.lhsContracting = [1]) : D.contr.rank = 1 := by
  rw [D.rank_contr, hlc]; rfl

/-- Its extent is K, the left operand's second extent. -/
theorem contr_size (hlc : D.lhsContracting = [1]) :
    D.contr.size ⟨0, by rw [contr_rank D hlc]; exact Nat.one_pos⟩ = K := by
  have h := D.size_contr 0 (by rw [hlc]; exact Nat.one_pos)
  refine h.trans ?_
  simp only [hlc, List.getElem_cons_zero]
  rfl

/-- The left operand's row is the result's row. -/
theorem lhs_row (hln : D.lhsNonContracting = [0]) (hlb : D.lhsBatch = [])
    (i : (⟨2, ![R, N]⟩ : Shape).Idx) (q : D.contr.Idx) : (D.lhsIdx i q 0).val = (i 0).val := by
  unfold DotDims.lhsIdx
  rw [dif_neg (show ¬(0 : Fin (⟨2, ![R, K]⟩ : Shape).rank) ∈ D.lhsBatch by rw [hlb]; exact List.not_mem_nil),
    dif_pos (show (0 : Fin (⟨2, ![R, K]⟩ : Shape).rank) ∈ D.lhsNonContracting by rw [hln]; exact List.mem_singleton.mpr rfl)]
  simp only [Fin.val_cast]
  exact coord_congr i _ 0 _ (show 0 < 2 from Nat.two_pos) (by simp [hlb, hln])

/-- The left operand's column is the contraction coordinate. -/
theorem lhs_col (hlc : D.lhsContracting = [1]) (i : (⟨2, ![R, N]⟩ : Shape).Idx) (q : D.contr.Idx) :
    (D.lhsIdx i q 1).val = (q ⟨0, by rw [contr_rank D hlc]; exact Nat.one_pos⟩).val :=
  D.lhsIdx_val_of_single hlc i q

/-- The right operand's row is the contraction coordinate. -/
theorem rhs_row (hlc : D.lhsContracting = [1]) (hrc : D.rhsContracting = [0]) (i : (⟨2, ![R, N]⟩ : Shape).Idx)
    (q : D.contr.Idx) : (D.rhsIdx i q 0).val = (q ⟨0, by rw [contr_rank D hlc]; exact Nat.one_pos⟩).val :=
  D.rhsIdx_val_of_single hrc i q

/-- The right operand's column is the result's column. -/
theorem rhs_col (hln : D.lhsNonContracting = [0]) (hrn : D.rhsNonContracting = [1]) (hlb : D.lhsBatch = [])
    (hrb : D.rhsBatch = []) (i : (⟨2, ![R, N]⟩ : Shape).Idx) (q : D.contr.Idx) : (D.rhsIdx i q 1).val = (i 1).val := by
  unfold DotDims.rhsIdx
  rw [dif_neg (show ¬(1 : Fin (⟨2, ![K, N]⟩ : Shape).rank) ∈ D.rhsBatch by rw [hrb]; exact List.not_mem_nil),
    dif_pos (show (1 : Fin (⟨2, ![K, N]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

/-- THE PRODUCT AT AN ENTRY: at (p, n) it is the accumulator's entry plus row p of the left operand against column n
    of the right. -/
theorem matmul_cols {φ₁ φ₂ : FTy} (prec : Option ContractPrecision)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![R, K]⟩ φ₁) (r : FVec Ideal ⟨2, ![K, N]⟩ φ₂) (acc : FVec Ideal ⟨2, ![R, N]⟩ .f32) (p : Fin R) (n : Fin N) :
    FloatOps.matmul D prec l r acc (ix2 p n) = acc (ix2 p n) + ∑ k : Fin K, l (ix2 p k) * r (ix2 k n) := by
  rw [Ideal.matmul_apply,
    ← Equiv.sum_comp (contrEquiv1 D K (contr_rank D hlc) (contr_size D hlc)).symm]
  refine congrArg (acc (ix2 p n) + ·) (Finset.sum_congr rfl fun k _ => ?_)
  have hk := contrEquiv1_symm_val D K (contr_rank D hlc) (contr_size D hlc) k
  have el : D.lhsIdx (ix2 p n) ((contrEquiv1 D K (contr_rank D hlc) (contr_size D hlc)).symm k) = ix2 p k :=
    funext fun a => Fin.ext (by
      match a with
      | ⟨0, _⟩ => exact lhs_row D hln hlb _ _
      | ⟨1, _⟩ => exact (lhs_col D hlc _ _).trans hk)
  have er : D.rhsIdx (ix2 p n) ((contrEquiv1 D K (contr_rank D hlc) (contr_size D hlc)).symm k) = ix2 k n :=
    funext fun a => Fin.ext (by
      match a with
      | ⟨0, _⟩ => exact (rhs_row D hlc hrc _ _).trans hk
      | ⟨1, _⟩ => exact rhs_col D hln hrn hlb hrb _ _)
  rw [el, er]

end Cert.LibDotCols

end
-- ==== Proof.KernelRun.lean ====
/-
  The idealized kernel program's run with its result named.

  The one launch runs 36 grid points, one per tile of 8192 slots.  Point t reads rows 8192 t … 8192 t + 8191 of the two
  gathered row tables and, of each weight half, the one [128, 128] matrix of the type the prefetched table names for t;
  it stores, in one covering store, the first rows against the first matrix plus the second rows against the second.
  Over the extended reals each product into the zero splat is the plain sum and the format change is the identity, so
  entry (r, h) of what point t stores is the message of slot 8192 t + r in column h.  The output blocks tile the
  [294912, 128] array, one block per point, so the array ends holding every slot's message.  What follows the launch reads
  that array and the slot table of targets, which the launch leaves alone.

  Every fact about the grid, the index maps and the blocks is proved for ARBITRARY admissible contents of the table; the
  contents the program computes enter only in the last section, as an instance.
-/
import proofs.«420624_j70128226009226_3_alg».proof.Proof.Gen.KernelIdeal.Frame
import proofs.«420624_j70128226009226_3_alg».proof.Proof.KSpec
import proofs.«420624_j70128226009226_3_alg».proof.Proof.Common
import proofs.«420624_j70128226009226_3_alg».proof.Proof.LibDotCols
import Idealize.ShloMosaic.Lib.Pipeline.Value
import Idealize.ShloMosaic.Lib.Tactic

set_option maxRecDepth 16384

noncomputable section

namespace Cert.KernelRun

open Idealize.ShloMosaic Idealize.ShloMosaic.ValueIdx Idealize.ShloMosaic.TcCoe Idealize.SL.Sem
open Idealize.ShloMosaic.Pipeline (Dat)
open Cert.KernelIdeal Cert.KernelIdeal.Gen Cert.Common

/-! ## What one grid point stores -/

section Piece
variable {F : FTy → Type} [FloatOps F]

/-- The zero offsets of a rank-2 and of a rank-3 rectangle, as constant functions. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The one store of a grid point covers the output block, so the block it leaves is the store's payload: the arithmetic
    of the four input blocks the point found. -/
theorem out_piece (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S8192x128 .bf16) (harg6 : arg6.IsWhole)
    (x0 : Vec F S8192x128 .bf16) (x1 : Vec F S8192x128 .bf16) (x2 : Vec F S1x128x128 .bf16) (x3 : Vec F S1x128x128 .bf16) (xt0 : TbBuf0 (F := F) c tbM0_0) :
    out0_A_4 c i arg2 harg2 arg3 harg3 arg4 harg4 arg5 harg5 arg6 harg6 x0 x1 x2 x3 xt0 = k0_pay1 x0 x1 x2 x3 := by
  unfold out0_A_4
  rw [View.read_writes_eq_canon _ _ _ (cover0_A_4 c i arg2 harg2 arg3 harg3 arg4 harg4 arg5 harg5 arg6 harg6 x0 x1 x2 x3 xt0)]
  unfold kernelRun0_A
  dsimp only
  sl_unfold_words
  rw [View.canon_unit_zero zero2]
  simp only [View.readAt_eq_ld, harg2.read_unread, harg3.read_unread, harg4.read_unread, harg5.read_unread,
    View.ld_unit_zero (S := S8192x128) zero2, View.ld_unit_zero (S := S1x128x128) zero3]

end Piece

/-! ## The grid's points and the blocks they read -/

section Blocks
variable {F : FTy → Type} [FloatOps F]

/-- The grid has 36 points, at any contents of the table. -/
theorem N_eq (a : (pcfg0 (F := F)).Adm) : (cfg0 a).N = 36 := by
  show grid0.N = 36
  decide

/-- Point t's one coordinate is t. -/
theorem coord_val (a : (pcfg0 (F := F)).Adm) (t : Fin (cfg0 a).N) : (((cfg0 a).grid.coords t) 0).val = t.val := by
  have hN := N_eq a
  have ht := t.isLt
  have hs : grid0.stride 0 = 1 := by decide
  show t.val / grid0.stride 0 % 36 = t.val
  rw [hs]; omega

end Blocks

section Blocks2
variable {F : FTy → Type} [FloatOps F]

/-- Windows 0, 1 and 4 are at block (t, 0) at point t. -/
theorem index0 (a : (pcfg0 (F := F)).Adm) (t : Fin (cfg0 a).N) :
    ((cfg0 a).win 0).index t (0 : Fin 2) = t.val ∧ ((cfg0 a).win 0).index t (1 : Fin 2) = 0 := by
  have ht : t.val < 36 := lt_of_lt_of_eq t.isLt (N_eq a)
  refine ⟨?_, rfl⟩
  show (BitVec.ofNat 32 (((cfg0 a).grid.coords t) 0).val).toNat = t.val
  rw [coord_val a t, BitVec.toNat_ofNat]
  omega
theorem index1 (a : (pcfg0 (F := F)).Adm) (t : Fin (cfg0 a).N) :
    ((cfg0 a).win 1).index t (0 : Fin 2) = t.val ∧ ((cfg0 a).win 1).index t (1 : Fin 2) = 0 := by
  have ht : t.val < 36 := lt_of_lt_of_eq t.isLt (N_eq a)
  refine ⟨?_, rfl⟩
  show (BitVec.ofNat 32 (((cfg0 a).grid.coords t) 0).val).toNat = t.val
  rw [coord_val a t, BitVec.toNat_ofNat]
  omega
theorem index4 (a : (pcfg0 (F := F)).Adm) (t : Fin (cfg0 a).N) :
    ((cfg0 a).win 4).index t (0 : Fin 2) = t.val ∧ ((cfg0 a).win 4).index t (1 : Fin 2) = 0 := by
  have ht : t.val < 36 := lt_of_lt_of_eq t.isLt (N_eq a)
  refine ⟨?_, rfl⟩
  show (BitVec.ofNat 32 (((cfg0 a).grid.coords t) 0).val).toNat = t.val
  rw [coord_val a t, BitVec.toNat_ofNat]
  omega

/-- The table's word for point t. -/
def word (pf : pre0.Contents (Elt F)) (t : Fin 36) : BitVec 32 := pf 0 (ix1 t)

/-- Windows 2 and 3 are at block (table[t], 0, 0) at point t. -/
theorem index2 (a : (pcfg0 (F := F)).Adm) (t : Fin (cfg0 a).N) (ht : t.val < 36) :
    ((cfg0 a).win 2).index t (0 : Fin 3) = (word a.1 ⟨t.val, ht⟩).toNat ∧ ((cfg0 a).win 2).index t (1 : Fin 3) = 0 ∧ ((cfg0 a).win 2).index t (2 : Fin 3) = 0 := by
  refine ⟨?_, rfl, rfl⟩
  show (a.1 0 _).toNat = (a.1 0 _).toNat
  refine congrArg (fun j => (a.1 0 j).toNat) (funext fun d => Fin.ext ?_)
  match d with
  | ⟨0, _⟩ =>
    show (Scalar.indexCast (BitVec.ofNat 32 (((cfg0 a).grid.coords t) 0).val)).toNat + 1 * 0 = t.val
    rw [coord_val a t]
    show (BitVec.ofNat 32 t.val).toNat + 1 * 0 = t.val
    rw [BitVec.toNat_ofNat]
    omega
theorem index3 (a : (pcfg0 (F := F)).Adm) (t : Fin (cfg0 a).N) (ht : t.val < 36) :
    ((cfg0 a).win 3).index t (0 : Fin 3) = (word a.1 ⟨t.val, ht⟩).toNat ∧ ((cfg0 a).win 3).index t (1 : Fin 3) = 0 ∧ ((cfg0 a).win 3).index t (2 : Fin 3) = 0 := by
  refine ⟨?_, rfl, rfl⟩
  show (a.1 0 _).toNat = (a.1 0 _).toNat
  refine congrArg (fun j => (a.1 0 j).toNat) (funext fun d => Fin.ext ?_)
  match d with
  | ⟨0, _⟩ =>
    show (Scalar.indexCast (BitVec.ofNat 32 (((cfg0 a).grid.coords t) 0).val)).toNat + 1 * 0 = t.val
    rw [coord_val a t]
    show (BitVec.ofNat 32 t.val).toNat + 1 * 0 = t.val
    rw [BitVec.toNat_ofNat]
    omega

end Blocks2

section Reads
variable {F : FTy → Type} [FloatOps F]

/-- Under windows 0, 1 and 4, block t of a [294912, 128] array read at (r, k) is the array at row 8192 t + r. -/
theorem read_rows0 (a : (pcfg0 (F := F)).Adm) (t : Fin (cfg0 a).N) (X : Vec F S294912x128 .bf16) (r : Fin 8192) (k : Fin 128)
    (hr : 8192 * t.val + r.val < 294912) :
    (((cfg0 a).win 0).blk t).view.read (Elt F) X (ix2 r k) = X (ix2 ⟨8192 * t.val + r.val, hr⟩ k) := by
  show X _ = X _
  refine congrArg X (funext fun d => Fin.ext ?_)
  match d with
  | ⟨0, _⟩ =>
    show ((cfg0 a).win 0).index t (0 : Fin 2) * 8192 + 1 * r.val = 8192 * t.val + r.val
    rw [(index0 a t).1]; omega
  | ⟨1, _⟩ =>
    show ((cfg0 a).win 0).index t (1 : Fin 2) * 128 + 1 * k.val = k.val
    rw [(index0 a t).2]; omega
theorem read_rows1 (a : (pcfg0 (F := F)).Adm) (t : Fin (cfg0 a).N) (X : Vec F S294912x128 .bf16) (r : Fin 8192) (k : Fin 128)
    (hr : 8192 * t.val + r.val < 294912) :
    (((cfg0 a).win 1).blk t).view.read (Elt F) X (ix2 r k) = X (ix2 ⟨8192 * t.val + r.val, hr⟩ k) := by
  show X _ = X _
  refine congrArg X (funext fun d => Fin.ext ?_)
  match d with
  | ⟨0, _⟩ =>
    show ((cfg0 a).win 1).index t (0 : Fin 2) * 8192 + 1 * r.val = 8192 * t.val + r.val
    rw [(index1 a t).1]; omega
  | ⟨1, _⟩ =>
    show ((cfg0 a).win 1).index t (1 : Fin 2) * 128 + 1 * k.val = k.val
    rw [(index1 a t).2]; omega
theorem read_rows4 (a : (pcfg0 (F := F)).Adm) (t : Fin (cfg0 a).N) (X : Vec F S294912x128 .bf16) (r : Fin 8192) (k : Fin 128)
    (hr : 8192 * t.val + r.val < 294912) :
    (((cfg0 a).win 4).blk t).view.read (Elt F) X (ix2 r k) = X (ix2 ⟨8192 * t.val + r.val, hr⟩ k) := by
  show X _ = X _
  refine congrArg X (funext fun d => Fin.ext ?_)
  match d with
  | ⟨0, _⟩ =>
    show ((cfg0 a).win 4).index t (0 : Fin 2) * 8192 + 1 * r.val = 8192 * t.val + r.val
    rw [(index4 a t).1]; omega
  | ⟨1, _⟩ =>
    show ((cfg0 a).win 4).index t (1 : Fin 2) * 128 + 1 * k.val = k.val
    rw [(index4 a t).2]; omega

/-- The table's word at every point names one of the six types: the side condition on the table's contents. -/
theorem word_lt (a : (pcfg0 (F := F)).Adm) (i : Fin 36) : (word a.1 i).toNat < 6 := by
  have hi : i.val < (cfg0 a).N := lt_of_lt_of_eq i.isLt (N_eq a).symm
  obtain ⟨h, -⟩ := a.2.1 ((cfg0 a).grid.coords ⟨i.val, hi⟩)
  have h0 : (((cfg0 a).win 2).index ⟨i.val, hi⟩ (0 : Fin 3) + 1) * 1 ≤ 6 := h (0 : Fin 3)
  have e : ((cfg0 a).win 2).index ⟨i.val, hi⟩ (0 : Fin 3) = (word a.1 i).toNat := (index2 a ⟨i.val, hi⟩ i.isLt).1
  rw [e] at h0
  omega

/-- Under windows 2 and 3, the block at point t of a [6, 128, 128] array read at (0, k, h) is the array at type table[t]. -/
theorem read_type2 (a : (pcfg0 (F := F)).Adm) (t : Fin (cfg0 a).N) (ht : t.val < 36) (X : Vec F S6x128x128 .bf16) (z : Fin 1) (k h : Fin 128) :
    (((cfg0 a).win 2).blk t).view.read (Elt F) X (ix3 z k h) = X (ix3 ⟨(word a.1 ⟨t.val, ht⟩).toNat, word_lt a _⟩ k h) := by
  show X _ = X _
  refine congrArg X (funext fun d => Fin.ext ?_)
  match d with
  | ⟨0, _⟩ =>
    show ((cfg0 a).win 2).index t (0 : Fin 3) * 1 + 1 * z.val = (word a.1 ⟨t.val, ht⟩).toNat
    rw [(index2 a t ht).1]; omega
  | ⟨1, _⟩ =>
    show ((cfg0 a).win 2).index t (1 : Fin 3) * 128 + 1 * k.val = k.val
    rw [(index2 a t ht).2.1]; omega
  | ⟨2, _⟩ =>
    show ((cfg0 a).win 2).index t (2 : Fin 3) * 128 + 1 * h.val = h.val
    rw [(index2 a t ht).2.2]; omega
theorem read_type3 (a : (pcfg0 (F := F)).Adm) (t : Fin (cfg0 a).N) (ht : t.val < 36) (X : Vec F S6x128x128 .bf16) (z : Fin 1) (k h : Fin 128) :
    (((cfg0 a).win 3).blk t).view.read (Elt F) X (ix3 z k h) = X (ix3 ⟨(word a.1 ⟨t.val, ht⟩).toNat, word_lt a _⟩ k h) := by
  show X _ = X _
  refine congrArg X (funext fun d => Fin.ext ?_)
  match d with
  | ⟨0, _⟩ =>
    show ((cfg0 a).win 3).index t (0 : Fin 3) * 1 + 1 * z.val = (word a.1 ⟨t.val, ht⟩).toNat
    rw [(index3 a t ht).1]; omega
  | ⟨1, _⟩ =>
    show ((cfg0 a).win 3).index t (1 : Fin 3) * 128 + 1 * k.val = k.val
    rw [(index3 a t ht).2.1]; omega
  | ⟨2, _⟩ =>
    show ((cfg0 a).win 3).index t (2 : Fin 3) * 128 + 1 * h.val = h.val
    rw [(index3 a t ht).2.2]; omega

end Reads

/-! ## The payload at an entry -/

section Payload
open Cert.LibDotCols

/-- A [128, 128] index behind a leading unit axis. -/
theorem cons_ix2 (k h : Fin 128) :
    (Fin.cons (⟨0, Nat.one_pos⟩ : Fin 1) (ix2 k h) : (⟨3, Matrix.vecCons 1 ![128, 128]⟩ : Shape).Idx) = ix3 (⟨0, Nat.one_pos⟩ : Fin 1) k h :=
  funext fun d => by
    match d with
    | ⟨0, _⟩ => rfl
    | ⟨1, _⟩ => rfl
    | ⟨2, _⟩ => rfl

/-- Over the extended reals the payload at (r, h) is row r of the first block against column h of the third plus row r of
    the second against column h of the fourth: each product into the zero splat is the plain sum, the format change
    the identity. -/
theorem pay_apply (v0 v2 : Vec Ideal S8192x128 .bf16) (v4 v6 : Vec Ideal S1x128x128 .bf16) (r : Fin 8192) (h : Fin 128) :
    k0_pay1 v0 v2 v4 v6 (ix2 r h)
      = (∑ k : Fin 128, v0 (ix2 r k) * v4 (ix3 (⟨0, Nat.one_pos⟩ : Fin 1) k h))
        + ∑ k : Fin 128, v2 (ix2 r k) * v6 (ix3 (⟨0, Nat.one_pos⟩ : Fin 1) k h) := by
  unfold k0_pay1
  show FloatOps.matmul (F := Ideal) dot_S8192x128_S128x128_S8192x128_1_0_0_1_n_n none _ _ _ (ix2 r h)
      + FloatOps.matmul (F := Ideal) dot_S8192x128_S128x128_S8192x128_1_0_0_1_n_n none _ _ _ (ix2 r h) = _
  refine congrArg₂ (· + ·) ?_ ?_
  · refine (matmul_cols dot_S8192x128_S128x128_S8192x128_1_0_0_1_n_n none rfl rfl rfl rfl rfl rfl _ _ _ r h).trans ?_
    refine (congrArg (· + _) Ideal.ofBits_zero_f32).trans ((zero_add _).trans ?_)
    refine Finset.sum_congr rfl fun k _ => congrArg₂ (· * ·) ?_ ?_
    · exact congrFun (shapeCast_self v0 _) (ix2 r k)
    · exact (shapeCast_dropUnit_apply ![128, 128] v4 _ (ix2 k h)).trans (congrArg v4 (cons_ix2 k h))
  · refine (matmul_cols dot_S8192x128_S128x128_S8192x128_1_0_0_1_n_n none rfl rfl rfl rfl rfl rfl _ _ _ r h).trans ?_
    refine (congrArg (· + _) Ideal.ofBits_zero_f32).trans ((zero_add _).trans ?_)
    refine Finset.sum_congr rfl fun k _ => congrArg₂ (· * ·) ?_ ?_
    · exact congrFun (shapeCast_self v2 _) (ix2 r k)
    · exact (shapeCast_dropUnit_apply ![128, 128] v6 _ (ix2 k h)).trans (congrArg v6 (cons_ix2 k h))

end Payload

/-! ## The output array -/

section Value

/-- The type index the table names for each tile. -/
def tgA (a : (pcfg0 (F := Ideal)).Adm) (i : Fin 36) : Fin 6 := ⟨(word a.1 i).toNat, word_lt a i⟩

/-- WHAT POINT t STORES, AT AN ENTRY: over any four arrays read through the point's four input blocks, the payload at
    (r, h) is the message of slot 8192 t + r in column h — the slot's tile is t, so the weights are those of the type
    the table names for t. -/
theorem block_msg (a : (pcfg0 (F := Ideal)).Adm) (t : Fin (cfg0 a).N) (X0 X1 : Vec Ideal S294912x128 .bf16)
    (X2 X3 : Vec Ideal S6x128x128 .bf16) (r : Fin 8192) (h : Fin 128) (hr : 8192 * t.val + r.val < 294912) :
    k0_pay1 ((((cfg0 a).win 0).blk t).view.read (Elt Ideal) X0) ((((cfg0 a).win 1).blk t).view.read (Elt Ideal) X1)
        ((((cfg0 a).win 2).blk t).view.read (Elt Ideal) X2) ((((cfg0 a).win 3).blk t).view.read (Elt Ideal) X3) (ix2 r h)
      = slotMsg X0 X1 X2 X3 (tgA a) ⟨8192 * t.val + r.val, hr⟩ h := by
  have ht : t.val < 36 := lt_of_lt_of_eq t.isLt (N_eq a)
  have htile : tileOf ⟨8192 * t.val + r.val, hr⟩ = ⟨t.val, ht⟩ :=
    Fin.ext (by show (8192 * t.val + r.val) / 8192 = t.val; have := r.isLt; omega)
  refine (pay_apply _ _ _ _ r h).trans ?_
  unfold slotMsg
  rw [htile]
  refine congrArg₂ (· + ·) (Finset.sum_congr rfl fun k _ => congrArg₂ (· * ·) ?_ ?_)
    (Finset.sum_congr rfl fun k _ => congrArg₂ (· * ·) ?_ ?_)
  · exact read_rows0 a t X0 r k hr
  · exact read_type2 a t ht X2 _ k h
  · exact read_rows1 a t X1 r k hr
  · exact read_type3 a t ht X3 _ k h

/-- Two [8192, 128] blocks that agree at every (r, h) are equal. -/
theorem ext_rows (f g : (⟨2, ![8192, 128]⟩ : Shape).Idx → EReal) (H : ∀ (r : Fin 8192) (h : Fin 128), f (ix2 r h) = g (ix2 r h)) :
    f = g := funext fun j => by rw [eq_ix2 j]; exact H _ _

/-- The output window writes back at every point: its block index moves with the point. -/
theorem flush4 (a : (pcfg0 (F := Ideal)).Adm) (t : Fin (cfg0 a).N) : ((cfg0 a).win 4).flush t = true := by
  unfold Pipeline.Window.flush
  rw [Bool.and_eq_true, Bool.or_eq_true, decide_eq_true_eq, decide_eq_true_eq]
  refine ⟨rfl, ?_⟩
  by_cases h : t.val + 1 = (cfg0 a).grid.N
  · exact Or.inl h
  · have ht : t.val < (cfg0 a).grid.N := t.isLt
    refine Or.inr ⟨by omega, fun e => ?_⟩
    have e0 := congrFun e (0 : Fin 2)
    rw [(index4 a _).1, (index4 a _).1] at e0
    exact absurd e0 (by show t.val + 1 ≠ t.val; omega)

/-- Every entry of the output array lies in the block of the point its row's tile names. -/
theorem cover4 (a : (pcfg0 (F := Ideal)).Adm) (i : S294912x128.Idx) :
    ∃ t : Fin (cfg0 a).N, ((cfg0 a).win 4).flush t = true ∧ i ∈ (((cfg0 a).win 4).blk t).view.set := by
  have hi0 : (i 0).val < 294912 := idx2_lt0 i
  have hi1 : (i 1).val < 128 := idx2_lt1 i
  have hlt : (i 0).val / 8192 < (cfg0 a).N := lt_of_lt_of_eq (by omega : (i 0).val / 8192 < 36) (N_eq a).symm
  refine ⟨⟨(i 0).val / 8192, hlt⟩, flush4 a _, ?_⟩
  refine Eq.mpr (congrArg (fun s : Finset S294912x128.Idx => i ∈ s)
    (View.set_slice_whole main_v107 (((cfg0 a).win 4).rect ⟨(i 0).val / 8192, hlt⟩))) ?_
  refine Rect.mem_set_unit.mpr fun d => ?_
  match d with
  | ⟨0, _⟩ =>
    show ((cfg0 a).win 4).index ⟨(i 0).val / 8192, hlt⟩ (0 : Fin 2) * 8192 ≤ (i 0).val
      ∧ (i 0).val < ((cfg0 a).win 4).index ⟨(i 0).val / 8192, hlt⟩ (0 : Fin 2) * 8192 + 8192
    rw [(index4 a _).1]
    show (i 0).val / 8192 * 8192 ≤ (i 0).val ∧ (i 0).val < (i 0).val / 8192 * 8192 + 8192
    omega
  | ⟨1, _⟩ =>
    show ((cfg0 a).win 4).index ⟨(i 0).val / 8192, hlt⟩ (1 : Fin 2) * 128 ≤ (i 1).val
      ∧ (i 1).val < ((cfg0 a).win 4).index ⟨(i 0).val / 8192, hlt⟩ (1 : Fin 2) * 128 + 128
    rw [(index4 a _).2]
    omega

end Value

/-! ## The run, its result named -/

section Run
variable (m : (ℓ : Loc nD τ sig) → Buf (Elt Ideal) ℓ) (ρ : Dev nD → PrngReg)

/-- The launch's output array after the run. -/
def msgsOf (hO : Ok (F := Ideal) m) (c : Dev nD) : FVec Ideal S294912x128 .bf16 := (dats m hO 0 c).arrAt 4 (cfgM m hO).N

/-- The type index each tile serves: the table's word for the tile, which the side condition keeps below 6. -/
def tgOf (hO : Ok (F := Ideal) m) (i : Fin 36) : Fin 6 := tgA (adm m hO) i

/-- It is the table's word, read as a natural number. -/
theorem tgOf_val (hO : Ok (F := Ideal) m) (i : Fin 36) : (tgOf m hO i).val = (tbl m 0 (ix1 i)).toNat := rfl

/-- The messages by slot, as one array: what the launch is shown to leave. -/
def slots (hO : Ok (F := Ideal) m) (c : Dev nD) : Vec Ideal S294912x128 .bf16 := fun j =>
  slotMsg (V m c main_v95) (V m c main_v103) (V m c main_v105) (V m c main_v106) (tgOf m hO) ⟨(j 0).val, idx2_lt0 j⟩ ⟨(j 1).val, idx2_lt1 j⟩

/-- What point t writes back is block t of the messages by slot: entry (r, h) of the stored payload is slot 8192 t + r's
    message, and block t of any array read at (r, h) is the array at row 8192 t + r. -/
theorem flushed_eq (hO : Ok (F := Ideal) m) (c : Dev nD) (t : Fin (cfgM m hO).N) (_ : ((cfgM m hO).win 4).flush t = true) :
    (dats m hO 0 c).flushed 4 t = (((cfgM m hO).win 4).blk t).view.read (Elt Ideal) (slots m hO c) := by
  have ht : t.val < 36 := lt_of_lt_of_eq t.isLt (N_eq (adm m hO))
  show ((cfgM m hO).win 4).cut ((cfgM m hO).grid.coords t) ((dats m hO 0 c).after 4 t) = _
  rw [after0_4]
  unfold outsAt0
  refine ext_rows _ _ fun r h => ?_
  have hr : 8192 * t.val + r.val < 294912 := by have := r.isLt; omega
  refine (congrFun (out_piece (F := Ideal) c (grid0.coords t) (ms0_0 m hO t) (hs0_0 m hO t) (ms0_1 m hO t) (hs0_1 m hO t)
    (ms0_2 m hO t) (hs0_2 m hO t) (ms0_3 m hO t) (hs0_3 m hO t) (ms0_4 m hO t) (hs0_4 m hO t)
    (iblk m hO c 0 t) (iblk m hO c 1 t) (iblk m hO c 2 t) (iblk m hO c 3 t) (tbl m 0)) (ix2 r h)).trans ?_
  unfold iblk
  exact (block_msg (adm m hO) t (V m c main_v95) (V m c main_v103) (V m c main_v105) (V m c main_v106) r h hr).trans
    (read_rows4 (adm m hO) t (slots m hO c) r h hr).symm

/-- The blocks tile the array, so it ends holding the messages by slot. -/
theorem msgsOf_eq (hO : Ok (F := Ideal) m) (c : Dev nD) : msgsOf m hO c = slots m hO c :=
  (dats m hO 0 c).arrAt_eq_of_cover 4 (slots m hO c) (flushed_eq m hO c) (cover4 (adm m hO))

/-- THE LAUNCH'S OUTPUT AT AN ENTRY: slot p, column h holds the slot's message. -/
theorem msgsOf_apply (hO : Ok (F := Ideal) m) (c : Dev nD) (p : Fin 294912) (h : Fin 128) :
    msgsOf m hO c (ix2 p h) = slotMsg (V m c main_v95) (V m c main_v103) (V m c main_v105) (V m c main_v106) (tgOf m hO) p h :=
  congrFun (msgsOf_eq m hO c) (ix2 p h)

-- the two arrays the operations after the launch read are stated at their buffers' types, which name the signature's
-- table; rewriting them inside the operations' term compares those types up to unfolding
set_option backward.isDefEq.respectTransparency.types false in
/-- What follows the launch: its six operations applied to the output array and to the slot table of targets, which is
    no array of the launch and so is as the launch found it. -/
theorem tail_eq (hO : Ok (F := Ideal) m) (c : Dev nD) :
    Pipeline.afterTail pcfgs (fun _ => adm m hO) (dats m hO) 0 (V0 m) [hostOps1] c main_v112
      = Cert.KSpec.tailA (V m c main_v74) (msgsOf m hO c) := by
  have e1 : Pipeline.withArrays (Pipeline.pin pcfgs (fun _ => adm m hO) 0).spec c (V0 m c)
      (fun w => (dats m hO 0 c).arrAt w (Pipeline.pin pcfgs (fun _ => adm m hO) 0).N) (Proc.devRef .tc main_v74) = V m c main_v74 :=
    Pipeline.withArrays_of_ne _ c (V0 m c) _ main_v74 (by exact (by decide : ∀ w, Pipeline.arrRef spec0 w ≠ main_v74))
  have e2 : Pipeline.withArrays (Pipeline.pin pcfgs (fun _ => adm m hO) 0).spec c (V0 m c)
      (fun w => (dats m hO 0 c).arrAt w (Pipeline.pin pcfgs (fun _ => adm m hO) 0).N) (Proc.devRef .tc main_v107) = msgsOf m hO c :=
    Pipeline.withArrays_arr spec0 winFacts0.arr_inj c (V0 m c) _ (4 : Fin 5)
  unfold Pipeline.afterTail
  show StableHlo.after hostOps1 _ (Proc.devRef .tc main_v112) = _
  after_results
  rw [e1, e2]
  rfl

/-- THE RUN, ITS RESULT NAMED: the result array ends at what follows the launch applied to the slot table of targets and
    the messages by slot; the three arguments end as launched. -/
theorem run_val (hO : Ok (F := Ideal) m) : θ_run defs (onTc (τ := τ) (main (F := Ideal))) ⟨m, fun _ => 0, ρ⟩ (fun r => ∀ c : Dev nD,
      r.2.mem ((c.tc : Thread nD τ).loc main_v112) = Cert.KSpec.tailA (V m c main_v74) (msgsOf m hO c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v112 (by decide : main_v112 ∈ Pipeline.restRefs sig spec0)).trans (tail_eq m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c)⟩)
    (run_main m ρ hO)

end Run

end Cert.KernelRun

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.LibGatherRows.lean ====
/-
  A GATHER OF WHOLE ROWS, READ AT AN INDEX.

  A gather of an operand `[N, K]` at start indices `[E, 1]` with offset axis 1, collapsed operand axis 0, start index map
  `[0]`, the index vector on axis 1 of the start indices and slices `[1, K]` produces a result `[E, K]`. Its operand index
  for the result index `(e, k)` is, axis by axis, "clamped start + batching coordinate + offset coordinate":

    * on axis 0, which is in the start index map, the start is the word `idx (e, 0)` read signed, as a natural number,
      clamped to `N − 1` (the size `N` minus the slice size `1`); there is no batching axis, and axis 0 is collapsed, so
      the other two summands are `0`;
    * on axis 1, which is not in the start index map, the start is `0`; there is no batching axis; axis 1 is the only kept
      operand axis, it is read by the only offset axis of the result, axis 1, so the offset coordinate is `k`.

  Hence the result at `(e, k)` is the operand at `(min (idx (e, 0)).toInt.toNat (N − 1), k)`.
-/
import Idealize.ShloMosaic.PureOps.Ideal
import Idealize.ShloMosaic.Lib.ValueIdx

noncomputable section

open Idealize.ShloMosaic Idealize.ShloMosaic.ValueIdx

namespace Cert.LibGatherRows

/-- The dimension numbers of a row gather: operand `[N, K]`, one start-index word per result row in `[E, 1]`, result
    `[E, K]`; offset axis 1, collapsed operand axis 0, start indices for operand axis 0, the index vector on the start
    indices' axis 1, slices of one whole row. -/
abbrev rowsDims {N K E : Nat}
    (wf : GatherDims.WF (⟨2, ![N, K]⟩ : Shape) (⟨2, ![E, 1]⟩ : Shape) (⟨2, ![E, K]⟩ : Shape) [1] [0] [] [0] [] 1 ![1, K]) :
    GatherDims (⟨2, ![N, K]⟩ : Shape) (⟨2, ![E, 1]⟩ : Shape) (⟨2, ![E, K]⟩ : Shape) where
  offsetDims := [1]
  collapsedSliceDims := [0]
  operandBatchingDims := []
  startIndicesBatchingDims := []
  startIndexMap := [0]
  indexVectorDim := 1
  sliceSizes := ![1, K]
  wf := wf

/-- The start-indices index at which the result index `(e, k)` reads the only component of its start index is `(e, 0)`:
    the batch coordinate `e` on axis 0 and the component number `0` on the index vector's axis 1. -/
theorem rows_siIdx {N K E : Nat}
    (wf : GatherDims.WF (⟨2, ![N, K]⟩ : Shape) (⟨2, ![E, 1]⟩ : Shape) (⟨2, ![E, K]⟩ : Shape) [1] [0] [] [0] [] 1 ![1, K])
    (e : Fin E) (k : Fin K) (h : List.idxOf (0 : Fin 2) (rowsDims wf).startIndexMap < (rowsDims wf).startIndexMap.length) :
    (rowsDims wf).siIdx (ix2 e k) ⟨List.idxOf (0 : Fin 2) (rowsDims wf).startIndexMap, h⟩ = ix2 e (0 : Fin 1) := by
  funext b
  refine Fin.ext ?_
  match b with
  | ⟨0, _⟩ => rfl
  | ⟨1, _⟩ => rfl

/-- On operand axis 0 the row gather's operand index for `(e, k)` is the start-index word of `e` read signed and clamped
    to `N − 1`: axis 0 is in the start index map with slice size 1, it is no batching axis, and it is collapsed. -/
theorem rows_coord0 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 0 + (rowsDims wf).batchCoord (ix2 e k) 0 + (rowsDims wf).offCoord (ix2 e k) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims wf).startIndexMap from List.mem_singleton.mpr rfl)]
  rw [rows_siIdx wf e k]
  rfl

/-- On operand axis 1 the row gather's operand index for `(e, k)` is `k`: axis 1 is not in the start index map (start 0),
    it is no batching axis, and it is the kept operand axis the result's offset axis 1 reads. -/
theorem rows_coord1 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 1 + (rowsDims wf).batchCoord (ix2 e k) 1 + (rowsDims wf).offCoord (ix2 e k) 1
      = k.val := by
  rw [GatherDims.batchCoord_eq_zero _ _ _ List.not_mem_nil]
  have hs : (rowsDims wf).start (ix2 e k) idx 1 = 0 := by
    unfold GatherDims.start
    rw [dif_neg (show ¬ (1 : Fin 2) ∈ (rowsDims wf).startIndexMap from (by decide : (1 : Fin 2) ∉ ([0] : List (Fin 2))))]
  rw [hs]
  simp only [Nat.add_zero, Nat.zero_add]
  unfold GatherDims.offCoord
  rw [dif_pos (show (1 : Fin 2) ∈ (rowsDims wf).sKept from
    (GatherDims.mem_sKept _ _).mpr ⟨(by decide : (1 : Fin 2) ∉ ([0] : List (Fin 2))), List.not_mem_nil⟩)]
  rfl

/-- THE ROW GATHER READ AT `(e, k)`: the operand's row at the start-index word of `e`, read signed and clamped into
    `[0, N − 1]`, at column `k`. -/
theorem gather_rows_apply {α : Type} {N K E w : Nat} (hN : 0 < N)
    (wf : GatherDims.WF (⟨2, ![N, K]⟩ : Shape) (⟨2, ![E, 1]⟩ : Shape) (⟨2, ![E, K]⟩ : Shape) [1] [0] [] [0] [] 1 ![1, K])
    (x : (⟨2, ![N, K]⟩ : Shape).Idx → α) (idx : IVec (⟨2, ![E, 1]⟩ : Shape) w) (e : Fin E) (k : Fin K) :
    Host.gather (rowsDims wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ => exact rows_coord0 wf idx e k
  | ⟨1, _⟩ => exact rows_coord1 wf idx e k

end Cert.LibGatherRows

end
-- ==== Proof.RefRead.lean ====
/-
  The reference's result read at an index.

  The reference gathers, for every edge, the row of the node table its source word names and the row its target word
  names (a negative word moved up by the number of nodes, the result clamped into the table), joins the two rows into
  one row of 256 columns, multiplies that row against each of the six types' weights, keeps of the six products the one
  whose type number is the edge's type word (the others replaced by zero), adds the six up from zero, and adds every
  edge's row of sums into the row of the output its target word names, starting from zero. Read at node n and column h
  this is the sum, over the edges whose target word read signed is n, of the edge's message: for a type word in 1 … 6
  exactly one of the six masked products survives, and a product over the 256 joined columns is the source row against
  the first 128 weight rows plus the target row against the last 128.
-/
import proofs.«420624_j70128226009226_3_alg».proof.Proof.Gen.ReferenceIdeal.Read
import proofs.«420624_j70128226009226_3_alg».proof.Proof.Common
import proofs.«420624_j70128226009226_3_alg».proof.Proof.LibScatterSum
import proofs.«420624_j70128226009226_3_alg».proof.Proof.LibGatherRows
import Idealize.ShloMosaic.Lib.ValueIdx
import Idealize.ShloMosaic.Lib.Pipeline.Value
import Idealize.ShloMosaic.PureOps.Ideal.Laws
import Mathlib.Algebra.BigOperators.Fin
import Mathlib.Tactic.FinCases

noncomputable section

open Idealize.ShloMosaic Idealize.ShloMosaic.ValueIdx Cert.Common
open Cert.ReferenceIdeal Cert.ReferenceIdeal.Read
open scoped BigOperators

namespace Cert.RefRead

/-! ## The three index words of an edge -/

/-- A select on a word comparison is a conditional on the words' equality. -/
theorem select_cmpi_eq {α : Type} (a b : BitVec 32) (x y : α) :
    Scalar.select (IntOp.cmpi .eq a b) x y = if a = b then x else y := by
  by_cases h : a = b
  · subst h; simp [Scalar.select, IntOp.cmpi]
  · have hb : (a == b) = false := by simpa using h
    simp [Scalar.select, IntOp.cmpi, hb, h]

/-- The type word of edge e. -/
theorem ty_read (te : IVec S3x240000 32) (e : Fin 240000) :
    val_main_v1 (F := Ideal) te (ix1 e) = te (ix2 (0 : Fin 3) e) := by
  rw [val_main_v1_apply, val_main_v0_apply]
  congr 1
  funext a
  refine Fin.ext ?_
  match a with
  | ⟨0, _⟩ => rfl
  | ⟨1, _⟩ => exact Nat.mod_eq_of_lt e.isLt

/-- The source word of edge e. -/
theorem src_read (te : IVec S3x240000 32) (e : Fin 240000) :
    val_main_v3 (F := Ideal) te (ix1 e) = te (ix2 (1 : Fin 3) e) := by
  rw [val_main_v3_apply, val_main_v2_apply]
  congr 1
  funext a
  refine Fin.ext ?_
  match a with
  | ⟨0, _⟩ => rfl
  | ⟨1, _⟩ => exact Nat.mod_eq_of_lt e.isLt

/-- The target word of edge e. -/
theorem tgt_read (te : IVec S3x240000 32) (e : Fin 240000) :
    val_main_v5 (F := Ideal) te (ix1 e) = te (ix2 (2 : Fin 3) e) := by
  rw [val_main_v5_apply, val_main_v4_apply]
  congr 1
  funext a
  refine Fin.ext ?_
  match a with
  | ⟨0, _⟩ => rfl
  | ⟨1, _⟩ => exact Nat.mod_eq_of_lt e.isLt

/-! ## The two gathered rows and their join -/

/-- The start index of the source gather: the source word, moved up when negative. -/
theorem src_start (te : IVec S3x240000 32) (e : Fin 240000) :
    val_main_v11 (F := Ideal) te (ix2 e (0 : Fin 1)) = wrapRow (te (ix2 (1 : Fin 3) e)) := by
  have e1 : idx_main_v11 (ix2 e (0 : Fin 1)) = ix1 e := by
    funext a; match a with | ⟨0, _⟩ => rfl
  rw [val_main_v11_apply, e1, val_main_v10_apply, val_main_v7_apply, val_main_v9_apply, val_main_v6_apply,
    val_main_v8_apply, val_main_c_apply, val_main_c_0_apply, src_read]
  rfl

/-- The start index of the target gather: the target word, moved up when negative. -/
theorem tgt_start (te : IVec S3x240000 32) (e : Fin 240000) :
    val_main_v18 (F := Ideal) te (ix2 e (0 : Fin 1)) = wrapRow (te (ix2 (2 : Fin 3) e)) := by
  have e1 : idx_main_v18 (ix2 e (0 : Fin 1)) = ix1 e := by
    funext a; match a with | ⟨0, _⟩ => rfl
  rw [val_main_v18_apply, e1, val_main_v17_apply, val_main_v14_apply, val_main_v16_apply, val_main_v13_apply,
    val_main_v15_apply, val_main_c_1_apply, val_main_c_2_apply, tgt_read]
  rfl

/-- The source gather at edge e, column k: the node table's row the source word reads. -/
theorem src_row (se : FVec Ideal S200000x128 .f32) (te : IVec S3x240000 32) (e : Fin 240000) (k : Fin 128) :
    val_main_v12 (F := Ideal) se te (ix2 e k) = se (ix2 (rowOf (te (ix2 (1 : Fin 3) e))) k) := by
  unfold val_main_v12
  refine (LibGatherRows.gather_rows_apply (N := 200000) (K := 128) (E := 240000) (by decide)
    Facts₀.gather_S200000x128_S240000x1_S240000x128_1_0_n_n_0_1_1128_wf se (val_main_v11 (F := Ideal) te) e k).trans ?_
  congr 2
  refine Fin.ext ?_
  show min _ _ = min _ _
  rw [src_start]

/-- The target gather at edge e, column k: the node table's row the target word reads. -/
theorem tgt_row (se : FVec Ideal S200000x128 .f32) (te : IVec S3x240000 32) (e : Fin 240000) (k : Fin 128) :
    val_main_v19 (F := Ideal) se te (ix2 e k) = se (ix2 (rowOf (te (ix2 (2 : Fin 3) e))) k) := by
  unfold val_main_v19
  refine (LibGatherRows.gather_rows_apply (N := 200000) (K := 128) (E := 240000) (by decide)
    Facts₀.gather_S200000x128_S240000x1_S240000x128_1_0_n_n_0_1_1128_wf se (val_main_v18 (F := Ideal) te) e k).trans ?_
  congr 2
  refine Fin.ext ?_
  show min _ _ = min _ _
  rw [tgt_start]

/-- The joined row's first 128 columns are the source's row. -/
theorem cat_left (se : FVec Ideal S200000x128 .f32) (te : IVec S3x240000 32) (e : Fin 240000) (k : Fin 128) :
    val_main_v20 (F := Ideal) se te (ix2 e (⟨k.val, by omega⟩ : Fin 256)) = se (ix2 (rowOf (te (ix2 (1 : Fin 3) e))) k) := by
  unfold val_main_v20
  refine (concatenate_pair_apply_left (s₁ := S240000x128) (s₂ := S240000x128) (1 : Fin 2) _ _
    Facts₀.concatenates_S240000x128_S240000x128_S240000x256_d1
    (ix2 e (⟨k.val, by omega⟩ : Fin 256)) rfl (ix2 e k) (fun b => ?_)).trans (src_row se te e k)
  match b with
  | ⟨0, _⟩ => rfl
  | ⟨1, _⟩ => rfl

/-- The joined row's last 128 columns are the target's row. -/
theorem cat_right (se : FVec Ideal S200000x128 .f32) (te : IVec S3x240000 32) (e : Fin 240000) (k : Fin 128) :
    val_main_v20 (F := Ideal) se te (ix2 e (⟨128 + k.val, by omega⟩ : Fin 256)) = se (ix2 (rowOf (te (ix2 (2 : Fin 3) e))) k) := by
  unfold val_main_v20
  refine (concatenate_pair_apply_right (s₁ := S240000x128) (s₂ := S240000x128) (1 : Fin 2) _ _
    Facts₀.concatenates_S240000x128_S240000x128_S240000x256_d1
    (ix2 e (⟨128 + k.val, by omega⟩ : Fin 256)) rfl rfl (ix2 e k) (fun b hb => ?_) ?_).trans (tgt_row se te e k)
  · match b with
    | ⟨0, _⟩ => rfl
    | ⟨1, _⟩ => exact absurd rfl hb
  · show k.val + 128 = 128 + k.val
    omega

/-- A sum over 256 columns is the sum over the first 128 plus the sum over the last 128. -/
theorem sum_split256 (f : Fin 256 → EReal) :
    ∑ k : Fin 256, f k = (∑ k : Fin 128, f ⟨k.val, by omega⟩) + ∑ k : Fin 128, f ⟨128 + k.val, by omega⟩ :=
  Fin.sum_univ_add (a := 128) (b := 128) f

/-- The joined row of edge e against the weights of type index t is the edge's message of that type. -/
theorem prod_read (se : FVec Ideal S200000x128 .f32) (te : IVec S3x240000 32) (W : FVec Ideal S6x256x128 .f32)
    (t : Fin 6) (e : Fin 240000) (h : Fin 128) :
    ∑ k : Fin 256, val_main_v20 (F := Ideal) se te (ix2 e k) * W (ix3 t k h)
      = edgeMsg se W t (te (ix2 (1 : Fin 3) e)) (te (ix2 (2 : Fin 3) e)) h := by
  rw [sum_split256]
  unfold edgeMsg
  congr 1
  · exact Finset.sum_congr rfl fun k _ => by rw [cat_left]
  · exact Finset.sum_congr rfl fun k _ => by rw [cat_right]

/-! ## The six masked products -/

/-- Row k, column h of the weights of type index 0. -/
theorem w0_read (W : FVec Ideal S6x256x128 .f32) (k : Fin 256) (h : Fin 128) :
    val_main_v26 (F := Ideal) W (ix2 k h) = W (ix3 (0 : Fin 6) k h) := by
  rw [val_main_v26_apply, val_main_v25_apply]
  congr 1
  funext a
  refine Fin.ext ?_
  have hk := k.isLt
  have hh := h.isLt
  match a with
  | ⟨0, _⟩ => rfl
  | ⟨1, _⟩ => show (k.val * 128 + h.val) / 128 % 256 = k.val; omega
  | ⟨2, _⟩ => show (k.val * 128 + h.val) % 128 = h.val; omega

/-- Row k, column h of the weights of type index 1. -/
theorem w1_read (W : FVec Ideal S6x256x128 .f32) (k : Fin 256) (h : Fin 128) :
    val_main_v34 (F := Ideal) W (ix2 k h) = W (ix3 (1 : Fin 6) k h) := by
  rw [val_main_v34_apply, val_main_v33_apply]
  congr 1
  funext a
  refine Fin.ext ?_
  have hk := k.isLt
  have hh := h.isLt
  match a with
  | ⟨0, _⟩ => rfl
  | ⟨1, _⟩ => show (k.val * 128 + h.val) / 128 % 256 = k.val; omega
  | ⟨2, _⟩ => show (k.val * 128 + h.val) % 128 = h.val; omega

/-- Row k, column h of the weights of type index 2. -/
theorem w2_read (W : FVec Ideal S6x256x128 .f32) (k : Fin 256) (h : Fin 128) :
    val_main_v42 (F := Ideal) W (ix2 k h) = W (ix3 (2 : Fin 6) k h) := by
  rw [val_main_v42_apply, val_main_v41_apply]
  congr 1
  funext a
  refine Fin.ext ?_
  have hk := k.isLt
  have hh := h.isLt
  match a with
  | ⟨0, _⟩ => rfl
  | ⟨1, _⟩ => show (k.val * 128 + h.val) / 128 % 256 = k.val; omega
  | ⟨2, _⟩ => show (k.val * 128 + h.val) % 128 = h.val; omega

/-- Row k, column h of the weights of type index 3. -/
theorem w3_read (W : FVec Ideal S6x256x128 .f32) (k : Fin 256) (h : Fin 128) :
    val_main_v50 (F := Ideal) W (ix2 k h) = W (ix3 (3 : Fin 6) k h) := by
  rw [val_main_v50_apply, val_main_v49_apply]
  congr 1
  funext a
  refine Fin.ext ?_
  have hk := k.isLt
  have hh := h.isLt
  match a with
  | ⟨0, _⟩ => rfl
  | ⟨1, _⟩ => show (k.val * 128 + h.val) / 128 % 256 = k.val; omega
  | ⟨2, _⟩ => show (k.val * 128 + h.val) % 128 = h.val; omega

/-- Row k, column h of the weights of type index 4. -/
theorem w4_read (W : FVec Ideal S6x256x128 .f32) (k : Fin 256) (h : Fin 128) :
    val_main_v58 (F := Ideal) W (ix2 k h) = W (ix3 (4 : Fin 6) k h) := by
  rw [val_main_v58_apply, val_main_v57_apply]
  congr 1
  funext a
  refine Fin.ext ?_
  have hk := k.isLt
  have hh := h.isLt
  match a with
  | ⟨0, _⟩ => rfl
  | ⟨1, _⟩ => show (k.val * 128 + h.val) / 128 % 256 = k.val; omega
  | ⟨2, _⟩ => show (k.val * 128 + h.val) % 128 = h.val; omega

/-- Row k, column h of the weights of type index 5. -/
theorem w5_read (W : FVec Ideal S6x256x128 .f32) (k : Fin 256) (h : Fin 128) :
    val_main_v66 (F := Ideal) W (ix2 k h) = W (ix3 (5 : Fin 6) k h) := by
  rw [val_main_v66_apply, val_main_v65_apply]
  congr 1
  funext a
  refine Fin.ext ?_
  have hk := k.isLt
  have hh := h.isLt
  match a with
  | ⟨0, _⟩ => rfl
  | ⟨1, _⟩ => show (k.val * 128 + h.val) / 128 % 256 = k.val; omega
  | ⟨2, _⟩ => show (k.val * 128 + h.val) % 128 = h.val; omega

section Masked
variable (se : FVec Ideal S200000x128 .f32) (te : IVec S3x240000 32) (W : FVec Ideal S6x256x128 .f32)
  (e : Fin 240000) (h : Fin 128)

/-- The masked product of type number 1: the edge's message of type index 0 where the type word is 1, else zero. -/
theorem masked0 :
    val_main_v28 (F := Ideal) se te W (ix2 e h)
      = if te (ix2 (0 : Fin 3) e) = 1#32
        then edgeMsg se W (0 : Fin 6) (te (ix2 (1 : Fin 3) e)) (te (ix2 (2 : Fin 3) e)) h else 0 := by
  have e1 : idx_main_v24 (idx_main_call0_v0 (ix2 e h)) = ix1 e := by
    funext a; match a with | ⟨0, _⟩ => rfl
  have hd : val_main_v27 (F := Ideal) se te W (ix2 e h)
      = ∑ k : Fin 256, val_main_v20 (F := Ideal) se te (ix2 e k) * W (ix3 (0 : Fin 6) k h) := by
    rw [val_main_v27_apply]
    refine Finset.sum_congr rfl fun k _ => ?_
    have el : lidx_main_v27 (ix2 e h) k = ix2 e k := by
      funext a; match a with | ⟨0, _⟩ => rfl | ⟨1, _⟩ => rfl
    have er : ridx_main_v27 (ix2 e h) k = ix2 k h := by
      funext a; match a with | ⟨0, _⟩ => rfl | ⟨1, _⟩ => rfl
    rw [el, er, w0_read]
  rw [val_main_v28_apply, val_main_call0_v0_apply, val_main_v24_apply, val_main_v23_apply, val_main_call0_v1_apply,
    val_main_cst_4_apply, val_main_v22_apply, val_main_c_3_apply, e1, ty_read, select_cmpi_eq, hd, prod_read]
  show (if _ then _ else Ideal.ofBits .f32 0x00000000#32) = _
  rw [Ideal.ofBits_zero_f32]

/-- The masked product of type number 2. -/
theorem masked1 :
    val_main_v36 (F := Ideal) se te W (ix2 e h)
      = if te (ix2 (0 : Fin 3) e) = 2#32
        then edgeMsg se W (1 : Fin 6) (te (ix2 (1 : Fin 3) e)) (te (ix2 (2 : Fin 3) e)) h else 0 := by
  have e1 : idx_main_v32 (idx_main_call1_v0 (ix2 e h)) = ix1 e := by
    funext a; match a with | ⟨0, _⟩ => rfl
  have hd : val_main_v35 (F := Ideal) se te W (ix2 e h)
      = ∑ k : Fin 256, val_main_v20 (F := Ideal) se te (ix2 e k) * W (ix3 (1 : Fin 6) k h) := by
    rw [val_main_v35_apply]
    refine Finset.sum_congr rfl fun k _ => ?_
    have el : lidx_main_v35 (ix2 e h) k = ix2 e k := by
      funext a; match a with | ⟨0, _⟩ => rfl | ⟨1, _⟩ => rfl
    have er : ridx_main_v35 (ix2 e h) k = ix2 k h := by
      funext a; match a with | ⟨0, _⟩ => rfl | ⟨1, _⟩ => rfl
    rw [el, er, w1_read]
  rw [val_main_v36_apply, val_main_call1_v0_apply, val_main_v32_apply, val_main_v31_apply, val_main_call1_v1_apply,
    val_main_cst_6_apply, val_main_v30_apply, val_main_c_5_apply, e1, ty_read, select_cmpi_eq, hd, prod_read]
  show (if _ then _ else Ideal.ofBits .f32 0x00000000#32) = _
  rw [Ideal.ofBits_zero_f32]

/-- The masked product of type number 3. -/
theorem masked2 :
    val_main_v44 (F := Ideal) se te W (ix2 e h)
      = if te (ix2 (0 : Fin 3) e) = 3#32
        then edgeMsg se W (2 : Fin 6) (te (ix2 (1 : Fin 3) e)) (te (ix2 (2 : Fin 3) e)) h else 0 := by
  have e1 : idx_main_v40 (idx_main_call2_v0 (ix2 e h)) = ix1 e := by
    funext a; match a with | ⟨0, _⟩ => rfl
  have hd : val_main_v43 (F := Ideal) se te W (ix2 e h)
      = ∑ k : Fin 256, val_main_v20 (F := Ideal) se te (ix2 e k) * W (ix3 (2 : Fin 6) k h) := by
    rw [val_main_v43_apply]
    refine Finset.sum_congr rfl fun k _ => ?_
    have el : lidx_main_v43 (ix2 e h) k = ix2 e k := by
      funext a; match a with | ⟨0, _⟩ => rfl | ⟨1, _⟩ => rfl
    have er : ridx_main_v43 (ix2 e h) k = ix2 k h := by
      funext a; match a with | ⟨0, _⟩ => rfl | ⟨1, _⟩ => rfl
    rw [el, er, w2_read]
  rw [val_main_v44_apply, val_main_call2_v0_apply, val_main_v40_apply, val_main_v39_apply, val_main_call2_v1_apply,
    val_main_cst_8_apply, val_main_v38_apply, val_main_c_7_apply, e1, ty_read, select_cmpi_eq, hd, prod_read]
  show (if _ then _ else Ideal.ofBits .f32 0x00000000#32) = _
  rw [Ideal.ofBits_zero_f32]

/-- The masked product of type number 4. -/
theorem masked3 :
    val_main_v52 (F := Ideal) se te W (ix2 e h)
      = if te (ix2 (0 : Fin 3) e) = 4#32
        then edgeMsg se W (3 : Fin 6) (te (ix2 (1 : Fin 3) e)) (te (ix2 (2 : Fin 3) e)) h else 0 := by
  have e1 : idx_main_v48 (idx_main_call3_v0 (ix2 e h)) = ix1 e := by
    funext a; match a with | ⟨0, _⟩ => rfl
  have hd : val_main_v51 (F := Ideal) se te W (ix2 e h)
      = ∑ k : Fin 256, val_main_v20 (F := Ideal) se te (ix2 e k) * W (ix3 (3 : Fin 6) k h) := by
    rw [val_main_v51_apply]
    refine Finset.sum_congr rfl fun k _ => ?_
    have el : lidx_main_v51 (ix2 e h) k = ix2 e k := by
      funext a; match a with | ⟨0, _⟩ => rfl | ⟨1, _⟩ => rfl
    have er : ridx_main_v51 (ix2 e h) k = ix2 k h := by
      funext a; match a with | ⟨0, _⟩ => rfl | ⟨1, _⟩ => rfl
    rw [el, er, w3_read]
  rw [val_main_v52_apply, val_main_call3_v0_apply, val_main_v48_apply, val_main_v47_apply, val_main_call3_v1_apply,
    val_main_cst_10_apply, val_main_v46_apply, val_main_c_9_apply, e1, ty_read, select_cmpi_eq, hd, prod_read]
  show (if _ then _ else Ideal.ofBits .f32 0x00000000#32) = _
  rw [Ideal.ofBits_zero_f32]

/-- The masked product of type number 5. -/
theorem masked4 :
    val_main_v60 (F := Ideal) se te W (ix2 e h)
      = if te (ix2 (0 : Fin 3) e) = 5#32
        then edgeMsg se W (4 : Fin 6) (te (ix2 (1 : Fin 3) e)) (te (ix2 (2 : Fin 3) e)) h else 0 := by
  have e1 : idx_main_v56 (idx_main_call4_v0 (ix2 e h)) = ix1 e := by
    funext a; match a with | ⟨0, _⟩ => rfl
  have hd : val_main_v59 (F := Ideal) se te W (ix2 e h)
      = ∑ k : Fin 256, val_main_v20 (F := Ideal) se te (ix2 e k) * W (ix3 (4 : Fin 6) k h) := by
    rw [val_main_v59_apply]
    refine Finset.sum_congr rfl fun k _ => ?_
    have el : lidx_main_v59 (ix2 e h) k = ix2 e k := by
      funext a; match a with | ⟨0, _⟩ => rfl | ⟨1, _⟩ => rfl
    have er : ridx_main_v59 (ix2 e h) k = ix2 k h := by
      funext a; match a with | ⟨0, _⟩ => rfl | ⟨1, _⟩ => rfl
    rw [el, er, w4_read]
  rw [val_main_v60_apply, val_main_call4_v0_apply, val_main_v56_apply, val_main_v55_apply, val_main_call4_v1_apply,
    val_main_cst_12_apply, val_main_v54_apply, val_main_c_11_apply, e1, ty_read, select_cmpi_eq, hd, prod_read]
  show (if _ then _ else Ideal.ofBits .f32 0x00000000#32) = _
  rw [Ideal.ofBits_zero_f32]

/-- The masked product of type number 6. -/
theorem masked5 :
    val_main_v68 (F := Ideal) se te W (ix2 e h)
      = if te (ix2 (0 : Fin 3) e) = 6#32
        then edgeMsg se W (5 : Fin 6) (te (ix2 (1 : Fin 3) e)) (te (ix2 (2 : Fin 3) e)) h else 0 := by
  have e1 : idx_main_v64 (idx_main_call5_v0 (ix2 e h)) = ix1 e := by
    funext a; match a with | ⟨0, _⟩ => rfl
  have hd : val_main_v67 (F := Ideal) se te W (ix2 e h)
      = ∑ k : Fin 256, val_main_v20 (F := Ideal) se te (ix2 e k) * W (ix3 (5 : Fin 6) k h) := by
    rw [val_main_v67_apply]
    refine Finset.sum_congr rfl fun k _ => ?_
    have el : lidx_main_v67 (ix2 e h) k = ix2 e k := by
      funext a; match a with | ⟨0, _⟩ => rfl | ⟨1, _⟩ => rfl
    have er : ridx_main_v67 (ix2 e h) k = ix2 k h := by
      funext a; match a with | ⟨0, _⟩ => rfl | ⟨1, _⟩ => rfl
    rw [el, er, w5_read]
  rw [val_main_v68_apply, val_main_call5_v0_apply, val_main_v64_apply, val_main_v63_apply, val_main_call5_v1_apply,
    val_main_cst_14_apply, val_main_v62_apply, val_main_c_13_apply, e1, ty_read, select_cmpi_eq, hd, prod_read]
  show (if _ then _ else Ideal.ofBits .f32 0x00000000#32) = _
  rw [Ideal.ofBits_zero_f32]

end Masked

/-! ## An edge's summed message, and the scatter -/

/-- Of six terms each kept only where the word is its type number, added up from zero, the one the word names is left. -/
theorem pick6 (w : BitVec 32) (t : Fin 6) (hw : w = BitVec.ofNat 32 (t.val + 1)) (a : Fin 6 → EReal) :
    ((((((0 + (if w = 1#32 then a 0 else 0)) + (if w = 2#32 then a 1 else 0)) + (if w = 3#32 then a 2 else 0))
      + (if w = 4#32 then a 3 else 0)) + (if w = 5#32 then a 4 else 0)) + (if w = 6#32 then a 5 else 0)) = a t := by
  subst hw
  fin_cases t <;> simp

/-- The summed message of an edge whose type word is in 1 … 6 is the message of the type the word names. -/
theorem msgs_read (se : FVec Ideal S200000x128 .f32) (te : IVec S3x240000 32) (W : FVec Ideal S6x256x128 .f32)
    (e : Fin 240000) (h : Fin 128)
    (h1 : 1 ≤ (te (ix2 (0 : Fin 3) e)).toInt) (h6 : (te (ix2 (0 : Fin 3) e)).toInt ≤ 6) :
    val_main_v69 (F := Ideal) se te W (ix2 e h)
      = edgeMsg se W (tyOf (te (ix2 (0 : Fin 3) e))) (te (ix2 (1 : Fin 3) e)) (te (ix2 (2 : Fin 3) e)) h := by
  rw [val_main_v69_apply, val_main_v61_apply, val_main_v53_apply, val_main_v45_apply, val_main_v37_apply,
    val_main_v29_apply, val_main_v21_apply, val_main_cst_apply, masked0, masked1, masked2, masked3, masked4, masked5]
  simp only [Ideal.addf_def, Ideal.ofBits_def, Ideal.ofBits_zero_f32]
  exact pick6 _ _ (tyOf_spec _ h1 h6) (fun t => edgeMsg se W t (te (ix2 (1 : Fin 3) e)) (te (ix2 (2 : Fin 3) e)) h)

/-- The reference's scatter of any updates into any operand, read at node n, column h: the operand's element plus the
    sum of the updates of the edges whose index word read signed is n. -/
theorem scatter_read (x : FVec Ideal S200000x128 .f32) (idx : IVec S240000x1 32) (upd : FVec Ideal S240000x128 .f32)
    (n : Fin 200000) (h : Fin 128) :
    Host.scatterAdd scatter_S200000x128_S240000x1_S240000x128_1_0_0_1 x idx upd (ix2 n h)
      = x (ix2 n h) + ∑ e ∈ Finset.univ.filter (fun e : Fin 240000 => (idx (ix2 e (0 : Fin 1))).toInt = (n.val : ℤ)),
          upd (ix2 e h) :=
  LibScatterSum.scatterAdd_rows (N := 200000) (K := 128) (E := 240000)
    Facts₀.scatter_S200000x128_S240000x1_S240000x128_1_0_0_1_wf x idx upd n h

/-- The reference's result at node n, column h: the sum of the messages of the edges whose target word is n. -/
theorem ref_result (se : FVec Ideal Cert.ReferenceIdeal.S200000x128 .f32) (te : IVec Cert.ReferenceIdeal.S3x240000 32) (W : FVec Ideal Cert.ReferenceIdeal.S6x256x128 .f32)
    (hty : ∀ e : Fin 240000, 1 ≤ (te (ix2 (0 : Fin 3) e)).toInt ∧ (te (ix2 (0 : Fin 3) e)).toInt ≤ 6)
    (n : Fin 200000) (h : Fin 128) :
    Cert.ReferenceIdeal.Read.val_main_v72 (F := Ideal) se te W (ix2 n h)
      = ∑ e ∈ Finset.univ.filter (fun e : Fin 240000 => (te (ix2 (2 : Fin 3) e)).toInt = (n.val : ℤ)),
          edgeMsg se W (tyOf (te (ix2 (0 : Fin 3) e))) (te (ix2 (1 : Fin 3) e)) (te (ix2 (2 : Fin 3) e)) h := by
  have hidx : ∀ e : Fin 240000, val_main_v71 (F := Ideal) te (ix2 e (0 : Fin 1)) = te (ix2 (2 : Fin 3) e) := fun e => by
    have e1 : idx_main_v71 (ix2 e (0 : Fin 1)) = ix1 e := by
      funext a; match a with | ⟨0, _⟩ => rfl
    rw [val_main_v71_apply, e1, tgt_read]
  have hz : val_main_v70 (F := Ideal) (ix2 n h) = 0 := by
    rw [val_main_v70_apply, val_main_cst_15_apply]
    exact Ideal.ofBits_zero_f32
  unfold val_main_v72
  rw [scatter_read, hz, zero_add]
  refine Finset.sum_congr (Finset.filter_congr fun e _ => ?_) (fun e _ => msgs_read se te W e h (hty e).1 (hty e).2)
  rw [hidx e]

end Cert.RefRead

end
-- ==== Proof.SlotMath.lean ====
import Mathlib.Data.Fintype.Card
import Mathlib.Algebra.BigOperators.Group.Finset.Basic
import Mathlib.Algebra.Order.BigOperators.Group.Finset
import Mathlib.Tactic

/-!
# Counting slots for items grouped by type

`E` items, each of one of six types.  The items of one type are laid, in their original
order, into a run of slots whose length is the number of items of that type rounded up to
a multiple of 8192; the six runs follow one another in type order.  This file defines the
counts, the ranks, the padded counts, the run boundaries and the slot of each item, and
proves the bounds, the divisibility facts, injectivity of the slot map, and that the run an
item's slot lies in is recovered by counting the run ends at or below the start of the
8192-block that holds the slot.
-/

namespace Cert.SlotMath

open Finset

variable {E : Nat} (ty : Fin E → Fin 6)

/-- Number of items of type `t`. -/
def cnt (t : Fin 6) : Nat := (Finset.univ.filter fun e : Fin E => ty e = t).card

/-- One-based rank of item `e` among the items of its own type, in the original order. -/
def rk (e : Fin E) : Nat :=
  (Finset.univ.filter fun e' : Fin E => e'.val ≤ e.val ∧ ty e' = ty e).card

/-- Count of type `t` rounded up to a multiple of 8192. -/
def pc (t : Fin 6) : Nat := (cnt ty t + 8191) / 8192 * 8192

/-- End of the run of type `t`: the padded counts of all types up to and including `t`. -/
def bd (t : Fin 6) : Nat :=
  ∑ t' ∈ Finset.univ.filter (fun t' : Fin 6 => t'.val ≤ t.val), pc ty t'

/-- Start of the run of type `t`: the padded counts of all types strictly before `t`. -/
def gs (t : Fin 6) : Nat :=
  ∑ t' ∈ Finset.univ.filter (fun t' : Fin 6 => t'.val < t.val), pc ty t'

/-- Slot of item `e`: start of its type's run plus its zero-based rank. -/
def slot (e : Fin E) : Nat := gs ty (ty e) + (rk ty e - 1)

/-! ### Ranks and counts -/

/-- An item is counted in its own rank. -/
theorem rk_pos (e : Fin E) : 1 ≤ rk ty e := by
  unfold rk
  refine Finset.card_pos.mpr ⟨e, ?_⟩
  simp

/-- The items counted by the rank of `e` are all of the type of `e`. -/
theorem rk_le_cnt (e : Fin E) : rk ty e ≤ cnt ty (ty e) := by
  unfold rk cnt
  refine Finset.card_le_card ?_
  intro x hx
  simp only [Finset.mem_filter, Finset.mem_univ, true_and] at hx ⊢
  exact hx.2

theorem cnt_le (t : Fin 6) : cnt ty t ≤ E := by
  unfold cnt
  calc (Finset.univ.filter fun e : Fin E => ty e = t).card
      ≤ (Finset.univ : Finset (Fin E)).card := Finset.card_le_card (Finset.filter_subset _ _)
    _ = E := by simp

/-- Every item has exactly one type, so the counts add up to the number of items. -/
theorem sum_cnt : ∑ t, cnt ty t = E := by
  unfold cnt
  have h := Finset.card_eq_sum_card_fiberwise (f := ty) (s := Finset.univ)
    (t := Finset.univ) (fun x _ => Finset.mem_univ _)
  rw [← h]
  simp

/-- Rank is strictly increasing along the items of one type. -/
theorem rk_lt_of_lt {e' e : Fin E} (hlt : e'.val < e.val) (hty : ty e' = ty e) :
    rk ty e' < rk ty e := by
  unfold rk
  refine Finset.card_lt_card ⟨?_, ?_⟩
  · intro x hx
    simp only [Finset.mem_filter, Finset.mem_univ, true_and] at hx ⊢
    exact ⟨by omega, hx.2.trans hty⟩
  · intro hsub
    have hmem : e ∈ Finset.univ.filter
        (fun x : Fin E => x.val ≤ e.val ∧ ty x = ty e) := by simp
    have := hsub hmem
    simp only [Finset.mem_filter, Finset.mem_univ, true_and] at this
    omega

/-! ### Padded counts -/

theorem cnt_le_pc (t : Fin 6) : cnt ty t ≤ pc ty t := by
  unfold pc
  omega

theorem pc_lt (t : Fin 6) : pc ty t < cnt ty t + 8192 := by
  unfold pc
  omega

theorem pc_dvd (t : Fin 6) : 8192 ∣ pc ty t := by
  unfold pc
  exact Dvd.intro_left _ rfl

/-! ### Run boundaries -/

theorem gs_dvd (t : Fin 6) : 8192 ∣ gs ty t := by
  unfold gs
  exact Finset.dvd_sum (fun t' _ => pc_dvd ty t')

/-- The types up to and including `t` are `t` itself together with the types before it. -/
theorem bd_eq (t : Fin 6) : bd ty t = gs ty t + pc ty t := by
  unfold bd gs
  have h : (Finset.univ.filter fun t' : Fin 6 => t'.val ≤ t.val)
      = insert t (Finset.univ.filter fun t' : Fin 6 => t'.val < t.val) := by
    ext x
    simp only [Finset.mem_filter, Finset.mem_univ, true_and, Finset.mem_insert]
    constructor
    · intro hx
      rcases Nat.lt_or_eq_of_le hx with hx | hx
      · exact Or.inr hx
      · exact Or.inl (Fin.ext hx)
    · rintro (hx | hx)
      · rw [hx]
      · exact Nat.le_of_lt hx
  have hnot : t ∉ (Finset.univ.filter fun t' : Fin 6 => t'.val < t.val) := by simp
  rw [h, Finset.sum_insert hnot]
  omega

theorem bd_mono {t t' : Fin 6} (h : t.val ≤ t'.val) : bd ty t ≤ bd ty t' := by
  unfold bd
  refine Finset.sum_le_sum_of_subset ?_
  intro x hx
  simp only [Finset.mem_filter, Finset.mem_univ, true_and] at hx ⊢
  omega

/-- Each padded count exceeds its count by at most 8191, and the counts add up to `E`. -/
theorem bd_le_total (t : Fin 6) : bd ty t ≤ E + 6 * 8191 := by
  unfold bd
  calc ∑ t' ∈ Finset.univ.filter (fun t' : Fin 6 => t'.val ≤ t.val), pc ty t'
      ≤ ∑ t' : Fin 6, pc ty t' := Finset.sum_le_sum_of_subset (Finset.filter_subset _ _)
    _ ≤ ∑ t' : Fin 6, (cnt ty t' + 8191) :=
        Finset.sum_le_sum (fun t' _ => by have := pc_lt ty t'; omega)
    _ = E + 6 * 8191 := by
        rw [Finset.sum_add_distrib, sum_cnt]
        simp

theorem gs_le_bd_of_lt {t g : Fin 6} (h : t.val < g.val) : bd ty t ≤ gs ty g := by
  unfold bd gs
  refine Finset.sum_le_sum_of_subset ?_
  intro x hx
  simp only [Finset.mem_filter, Finset.mem_univ, true_and] at hx ⊢
  omega

/-! ### Slots -/

theorem slot_lt_bd (e : Fin E) : slot ty e < gs ty (ty e) + cnt ty (ty e) := by
  unfold slot
  have h1 := rk_pos ty e
  have h2 := rk_le_cnt ty e
  omega

theorem slot_lt_bd' (e : Fin E) : slot ty e < bd ty (ty e) := by
  have h1 := slot_lt_bd ty e
  have h2 := cnt_le_pc ty (ty e)
  have h3 := bd_eq ty (ty e)
  omega

theorem gs_le_slot (e : Fin E) : gs ty (ty e) ≤ slot ty e := by
  unfold slot
  omega

theorem slot_lt (e : Fin E) : slot ty e < E + 6 * 8191 := by
  have h1 := slot_lt_bd' ty e
  have h2 := bd_le_total ty (ty e)
  omega

/-- An item of an earlier type lies in an earlier run. -/
theorem slot_lt_of_ty_lt {e e' : Fin E} (h : (ty e).val < (ty e').val) :
    slot ty e < slot ty e' := by
  have h1 := slot_lt_bd' ty e
  have h2 := gs_le_bd_of_lt ty h
  have h3 := gs_le_slot ty e'
  omega

/-- Items of different types lie in different runs; items of one type have different
ranks. -/
theorem slot_inj : Function.Injective (slot ty) := by
  intro e e' heq
  have hty : ty e = ty e' := by
    apply Fin.ext
    rcases Nat.lt_trichotomy (ty e).val (ty e').val with h | h | h
    · have := slot_lt_of_ty_lt ty h
      omega
    · exact h
    · have := slot_lt_of_ty_lt ty h
      omega
  have hrk : rk ty e = rk ty e' := by
    have h1 := rk_pos ty e
    have h2 := rk_pos ty e'
    unfold slot at heq
    rw [hty] at heq
    omega
  apply Fin.ext
  rcases Nat.lt_trichotomy e.val e'.val with h | h | h
  · have := rk_lt_of_lt ty h hty
    omega
  · exact h
  · have := rk_lt_of_lt ty h hty.symm
    omega

/-- The number of types strictly before `k` is `k`. -/
theorem card_lt_fin6 (k : Fin 6) :
    (Finset.univ.filter fun t : Fin 6 => t.val < k.val).card = k.val := by
  revert k
  decide

/-- The run ends at or below the start of the 8192-block holding the slot of `e` are
exactly those of the types before the type of `e`: the start of the run of `e` is a
multiple of 8192 at or below the slot, and the run of `e` ends above the slot. -/
theorem tile_group (e : Fin E) :
    (Finset.univ.filter fun t : Fin 6 => bd ty t ≤ slot ty e / 8192 * 8192).card
      = (ty e).val := by
  rw [← card_lt_fin6 (ty e)]
  congr 1
  ext t
  simp only [Finset.mem_filter, Finset.mem_univ, true_and]
  constructor
  · intro hle
    by_contra hnot
    have hge : (ty e).val ≤ t.val := by omega
    have h1 := bd_mono ty hge
    have h2 := slot_lt_bd' ty e
    omega
  · intro hlt
    have h1 := gs_le_bd_of_lt ty hlt
    have h2 := gs_le_slot ty e
    obtain ⟨q, hq⟩ := gs_dvd ty (ty e)
    omega

end Cert.SlotMath
-- ==== Proof.LibCumsum.lean ====
/-
  A running sum written as a windowed reduction by integer addition, read one entry at a time.

  * A left fold by addition from v over a list is v plus the list's sum (foldl_add_eq_sum), so a windowed
    reduction by addition from a zero initial value, read at a result index, is the sum over the window's
    positions of the operand where the position falls inside it and of zero where it falls in the padding
    (reduceWindow_addi_apply).
  * With a window as long as the axis, stride one and low padding one less than the axis, the window at result
    index e covers the operand's entries 0 … e: position a of the window sits at entry e + a − lo, inside the
    operand exactly when lo ≤ e + a (sum_shift). This gives the running sum down the rows of a matrix
    (cumsum_rows) and along a vector (cumsum_vec).
  * A sum of 0/1 indicator words is the count of the indices where the indicator holds (sum_indicator).
-/
import Idealize.ShloMosaic.PureOps
import Idealize.ShloMosaic.Lib.ValueIdx
import Idealize.ShloMosaic.Lib.ValueIdxRank1
import Mathlib.Data.BitVec
import Mathlib.Algebra.BigOperators.Fin

open scoped BigOperators

namespace Cert.LibCumsum

open Idealize.ShloMosaic Idealize.ShloMosaic.ValueIdx

/-- A left fold by addition from v is v plus the sum of the terms. -/
theorem foldl_add_eq_sum {M ι : Type} [AddCommMonoid M] (g : ι → M) (v : M) (L : List ι) :
    L.foldl (fun r n => r + g n) v = v + (L.map g).sum := by
  induction L generalizing v with
  | nil => simp
  | cons a L ih => rw [List.foldl_cons, ih, List.map_cons, List.sum_cons, add_assoc]

/-- Two dependent choices with equivalent conditions and equal values where both hold are equal. -/
theorem dite_congr_iff {α : Type} {P Q : Prop} [Decidable P] [Decidable Q] (hPQ : P ↔ Q) {f : P → α} {g : Q → α}
    {z : α} (hfg : ∀ hp hq, f hp = g hq) : (if h : P then f h else z) = (if h : Q then g h else z) := by
  by_cases hp : P
  · rw [dif_pos hp, dif_pos (hPQ.1 hp)]; exact hfg _ _
  · rw [dif_neg hp, dif_neg (fun hq => hp (hPQ.2 hq))]

/-- A windowed reduction by integer addition from a zero initial value, read at a result index: the sum over the
    window's positions of the operand's entry where the position is inside the operand, and of zero elsewhere. -/
theorem reduceWindow_addi_apply {s t u : Shape} {w : Nat} (window strides lo hi : Fin s.rank → Nat) (x : IVec s w)
    (init : IVec u w) (h : s.ReduceWindows window strides lo hi t) (hu : 0 < u.numel)
    (hv : init (Shape.Idx.first hu) = 0#w) (j : t.Idx) :
    Host.reduceWindow IntOp.addi window strides lo hi x init h hu j
      = ∑ i : (⟨s.rank, window⟩ : Shape).Idx,
          (if hin : ∀ a, lo a ≤ (j (a.cast h.1.symm)).val * strides a + (i a).val
                ∧ (j (a.cast h.1.symm)).val * strides a + (i a).val - lo a < s.size a
            then x (fun a => ⟨(j (a.cast h.1.symm)).val * strides a + (i a).val - lo a, (hin a).2⟩) else 0#w) := by
  unfold Host.reduceWindow
  simp only [hv]
  have key := foldl_add_eq_sum (M := BitVec w)
    (fun n : Fin (⟨s.rank, window⟩ : Shape).numel =>
      if hin : ∀ a, lo a ≤ (j (a.cast h.1.symm)).val * strides a + ((⟨s.rank, window⟩ : Shape).rowMajor.symm n a).val
            ∧ (j (a.cast h.1.symm)).val * strides a + ((⟨s.rank, window⟩ : Shape).rowMajor.symm n a).val - lo a < s.size a
        then x (fun a => ⟨(j (a.cast h.1.symm)).val * strides a + ((⟨s.rank, window⟩ : Shape).rowMajor.symm n a).val - lo a,
          (hin a).2⟩) else 0#w) (0#w) (List.finRange (⟨s.rank, window⟩ : Shape).numel)
  rw [← Fin.sum_univ_def, BitVec.zero_add] at key
  refine Eq.trans key ?_
  exact Equiv.sum_comp (⟨s.rank, window⟩ : Shape).rowMajor.symm
    (fun i : (⟨s.rank, window⟩ : Shape).Idx =>
      if hin : ∀ a, lo a ≤ (j (a.cast h.1.symm)).val * strides a + (i a).val
            ∧ (j (a.cast h.1.symm)).val * strides a + (i a).val - lo a < s.size a
        then x (fun a => ⟨(j (a.cast h.1.symm)).val * strides a + (i a).val - lo a, (hin a).2⟩) else 0#w)

/-- With low padding lo = E − 1, position a of the window at result index e sits at entry e + a − lo, inside the
    operand exactly when lo ≤ e + a: as a runs over the window these are the entries 0 … e, once each. -/
theorem sum_shift {M : Type} [AddCommMonoid M] {E : Nat} (lo : Nat) (hlo : lo + 1 = E) (F : Fin E → M) (e : Fin E) :
    (∑ a : Fin E, (if h : lo ≤ e.val + a.val ∧ e.val + a.val - lo < E then F ⟨e.val + a.val - lo, h.2⟩ else 0))
      = ∑ e' ∈ Finset.univ.filter (fun e' : Fin E => e'.val ≤ e.val), F e' := by
  have he := e.isLt
  rw [← Finset.sum_subset (Finset.filter_subset (fun a : Fin E => lo ≤ e.val + a.val) Finset.univ)
    (fun a _ ha => dif_neg (fun hc => ha (Finset.mem_filter.2 ⟨Finset.mem_univ _, hc.1⟩)))]
  refine Finset.sum_bij (fun a _ => (⟨e.val + a.val - lo, by have := a.isLt; omega⟩ : Fin E)) ?_ ?_ ?_ ?_
  · intro a ha
    have h1 := (Finset.mem_filter.1 ha).2
    have := a.isLt
    exact Finset.mem_filter.2 ⟨Finset.mem_univ _, by show e.val + a.val - lo ≤ e.val; omega⟩
  · intro a ha b hb hab
    have h1 := (Finset.mem_filter.1 ha).2
    have h2 := (Finset.mem_filter.1 hb).2
    have h3 : e.val + a.val - lo = e.val + b.val - lo := congrArg Fin.val hab
    exact Fin.ext (by omega)
  · intro b hb
    have h1 : b.val ≤ e.val := (Finset.mem_filter.1 hb).2
    exact ⟨⟨b.val + lo - e.val, by omega⟩, Finset.mem_filter.2 ⟨Finset.mem_univ _, by show lo ≤ e.val + (b.val + lo - e.val); omega⟩,
      Fin.ext (by show e.val + (b.val + lo - e.val) - lo = b.val; omega)⟩
  · intro a ha
    have h1 := (Finset.mem_filter.1 ha).2
    have := a.isLt
    exact dif_pos ⟨h1, by omega⟩

/-- The running sum down the rows of an E × C matrix, as a windowed reduction with window E × 1, stride one and low
    padding E − 1 on the rows, read at (e, t): the sum of the column's entries in rows 0 … e. -/
theorem cumsum_rows {E C : Nat} (lo : Nat) (hlo : lo + 1 = E)
    (h : (⟨2, ![E, C]⟩ : Shape).ReduceWindows (![E, 1] : Fin 2 → Nat) ![1, 1] ![lo, 0] ![0, 0] ⟨2, ![E, C]⟩)
    (hu : 0 < (⟨0, ![]⟩ : Shape).numel)
    (x : IVec ⟨2, ![E, C]⟩ 32) (v : IVec ⟨0, ![]⟩ 32) (hv : ∀ i, v i = 0#32) (e : Fin E) (t : Fin C) :
    Host.reduceWindow IntOp.addi (![E, 1] : Fin 2 → Nat) ![1, 1] ![lo, 0] ![0, 0] x v h hu (ix2 e t)
      = ∑ e' ∈ Finset.univ.filter (fun e' : Fin E => e'.val ≤ e.val), x (ix2 e' t) := by
  rw [reduceWindow_addi_apply _ _ _ _ x v h hu (hv _) (ix2 e t)]
  rw [← sum_shift lo hlo (fun e' => x (ix2 e' t)) e]
  rw [sum_idx2]
  refine Finset.sum_congr rfl fun a _ => ?_
  rw [Fin.sum_univ_one]
  have ht := t.isLt
  refine dite_congr_iff ?_ ?_
  · show (∀ a' : Fin 2, _) ↔ _
    rw [Fin.forall_fin_two]
    show (lo ≤ e.val * 1 + a.val ∧ e.val * 1 + a.val - lo < E) ∧ (0 ≤ t.val * 1 + 0 ∧ t.val * 1 + 0 - 0 < C) ↔ _
    omega
  · intro hp hq
    refine congrArg x (funext fun a' => ?_)
    revert a'
    show ∀ a' : Fin 2, _
    rw [Fin.forall_fin_two]
    exact ⟨Fin.ext (by show e.val * 1 + a.val - lo = e.val + a.val - lo; omega),
      Fin.ext (by show t.val * 1 + 0 - 0 = t.val; omega)⟩

/-- The running sum along a vector of T entries, as a windowed reduction with window T, stride one and low padding
    T − 1, read at t: the sum of the entries 0 … t. -/
theorem cumsum_vec {T : Nat} (lo : Nat) (hlo : lo + 1 = T)
    (h : (⟨1, ![T]⟩ : Shape).ReduceWindows (![T] : Fin 1 → Nat) ![1] ![lo] ![0] ⟨1, ![T]⟩)
    (hu : 0 < (⟨0, ![]⟩ : Shape).numel)
    (x : IVec ⟨1, ![T]⟩ 32) (v : IVec ⟨0, ![]⟩ 32) (hv : ∀ i, v i = 0#32) (t : Fin T) :
    Host.reduceWindow IntOp.addi (![T] : Fin 1 → Nat) ![1] ![lo] ![0] x v h hu (ix1 t)
      = ∑ t' ∈ Finset.univ.filter (fun t' : Fin T => t'.val ≤ t.val), x (ix1 t') := by
  rw [reduceWindow_addi_apply _ _ _ _ x v h hu (hv _) (ix1 t)]
  rw [← sum_shift lo hlo (fun t' => x (ix1 t')) t]
  rw [← Equiv.sum_comp (idxEquiv1 (n := T)).symm]
  refine Finset.sum_congr rfl fun a _ => ?_
  refine dite_congr_iff ?_ ?_
  · show (∀ a' : Fin 1, _) ↔ _
    rw [Fin.forall_fin_one]
    show (lo ≤ t.val * 1 + a.val ∧ t.val * 1 + a.val - lo < T) ↔ _
    omega
  · intro hp hq
    refine congrArg x (funext fun a' => ?_)
    revert a'
    show ∀ a' : Fin 1, _
    rw [Fin.forall_fin_one]
    exact Fin.ext (by show t.val * 1 + a.val - lo = t.val + a.val - lo; omega)

/-- A sum of indicator words, one where the property holds and zero elsewhere, is the number of indices where it
    holds, as a word. -/
theorem sum_indicator {ι : Type} [DecidableEq ι] (S : Finset ι) (p : ι → Prop) [DecidablePred p] :
    (∑ i ∈ S, (if p i then (1#32 : BitVec 32) else 0#32)) = BitVec.ofNat 32 (S.filter p).card := by
  induction S using Finset.induction_on with
  | empty => rfl
  | insert a S ha ih =>
    rw [Finset.sum_insert ha, ih, Finset.filter_insert]
    by_cases hp : p a
    · rw [if_pos hp, if_pos hp, Finset.card_insert_of_notMem (fun hm => ha (Finset.mem_filter.1 hm).1),
        BitVec.ofNat_add, BitVec.add_comm]
    · rw [if_neg hp, if_neg hp, BitVec.zero_add]

/-! The two lemmas at literal sizes: the statements unify with a program's literal vectors. -/

example (h : (⟨2, ![240000, 6]⟩ : Shape).ReduceWindows (![240000, 1] : Fin 2 → Nat) ![1, 1] ![239999, 0] ![0, 0] ⟨2, ![240000, 6]⟩)
    (hu : 0 < (⟨0, ![]⟩ : Shape).numel) (x : IVec ⟨2, ![240000, 6]⟩ 32) (v : IVec ⟨0, ![]⟩ 32) (hv : ∀ i, v i = 0#32)
    (e : Fin 240000) (t : Fin 6) :
    Host.reduceWindow IntOp.addi ![240000, 1] ![1, 1] ![239999, 0] ![0, 0] x v h hu (ix2 e t)
      = ∑ e' ∈ Finset.univ.filter (fun e' : Fin 240000 => e'.val ≤ e.val), x (ix2 e' t) :=
  cumsum_rows 239999 rfl h hu x v hv e t

example (h : (⟨1, ![6]⟩ : Shape).ReduceWindows (![6] : Fin 1 → Nat) ![1] ![5] ![0] ⟨1, ![6]⟩)
    (hu : 0 < (⟨0, ![]⟩ : Shape).numel) (x : IVec ⟨1, ![6]⟩ 32) (v : IVec ⟨0, ![]⟩ 32) (hv : ∀ i, v i = 0#32) (t : Fin 6) :
    Host.reduceWindow IntOp.addi ![6] ![1] ![5] ![0] x v h hu (ix1 t)
      = ∑ t' ∈ Finset.univ.filter (fun t' : Fin 6 => t'.val ≤ t.val), x (ix1 t') :=
  cumsum_vec 5 rfl h hu x v hv t

end Cert.LibCumsum
-- ==== Proof.Chain1.lean ====
/-
  The first stages of the integer chain, each read at an index: the three rows of the edge table; the one-hot
  table of the edge types; its running sums down the edges; the per-type counts (the last row of the running
  sums); the in-range flag and the clamped type index of each edge.

  An edge type word in 1 … 6 is its type index plus one (Common.tyOf_spec), so every word-level step is a
  statement about the six words 1 … 6 and is checked on each of them.
-/
import proofs.«420624_j70128226009226_3_alg».proof.Proof.KSpec
import proofs.«420624_j70128226009226_3_alg».proof.Proof.Common
import proofs.«420624_j70128226009226_3_alg».proof.Proof.SlotMath
import proofs.«420624_j70128226009226_3_alg».proof.Proof.LibCumsum
import Idealize.ShloMosaic.Lib.ValueIdx
import Idealize.ShloMosaic.Lib.ValueLayout
import Idealize.ShloMosaic.Lib.StableHlo.Predicate

noncomputable section

open Idealize.ShloMosaic Idealize.ShloMosaic.ValueIdx
open Cert.KSpec Cert.Common Cert.SlotMath
open Cert.KernelIdeal Cert.KernelIdeal.Facts₀
open scoped BigOperators

namespace Cert.Chain1

/-! ## Indices by coordinates: the two spellings agree -/

/-- The rank-1 index at a coordinate, in either spelling. -/
theorem ofFin_eq_ix1 {n : Nat} (p : Fin n) : Shape.Idx.ofFin p = ix1 p := by
  funext a
  match a with
  | ⟨0, _⟩ => rfl

/-- The rank-2 index at two coordinates, in either spelling. -/
theorem ij_eq_ix2 {n m : Nat} (p : Fin n) (q : Fin m) : StableHlo.Predicate.ij p q = ix2 p q := by
  funext a
  match a with
  | ⟨0, _⟩ => rfl
  | ⟨1, _⟩ => rfl

/-! ## The rows of the edge table -/

/-- The edge types are row 0 of the edge table. -/
theorem etype_apply (te : TE) (e : Fin 240000) : etypeA te (ix1 e) = te (ix2 (0 : Fin 3) e) :=
  (shapeCast_1a_a_apply _ _ e).trans (slice2_axis0_apply 0 te _ (0 : Fin 1) e (0 : Fin 3) rfl)

/-- The sources are row 1 of the edge table. -/
theorem src_apply (te : TE) (e : Fin 240000) : srcA te (ix1 e) = te (ix2 (1 : Fin 3) e) :=
  (shapeCast_1a_a_apply _ _ e).trans (slice2_axis0_apply 1 te _ (0 : Fin 1) e (1 : Fin 3) rfl)

/-- The targets are row 2 of the edge table. -/
theorem tgt_apply (te : TE) (e : Fin 240000) : tgtA te (ix1 e) = te (ix2 (2 : Fin 3) e) :=
  (shapeCast_1a_a_apply _ _ e).trans (slice2_axis0_apply 2 te _ (0 : Fin 1) e (2 : Fin 3) rfl)

/-! ## The six type words -/

/-- An in-range edge type word is its type index plus one. -/
theorem tyWord (te : TE) (hok : TyOk te) (e : Fin 240000) :
    te (ix2 (0 : Fin 3) e) = BitVec.ofNat 32 ((tyFn te e).val + 1) :=
  tyOf_spec _ (hok e).1 (hok e).2

/-- The word k + 1 equals the type number 1 + t exactly when k = t; the comparison's bit, widened. -/
theorem onehot_word : ∀ k t : Fin 6,
    (IntOp.cmpi .eq (BitVec.ofNat 32 (k.val + 1)) (IntOp.addi 1#32 (BitVec.ofNat 32 t.val))).setWidth 32
      = if k = t then 1#32 else 0#32 := by decide

/-- The word k + 1 is at least 1 and at most 6. -/
theorem valid_word : ∀ k : Fin 6,
    IntOp.andi (IntOp.cmpi .sge (BitVec.ofNat 32 (k.val + 1)) 1#32) (IntOp.cmpi .sle (BitVec.ofNat 32 (k.val + 1)) 6#32) = 1#1 := by
  decide

/-- The word k + 1 less one, clamped into 0 … 5, is k. -/
theorem tidx_word : ∀ k : Fin 6,
    IntOp.minsi 5#32 (IntOp.maxsi 0#32 (IntOp.subi (BitVec.ofNat 32 (k.val + 1)) 1#32)) = BitVec.ofNat 32 k.val := by
  decide

/-! ## The one-hot table -/

/-- The type numbers are 1 + the position. -/
theorem typeIds_apply (t : Fin 6) : typeIdsA (ix1 t) = IntOp.addi 1#32 (BitVec.ofNat 32 t.val) := rfl

/-- Entry (e, t) of the one-hot table is 1 when edge e has type index t, else 0. -/
theorem onehot_apply (te : TE) (hok : TyOk te) (e : Fin 240000) (t : Fin 6) :
    onehotA te (ix2 e t) = if tyFn te e = t then 1#32 else 0#32 := by
  have hA : broadcastInDim S240000x6 ![0, 1] bcast_S240000x1_S240000x6_0_1
      (broadcastInDim S240000x1 ![0] bcast_S240000_S240000x1_0 (etypeA te)) (ix2 e t) = etypeA te (ix1 e) := by
    rw [← ij_eq_ix2, ← ofFin_eq_ix1]
    exact StableHlo.Predicate.bcast_rows _ _ _ e t
  have hB : broadcastInDim S240000x6 ![0, 1] bcast_S1x6_S240000x6_0_1
      (broadcastInDim S1x6 ![1] bcast_S6_S1x6_1 typeIdsA) (ix2 e t) = typeIdsA (ix1 t) := by
    rw [← ij_eq_ix2, ← ofFin_eq_ix1]
    exact StableHlo.Predicate.bcast_cols _ _ _ e t
  show (IntOp.cmpi .eq
      (broadcastInDim S240000x6 ![0, 1] bcast_S240000x1_S240000x6_0_1
        (broadcastInDim S240000x1 ![0] bcast_S240000_S240000x1_0 (etypeA te)) (ix2 e t))
      (broadcastInDim S240000x6 ![0, 1] bcast_S1x6_S240000x6_0_1
        (broadcastInDim S1x6 ![1] bcast_S6_S1x6_1 typeIdsA) (ix2 e t))).setWidth 32 = _
  rw [hA, hB, etype_apply, tyWord te hok e, typeIds_apply]
  exact onehot_word (tyFn te e) t

/-! ## The running sums and the counts -/

/-- Entry (e, t) of the running sums is the number of edges up to e of type index t. -/
theorem rank_apply (te : TE) (hok : TyOk te) (e : Fin 240000) (t : Fin 6) :
    rankA te (ix2 e t)
      = BitVec.ofNat 32 (Finset.univ.filter fun e' : Fin 240000 => e'.val ≤ e.val ∧ tyFn te e' = t).card := by
  have h := Cert.LibCumsum.cumsum_rows 239999 rfl reduceWindows_S240000x6_S240000x6_w240000s1p239999_0_w1s1p0_0 h_S_
    (onehotA te) (broadcastInDim S_ ![] bcast_S_S_ (cst 0#32)) (fun _ => rfl) e t
  refine h.trans ?_
  rw [Finset.sum_congr rfl (fun e' _ => onehot_apply te hok e' t), Cert.LibCumsum.sum_indicator, Finset.filter_filter]

/-- The count of type index t is the number of edges of that type. -/
theorem counts_apply (te : TE) (hok : TyOk te) (t : Fin 6) : countsA te (ix1 t) = BitVec.ofNat 32 (cnt (tyFn te) t) := by
  have h : countsA te (ix1 t) = rankA te (ix2 (⟨239999, by decide⟩ : Fin 240000) t) :=
    (shapeCast_1a_a_apply _ _ t).trans (slice2_axis0_apply 239999 (rankA te) _ (0 : Fin 1) t ⟨239999, by decide⟩ rfl)
  rw [h, rank_apply te hok]
  refine congrArg (BitVec.ofNat 32) ?_
  unfold cnt
  refine congrArg Finset.card (Finset.filter_congr fun e' _ => ⟨fun h' => h'.2, fun h' => ⟨?_, h'⟩⟩)
  have := e'.isLt
  show e'.val ≤ 239999
  omega

/-! ## The in-range flag and the clamped type index -/

/-- Every edge's type is in range. -/
theorem valid_apply (te : TE) (hok : TyOk te) (e : Fin 240000) : validA te (ix1 e) = 1#1 := by
  show IntOp.andi (IntOp.cmpi .sge (etypeA te (ix1 e)) 1#32) (IntOp.cmpi .sle (etypeA te (ix1 e)) 6#32) = 1#1
  rw [etype_apply, tyWord te hok e]
  exact valid_word (tyFn te e)

/-- The clamped type index of an edge is its type index. -/
theorem tidx_apply (te : TE) (hok : TyOk te) (e : Fin 240000) : tidxA te (ix1 e) = BitVec.ofNat 32 (tyFn te e).val := by
  show IntOp.minsi 5#32 (IntOp.maxsi 0#32 (IntOp.subi (etypeA te (ix1 e)) 1#32)) = _
  rw [etype_apply, tyWord te hok e]
  exact tidx_word (tyFn te e)

end Cert.Chain1

end
-- ==== Proof.Chain1b.lean ====
/-
  Each edge's rank within its type, read off the table of running counts.

  The running-count table has, at (e, t), the number of edges up to e of type index t.  Each edge reads the
  entry in its own type's column: the column index is the edge's type index (in 0 … 5, so it is not negative and
  the "moved up by 6" choice keeps it), laid out as a 240000 × 1 × 1 array; the in-range test 0 ≤ index ≤ 5
  holds everywhere, so its conjunction over the unit axis is one and the choice takes the gathered word; the
  gather pairs operand row e with start-index row e (a batching axis) and takes the column from the index word,
  read signed and clamped into 0 … 5, which is the type index itself.  The entry read is the edge's one-based
  rank among the edges of its type, at least one and at most the number of edges, so taking one off does not wrap.
-/
import proofs.«420624_j70128226009226_3_alg».proof.Proof.KSpec
import proofs.«420624_j70128226009226_3_alg».proof.Proof.Common
import proofs.«420624_j70128226009226_3_alg».proof.Proof.SlotMath
import Idealize.ShloMosaic.Lib.ValueIdx
import Idealize.ShloMosaic.Lib.Pipeline.Value
import Idealize.ShloMosaic.Lib.StableHlo.Predicate

noncomputable section

namespace Cert.Chain1b

open Cert.KSpec Cert.Common Cert.SlotMath Idealize.ShloMosaic Idealize.ShloMosaic.ValueIdx
open Cert.KernelIdeal Cert.KernelIdeal.Facts₀

/-! ## Small words -/

/-- A type index is not negative: the choice between it and itself moved up by 6 keeps it. -/
theorem wrap6_keep : ∀ n : Fin 6, Scalar.select (IntOp.cmpi .slt (BitVec.ofNat 32 n.val) 0#32)
    (IntOp.addi (BitVec.ofNat 32 n.val) 6#32) (BitVec.ofNat 32 n.val) = BitVec.ofNat 32 n.val := by decide

/-- A type index passes the test 0 ≤ index ≤ 5. -/
theorem inrange6 : ∀ n : Fin 6,
    IntOp.andi (IntOp.cmpi .sge (BitVec.ofNat 32 n.val) 0#32) (IntOp.cmpi .sle (BitVec.ofNat 32 n.val) 5#32) = 1#1 := by decide

/-- A type index read signed and clamped into 0 … 5 is itself. -/
theorem clamp6 : ∀ n : Fin 6, min (BitVec.ofNat 32 n.val).toInt.toNat (6 - 1) = n.val := by decide

/-! ## The column index -/

/-- The type index as a column, at (e, 0). -/
theorem tidxCol_apply (te : TE) (htidx : ∀ e : Fin 240000, tidxA te (ix1 e) = BitVec.ofNat 32 (tyFn te e).val)
    (e : Fin 240000) : tidxColA te (ix2 e (0 : Fin 1)) = BitVec.ofNat 32 (tyFn te e).val := by
  unfold tidxColA
  refine (broadcastInDim_apply _ _ (tidxA te) (ix2 e (0 : Fin 1)) (ix1 e) ?_).trans (htidx e)
  show ∀ a : Fin 1, _
  rw [Fin.forall_fin_one]
  show e.val = if (240000 : Nat) = 1 then 0 else e.val
  rw [if_neg (by decide)]

/-- The column index each edge reads, at (e, 0, 0): its type index. -/
theorem takeIdx_apply (te : TE) (htidx : ∀ e : Fin 240000, tidxA te (ix1 e) = BitVec.ofNat 32 (tyFn te e).val)
    (e : Fin 240000) : takeIdxA te (ix3 e (0 : Fin 1) (0 : Fin 1)) = BitVec.ofNat 32 (tyFn te e).val := by
  unfold takeIdxA
  refine (shapeCast_apply _ _ (ix3 e (0 : Fin 1) (0 : Fin 1)) (ix2 e (0 : Fin 1)) ?_).trans ?_
  · rw [Shape.rowMajor_val_two, Shape.rowMajor_val_three]
    show e.val * 1 + 0 = (e.val * 1 + 0) * 1 + 0
    omega
  · show Scalar.select (IntOp.cmpi .slt (tidxColA te (ix2 e (0 : Fin 1))) 0#32)
      (IntOp.addi (tidxColA te (ix2 e (0 : Fin 1))) 6#32) (tidxColA te (ix2 e (0 : Fin 1))) = _
    rw [tidxCol_apply te htidx e]
    exact wrap6_keep _

/-! ## The in-range test -/

/-- A conjunction of ones from one is one. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..)]
    exact ih fun n hn => hf n (List.mem_cons_of_mem _ hn)

/-- A reduction by conjunction of an array of ones, from one, is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x _ fun n _ => hx n

/-- The in-range test holds at every index of the column-index array. -/
theorem inrange_all (te : TE) (htidx : ∀ e : Fin 240000, tidxA te (ix1 e) = BitVec.ofNat 32 (tyFn te e).val)
    (i : S240000x1x1.Idx) :
    andi (cmpi .sge (takeIdxA te) (broadcastInDim S240000x1x1 ![] bcast_S_S240000x1x1 (cst 0#32)))
         (cmpi .sle (takeIdxA te) (broadcastInDim S240000x1x1 ![0, 1, 2] bcast_S1x1x1_S240000x1x1_0_1_2
            (broadcastInDim S1x1x1 ![2] bcast_S1_S1x1x1_2 (constantI S1 32 5#32)))) i = 1#1 := by
  have h1 : i 1 = (0 : Fin 1) := by
    have hlt : (i 1).val < 1 := (i 1).isLt
    exact Fin.ext (show (i 1).val = 0 by omega)
  have h2 : i 2 = (0 : Fin 1) := by
    have hlt : (i 2).val < 1 := (i 2).isLt
    exact Fin.ext (show (i 2).val = 0 by omega)
  have hi : i = ix3 (i 0) (0 : Fin 1) (0 : Fin 1) := by
    have h := eq_ix3 i
    rw [h1, h2] at h
    exact h
  rw [hi]
  show IntOp.andi (IntOp.cmpi .sge (takeIdxA te (ix3 (i 0) (0 : Fin 1) (0 : Fin 1))) 0#32)
    (IntOp.cmpi .sle (takeIdxA te (ix3 (i 0) (0 : Fin 1) (0 : Fin 1))) 5#32) = 1#1
  rw [takeIdx_apply te htidx (i 0)]
  exact inrange6 _

/-- The in-range test's conjunction over the unit axis is one. -/
theorem mask_apply (te : TE) (htidx : ∀ e : Fin 240000, tidxA te (ix1 e) = BitVec.ofNat 32 (tyFn te e).val)
    (j : S240000x1.Idx) :
    Host.reduce IntOp.andi
      (andi (cmpi .sge (takeIdxA te) (broadcastInDim S240000x1x1 ![] bcast_S_S240000x1x1 (cst 0#32)))
            (cmpi .sle (takeIdxA te) (broadcastInDim S240000x1x1 ![0, 1, 2] bcast_S1x1x1_S240000x1x1_0_1_2
              (broadcastInDim S1x1x1 ![2] bcast_S1_S1x1x1_2 (constantI S1 32 5#32)))))
      (constantI S_ 1 1#1) reducesTo_S240000x1x1_S240000x1_d2 h_S_ j = 1#1 :=
  reduce_andi_ones _ _ _ _ (inrange_all te htidx) rfl j

/-! ## The gather: operand row e paired with start-index row e, the column from the index word -/

/-- The start-indices index at which the result index (e, 0) reads the one component of its start index is (e, 0, 0):
    the batch coordinates e and 0, and the component number 0 on the index vector's axis 2. -/
theorem take_siIdx (e : Fin 240000)
    (h : List.idxOf (1 : Fin 2) gather_S240000x6_S240000x1x1_S240000x1_n_1_0_0_1_2_11.startIndexMap
      < gather_S240000x6_S240000x1x1_S240000x1_n_1_0_0_1_2_11.startIndexMap.length) :
    gather_S240000x6_S240000x1x1_S240000x1_n_1_0_0_1_2_11.siIdx (ix2 e (0 : Fin 1))
      ⟨List.idxOf (1 : Fin 2) gather_S240000x6_S240000x1x1_S240000x1_n_1_0_0_1_2_11.startIndexMap, h⟩
      = ix3 e (0 : Fin 1) (0 : Fin 1) := by
  funext b
  refine Fin.ext ?_
  match b with
  | ⟨0, _⟩ => rfl
  | ⟨1, _⟩ => rfl
  | ⟨2, _⟩ => rfl

/-- On operand axis 0, a batching axis paired with start-indices axis 0, the operand index for (e, 0) is e: the start
    is 0 (the axis is not in the start index map) and so is the offset (a batching axis is not kept). -/
theorem take_coord0 {w : Nat} (idx : IVec S240000x1x1 w) (e : Fin 240000) :
    gather_S240000x6_S240000x1x1_S240000x1_n_1_0_0_1_2_11.start (ix2 e (0 : Fin 1)) idx 0
      + gather_S240000x6_S240000x1x1_S240000x1_n_1_0_0_1_2_11.batchCoord (ix2 e (0 : Fin 1)) 0
      + gather_S240000x6_S240000x1x1_S240000x1_n_1_0_0_1_2_11.offCoord (ix2 e (0 : Fin 1)) 0 = e.val := by
  rw [GatherDims.start_batching _ _ _ _ (List.mem_singleton.mpr rfl),
    GatherDims.offCoord_eq_zero _ _ _ (fun h => ((GatherDims.mem_sKept _ _).mp h).2 (List.mem_singleton.mpr rfl))]
  simp only [Nat.add_zero, Nat.zero_add]
  unfold GatherDims.batchCoord
  rw [dif_pos (show (0 : Fin 2) ∈ gather_S240000x6_S240000x1x1_S240000x1_n_1_0_0_1_2_11.operandBatchingDims from
    List.mem_singleton.mpr rfl)]
  rfl

/-- On operand axis 1, the axis the start index names, the operand index for (e, 0) is the index word at (e, 0, 0)
    read signed and clamped to 6 − 1: the axis is no batching axis, and it is collapsed. -/
theorem take_coord1 {w : Nat} (idx : IVec S240000x1x1 w) (e : Fin 240000) :
    gather_S240000x6_S240000x1x1_S240000x1_n_1_0_0_1_2_11.start (ix2 e (0 : Fin 1)) idx 1
      + gather_S240000x6_S240000x1x1_S240000x1_n_1_0_0_1_2_11.batchCoord (ix2 e (0 : Fin 1)) 1
      + gather_S240000x6_S240000x1x1_S240000x1_n_1_0_0_1_2_11.offCoord (ix2 e (0 : Fin 1)) 1
      = min (idx (ix3 e (0 : Fin 1) (0 : Fin 1))).toInt.toNat (6 - 1) := by
  rw [GatherDims.batchCoord_eq_zero _ _ _ (by decide : (1 : Fin 2) ∉ ([0] : List (Fin 2))),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ gather_S240000x6_S240000x1x1_S240000x1_n_1_0_0_1_2_11.startIndexMap from
    List.mem_singleton.mpr rfl)]
  rw [take_siIdx e]
  rfl

/-- THE GATHER READ AT (e, 0): the operand at row e and the column the index word at (e, 0, 0) names, read signed and
    clamped into 0 … 5. -/
theorem take_gather_apply {α : Type} {w : Nat} (x : S240000x6.Idx → α) (idx : IVec S240000x1x1 w) (e : Fin 240000) :
    Host.gather gather_S240000x6_S240000x1x1_S240000x1_n_1_0_0_1_2_11 x idx (ix2 e (0 : Fin 1))
      = x (ix2 e (⟨min (idx (ix3 e (0 : Fin 1) (0 : Fin 1))).toInt.toNat (6 - 1), by omega⟩ : Fin 6)) := by
  unfold Host.gather
  congr 1
  funext a
  refine Fin.ext ?_
  match a with
  | ⟨0, _⟩ => exact take_coord0 idx e
  | ⟨1, _⟩ => exact take_coord1 idx e

/-! ## The rank -/

/-- Each edge's entry of the running counts in its own type's column, at (e, 0): its one-based rank in its type. -/
theorem taken_apply (te : TE)
    (hrank : ∀ (e : Fin 240000) (t : Fin 6), rankA te (ix2 e t)
      = BitVec.ofNat 32 (Finset.univ.filter fun e' : Fin 240000 => e'.val ≤ e.val ∧ tyFn te e' = t).card)
    (htidx : ∀ e : Fin 240000, tidxA te (ix1 e) = BitVec.ofNat 32 (tyFn te e).val)
    (e : Fin 240000) : takenA te (ix2 e (0 : Fin 1)) = BitVec.ofNat 32 (rk (tyFn te) e) := by
  unfold takenA
  rw [select_apply, mask_apply te htidx, select_one, take_gather_apply]
  have hc : (⟨min (takeIdxA te (ix3 e (0 : Fin 1) (0 : Fin 1))).toInt.toNat (6 - 1), by omega⟩ : Fin 6) = tyFn te e :=
    Fin.ext (by show min (takeIdxA te (ix3 e (0 : Fin 1) (0 : Fin 1))).toInt.toNat (6 - 1) = _
                rw [takeIdx_apply te htidx e]; exact clamp6 _)
  rw [hc, hrank e (tyFn te e)]
  rfl

/-- Each edge's rank among the edges of its type, from 0. -/
theorem local_apply (te : TE)
    (hrank : ∀ (e : Fin 240000) (t : Fin 6), rankA te (ix2 e t) = BitVec.ofNat 32 (Finset.univ.filter fun e' : Fin 240000 => e'.val ≤ e.val ∧ tyFn te e' = t).card)
    (htidx : ∀ e : Fin 240000, tidxA te (ix1 e) = BitVec.ofNat 32 (tyFn te e).val)
    (e : Fin 240000) : localA te (ix1 e) = BitVec.ofNat 32 (rk (tyFn te) e - 1) := by
  unfold localA
  show IntOp.subi (shapeCast S240000 (takenA te) shapeCasts_S240000x1_S240000 (ix1 e)) 1#32 = _
  rw [shapeCast_apply (takenA te) shapeCasts_S240000x1_S240000 (ix1 e) (ix2 e (0 : Fin 1))
    (by rw [Shape.rowMajor_val_two, Shape.rowMajor_val_one]; show e.val * 1 + 0 = e.val; omega)]
  rw [taken_apply te hrank htidx e]
  have h1 := rk_pos (tyFn te) e
  have h2 := (rk_le_cnt (tyFn te) e).trans (cnt_le (tyFn te) _)
  exact StableHlo.Predicate.sub_one_ofNat _ h1 (by omega)

end Cert.Chain1b

end
-- ==== Proof.Chain2.lean ====
import proofs.«420624_j70128226009226_3_alg».proof.Proof.KSpec
import proofs.«420624_j70128226009226_3_alg».proof.Proof.Common
import proofs.«420624_j70128226009226_3_alg».proof.Proof.SlotMath
import proofs.«420624_j70128226009226_3_alg».proof.Proof.LibCumsum
import Idealize.ShloMosaic.Lib.ValueIdx
import Idealize.ShloMosaic.Lib.Pipeline.Value
import Idealize.ShloMosaic.Lib.StableHlo.Predicate
import Idealize.ShloMosaic.Lib.WordArith

/-!
# The middle stages of the integer chain, read at an index

Given the per-type counts, this file reads one entry of: the counts rounded up to whole tiles
of 8192 slots, their running sums (where each type's run of slots ends), the run starts (a
zero in front of the first five ends), each edge's slot (its type's start plus its rank), and
the type each tile serves (the number of runs ending at or below the tile's first slot, at
most 5).  Every word in play is a small natural number, so no operation wraps and each entry
is the word of the corresponding natural number of the slot counting.
-/

noncomputable section

namespace Cert.Chain2

open Cert.KSpec Cert.Common Cert.SlotMath Idealize.ShloMosaic Idealize.ShloMosaic.ValueIdx
open Cert.KernelIdeal Cert.KernelIdeal.Facts₀
open Idealize.ShloMosaic.StableHlo

/-! ## Words -/

/-- The word of a small natural number reads back as that number. -/
theorem toNat_ofNat_lt (n : Nat) (h : n < 2 ^ 32) : (BitVec.ofNat 32 n).toNat = n := by
  rw [BitVec.toNat_ofNat]; exact Nat.mod_eq_of_lt h

/-- The sign word of a small positive word is one. -/
theorem sign_word_pos (w : BitVec 32) (h0 : 0 < w.toNat) (h1 : w.toNat < 2 ^ 31) :
    (if w = 0 then (0 : BitVec 32) else if w.msb then -1 else 1) = 1 := by
  have hne : w ≠ 0 := by
    intro h; rw [h] at h0; simp at h0
  have hm : w.msb = false := BitVec.msb_eq_false_iff_two_mul_lt.mpr (by omega)
  rw [if_neg hne, hm]; rfl

/-- Signed division of a small word by a small positive word is the quotient of the numbers,
on any unit: no corner is met. -/
theorem divsi_small (u : ArithUnit) (w d : BitVec 32) (hw : w.toNat < 2 ^ 31) (hd0 : 0 < d.toNat)
    (hd : d.toNat < 2 ^ 31) : (IntOp.divsi u w d).toNat = w.toNat / d.toNat := by
  have hcorner : ¬ IntOp.SDivCorner w d := by
    intro hc
    rcases hc with hc | ⟨_, hc⟩
    · rw [hc] at hd0; simp at hd0
    · rw [hc] at hd; simp at hd
  have hm : w.msb = false := BitVec.msb_eq_false_iff_two_mul_lt.mpr (by omega)
  have hdm : d.msb = false := BitVec.msb_eq_false_iff_two_mul_lt.mpr (by omega)
  simp only [IntOp.divsi, if_neg hcorner, BitVec.sdiv_eq, hm, hdm, BitVec.udiv_eq, BitVec.toNat_udiv]

/-- The rounding of a count up to whole tiles, as the program computes it (quotient, signs,
remainder, select): with the count `c` at most 240000, the
word `c + 8192 - 1` is small and positive, so has the sign of 8192; the select takes the plain
quotient, and the product with 8192 does not wrap. -/
theorem tiles_word (c : Nat) (hc : c ≤ 240000) :
    IntOp.muli
      (Scalar.select
        (IntOp.andi
          (IntOp.cmpi .ne
            (if IntOp.subi (IntOp.addi (BitVec.ofNat 32 c) 8192#32) 1#32 = 0 then (0 : BitVec 32)
              else if (IntOp.subi (IntOp.addi (BitVec.ofNat 32 c) 8192#32) 1#32).msb then -1 else 1)
            (if (8192#32 : BitVec 32) = 0 then (0 : BitVec 32) else if (8192#32 : BitVec 32).msb then -1 else 1))
          (IntOp.cmpi .ne (IntOp.remsi .host (IntOp.subi (IntOp.addi (BitVec.ofNat 32 c) 8192#32) 1#32) 8192#32) 0#32))
        (IntOp.subi (IntOp.divsi .host (IntOp.subi (IntOp.addi (BitVec.ofNat 32 c) 8192#32) 1#32) 8192#32) 1#32)
        (IntOp.divsi .host (IntOp.subi (IntOp.addi (BitVec.ofNat 32 c) 8192#32) 1#32) 8192#32))
      8192#32
      = BitVec.ofNat 32 ((c + 8191) / 8192 * 8192) := by
  have hcu : IntOp.subi (IntOp.addi (BitVec.ofNat 32 c) 8192#32) 1#32 = BitVec.ofNat 32 (c + 8191) := by
    apply BitVec.eq_of_toNat_eq
    simp only [IntOp.subi, IntOp.addi, BitVec.toNat_sub, BitVec.toNat_add, BitVec.toNat_ofNat]
    omega
  rw [hcu]
  have hn : (BitVec.ofNat 32 (c + 8191)).toNat = c + 8191 := toNat_ofNat_lt _ (by omega)
  have hs1 : (if BitVec.ofNat 32 (c + 8191) = 0 then (0 : BitVec 32)
      else if (BitVec.ofNat 32 (c + 8191)).msb then -1 else 1) = 1 :=
    sign_word_pos _ (by omega) (by omega)
  have hs2 : (if (8192#32 : BitVec 32) = 0 then (0 : BitVec 32)
      else if (8192#32 : BitVec 32).msb then -1 else 1) = 1 := by decide
  rw [hs1, hs2]
  have hne : IntOp.cmpi .ne (1 : BitVec 32) 1 = 0#1 := by decide
  rw [hne]
  have hand : ∀ b : BitVec 1, IntOp.andi 0#1 b = 0#1 := by decide
  rw [hand, select_zero]
  have hq : (IntOp.divsi .host (BitVec.ofNat 32 (c + 8191)) 8192#32).toNat = (c + 8191) / 8192 := by
    rw [divsi_small .host _ _ (by omega) (by decide) (by decide), hn]; rfl
  apply BitVec.eq_of_toNat_eq
  simp only [IntOp.muli, BitVec.toNat_mul, hq, BitVec.toNat_ofNat]

/-! ## The counts rounded up to whole tiles -/

theorem pcounts_apply (te : TE)
    (hcounts : ∀ t : Fin 6, countsA te (ix1 t) = BitVec.ofNat 32 (cnt (tyFn te) t)) (t : Fin 6) :
    pcountsA te (ix1 t) = BitVec.ofNat 32 (pc (tyFn te) t) := by
  have hc : cnt (tyFn te) t ≤ 240000 := cnt_le (tyFn te) t
  have h := tiles_word (cnt (tyFn te) t) hc
  rw [← hcounts t] at h
  exact h

/-! ## Where each type's run ends -/

/-- The words of natural numbers add up to the word of the sum. -/
theorem sum_ofNat {ι : Type} (S : Finset ι) (f : ι → Nat) :
    ∑ i ∈ S, BitVec.ofNat 32 (f i) = BitVec.ofNat 32 (∑ i ∈ S, f i) := by
  induction S using Finset.cons_induction with
  | empty => rfl
  | cons a S ha ih => rw [Finset.sum_cons, Finset.sum_cons, ih, BitVec.ofNat_add]

theorem bounds_apply (te : TE)
    (hcounts : ∀ t : Fin 6, countsA te (ix1 t) = BitVec.ofNat 32 (cnt (tyFn te) t)) (t : Fin 6) :
    boundsA te (ix1 t) = BitVec.ofNat 32 (bd (tyFn te) t) := by
  unfold boundsA
  refine (Cert.LibCumsum.cumsum_vec 5 rfl reduceWindows_S6_S6_w6s1p5_0 h_S_ (pcountsA te) _
    (fun _ => rfl) t).trans ?_
  rw [Finset.sum_congr rfl (fun t' _ => pcounts_apply te hcounts t'), sum_ofNat]
  rfl

/-- Every run end is small. -/
theorem bd_lt (te : TE) (t : Fin 6) : bd (tyFn te) t < 294912 := by
  have := bd_le_total (tyFn te) t
  omega

/-! ## Where each type's run starts -/

/-- The first run starts at zero. -/
theorem gs_zero {E : Nat} (ty : Fin E → Fin 6) (t : Fin 6) (h : t.val = 0) : gs ty t = 0 := by
  unfold gs
  refine Finset.sum_eq_zero ?_
  intro x hx
  simp only [Finset.mem_filter, Finset.mem_univ, true_and] at hx
  omega

/-- A later run starts where the run before it ends. -/
theorem gs_succ {E : Nat} (ty : Fin E → Fin 6) (t s : Fin 6) (h : s.val + 1 = t.val) :
    gs ty t = bd ty s := by
  unfold gs bd
  refine Finset.sum_congr ?_ (fun _ _ => rfl)
  ext x
  simp only [Finset.mem_filter, Finset.mem_univ, true_and]
  omega

theorem gstart_apply (te : TE)
    (hcounts : ∀ t : Fin 6, countsA te (ix1 t) = BitVec.ofNat 32 (cnt (tyFn te) t)) (t : Fin 6) :
    gstartA te (ix1 t) = BitVec.ofNat 32 (gs (tyFn te) t) := by
  unfold gstartA
  by_cases h0 : t.val = 0
  · -- the zero in front
    rw [gs_zero (tyFn te) t h0]
    refine (concatenate_pair_apply_left (t := S6) (s₁ := S1) (s₂ := S5) 0 _ _ concatenates_S1_S5_S6_d0
      (ix1 t) rfl (ix1 (0 : Fin 1)) ?_).trans rfl
    intro b
    obtain rfl : b = 0 := Subsingleton.elim _ _
    show (0 : Nat) = t.val
    omega
  · -- one of the first five run ends
    have hs : t.val - 1 < 5 := by omega
    have hs6 : t.val - 1 < 6 := by omega
    rw [gs_succ (tyFn te) t ⟨t.val - 1, hs6⟩ (by show t.val - 1 + 1 = t.val; omega),
      ← bounds_apply te hcounts ⟨t.val - 1, hs6⟩]
    refine (concatenate_pair_apply_right (t := S6) (s₁ := S1) (s₂ := S5) 0 _ _ concatenates_S1_S5_S6_d0
      (ix1 t) rfl rfl (ix1 (⟨t.val - 1, hs⟩ : Fin 5)) ?_ ?_).trans ?_
    · intro b hb
      obtain rfl : b = 0 := Subsingleton.elim _ _
      exact absurd rfl hb
    · show t.val - 1 + 1 = t.val
      omega
    · refine extractStridedSlice_apply _ _ slices_S6_S5_0 _ (ix1 (⟨t.val - 1, hs6⟩ : Fin 6)) ?_
      intro a
      obtain rfl : a = 0 := Subsingleton.elim _ _
      show t.val - 1 = 0 + (t.val - 1)
      omega

/-! ## Each edge's slot -/

/-- Every slot lies inside the slot tables. -/
theorem slot_lt_P (te : TE) (e : Fin 240000) : slot (tyFn te) e < 294912 := by
  have := slot_lt (tyFn te) e
  omega

/-- A rank-1 index by its coordinate, in the two spellings. -/
theorem ofFin_eq_ix1 {n : Nat} (k : Fin n) : Shape.Idx.ofFin k = ix1 k := by
  funext a
  match a with
  | ⟨0, _⟩ => exact Fin.ext rfl

/-- The word of a type index, moved up by 6 were it negative, read signed and clamped into
0 … 5, is the type index. -/
theorem take_index_word (k : Fin 6) :
    min (Scalar.select (IntOp.cmpi .slt (BitVec.ofNat 32 k.val) 0#32)
      (IntOp.addi (BitVec.ofNat 32 k.val) 6#32) (BitVec.ofNat 32 k.val)).toInt.toNat (6 - 1) = k.val := by
  revert k
  decide

/-- The take from the run starts at a column of indices whose entry for edge `e` names the
type index `k` reads the start of the run of `k`. -/
theorem gather_gstart (te : TE)
    (hcounts : ∀ t : Fin 6, countsA te (ix1 t) = BitVec.ofNat 32 (cnt (tyFn te) t))
    (idx : IVec S240000x1 32) (e : Fin 240000) (k : Fin 6)
    (hk : min (idx (Predicate.ixP e)).toInt.toNat (6 - 1) = k.val) :
    Host.gather gather_S6_S240000x1_S240000_n_0_n_n_0_1_1 (gstartA te) idx (ix1 e)
      = BitVec.ofNat 32 (gs (tyFn te) k) := by
  have e1 : Host.gather gather_S6_S240000x1_S240000_n_0_n_n_0_1_1 (gstartA te) idx (ix1 e)
      = Host.gather gather_S6_S240000x1_S240000_n_0_n_n_0_1_1 (gstartA te) idx (Shape.Idx.ofFin e) := by
    rw [ofFin_eq_ix1]
  rw [e1, Predicate.gather_take gather_S6_S240000x1_S240000_n_0_n_n_0_1_1 rfl rfl rfl rfl (gstartA te) idx e
    (by decide), ofFin_eq_ix1]
  have hfin : (⟨min (idx (Predicate.ixP e)).toInt.toNat (6 - 1), by omega⟩ : Fin 6) = k := Fin.ext hk
  rw [hfin]
  exact gstart_apply te hcounts k

theorem pos_apply (te : TE)
    (hcounts : ∀ t : Fin 6, countsA te (ix1 t) = BitVec.ofNat 32 (cnt (tyFn te) t))
    (htidx : ∀ e : Fin 240000, tidxA te (ix1 e) = BitVec.ofNat 32 (tyFn te e).val)
    (hlocal : ∀ e : Fin 240000, localA te (ix1 e) = BitVec.ofNat 32 (rk (tyFn te) e - 1))
    (e : Fin 240000) :
    posA te (ix1 e) = BitVec.ofNat 32 (slot (tyFn te) e) := by
  have hidx : (broadcastInDim S240000x1 ![0] bcast_S240000_S240000x1_0
        (select (cmpi .slt (tidxA te) (broadcastInDim S240000 ![] bcast_S_S240000 (cst 0#32)))
          (addi (tidxA te) (broadcastInDim S240000 ![] bcast_S_S240000 (cst 6#32))) (tidxA te)))
        (Predicate.ixP e)
      = Scalar.select (IntOp.cmpi .slt (BitVec.ofNat 32 (tyFn te e).val) 0#32)
          (IntOp.addi (BitVec.ofNat 32 (tyFn te e).val) 6#32) (BitVec.ofNat 32 (tyFn te e).val) := by
    rw [Predicate.bcast_col1, ofFin_eq_ix1, ← htidx e]
    rfl
  unfold posA
  show IntOp.addi (Host.gather gather_S6_S240000x1_S240000_n_0_n_n_0_1_1 (gstartA te) _ (ix1 e))
    (localA te (ix1 e)) = _
  rw [gather_gstart te hcounts _ e (tyFn te e) (by rw [hidx]; exact take_index_word _), hlocal e]
  unfold slot
  show BitVec.ofNat 32 _ + BitVec.ofNat 32 _ = _
  rw [← BitVec.ofNat_add]

/-! ## The type each tile serves -/

/-- The 36 × 6 table of comparisons of the tile starts with the run ends. -/
def tgMask (te : TE) : IVec S36x6 1 :=
  cmpi .sge
    (broadcastInDim S36x6 ![0, 1] bcast_S36x1_S36x6_0_1 (broadcastInDim S36x1 ![0] bcast_S36_S36x1_0
      (muli (iotaInDim S36 32 0) (broadcastInDim S36 ![] bcast_S_S36 (cst 8192#32)))))
    (broadcastInDim S36x6 ![0, 1] bcast_S1x6_S36x6_0_1 (broadcastInDim S1x6 ![1] bcast_S6_S1x6_1 (boundsA te)))

/-- Entry (i, q) of the table is set exactly when run `q` ends at or below the start of
tile `i`: both words are small, so the signed comparison is that of the numbers. -/
theorem tgMask_iff (te : TE)
    (hcounts : ∀ t : Fin 6, countsA te (ix1 t) = BitVec.ofNat 32 (cnt (tyFn te) t))
    (i : Fin 36) (q : Fin 6) :
    tgMask te (Predicate.ij i q) = 1#1 ↔ bd (tyFn te) q ≤ i.val * 8192 := by
  show IntOp.cmpi .sge
      (broadcastInDim S36x6 ![0, 1] bcast_S36x1_S36x6_0_1 (broadcastInDim S36x1 ![0] bcast_S36_S36x1_0
        (muli (iotaInDim S36 32 0) (broadcastInDim S36 ![] bcast_S_S36 (cst 8192#32)))) (Predicate.ij i q))
      (broadcastInDim S36x6 ![0, 1] bcast_S1x6_S36x6_0_1 (broadcastInDim S1x6 ![1] bcast_S6_S1x6_1 (boundsA te))
        (Predicate.ij i q)) = 1#1 ↔ _
  rw [Predicate.bcast_rows bcast_S36_S36x1_0 bcast_S36x1_S36x6_0_1 _ i q,
    Predicate.bcast_cols bcast_S6_S1x6_1 bcast_S1x6_S36x6_0_1 _ i q, ofFin_eq_ix1, ofFin_eq_ix1,
    bounds_apply te hcounts q]
  show IntOp.cmpi .sge (IntOp.muli (BitVec.ofNat 32 i.val) 8192#32) (BitVec.ofNat 32 (bd (tyFn te) q)) = 1#1 ↔ _
  have hb := bd_lt te q
  have hi := i.isLt
  have h1 : (IntOp.muli (BitVec.ofNat 32 i.val) 8192#32).toNat = i.val * 8192 := by
    simp only [IntOp.muli, BitVec.toNat_mul, BitVec.toNat_ofNat]
    omega
  have h2 : (BitVec.ofNat 32 (bd (tyFn te) q)).toNat = bd (tyFn te) q := toNat_ofNat_lt _ (by omega)
  rw [Predicate.sge_iff_toNat (by omega) (by omega), h1, h2]

theorem tg_apply (te : TE)
    (hcounts : ∀ t : Fin 6, countsA te (ix1 t) = BitVec.ofNat 32 (cnt (tyFn te) t)) (i : Fin 36) :
    tgA te (ix1 i)
      = BitVec.ofNat 32 (min (Finset.univ.filter fun t : Fin 6 => bd (tyFn te) t ≤ i.val * 8192).card 5) := by
  have hr : (Host.reduce IntOp.addi (extui 32 (tgMask te) natLt_1_32) (cst 0#32) reducesTo_S36x6_S36_d1 h_S_
      (ix1 i)).toNat = (Finset.univ.filter fun t : Fin 6 => bd (tyFn te) t ≤ i.val * 8192).card :=
    (Predicate.toNat_reduce_count_cols (by decide) (tgMask te) natLt_1_32 reducesTo_S36x6_S36_d1 h_S_
      (ix1 i)).trans (by
        congr 1
        exact Finset.filter_congr (fun q _ => tgMask_iff te hcounts i q))
  have hN : (Finset.univ.filter fun t : Fin 6 => bd (tyFn te) t ≤ i.val * 8192).card ≤ 6 :=
    (Finset.card_le_univ _).trans (by simp)
  have h5 : (5#32 : BitVec 32).toNat = 5 := rfl
  show IntOp.minsi (Host.reduce IntOp.addi (extui 32 (tgMask te) natLt_1_32) (cst 0#32)
    reducesTo_S36x6_S36_d1 h_S_ (ix1 i)) 5#32 = _
  apply BitVec.eq_of_toNat_eq
  rw [WordArith.toNat_minsi_of_lt _ _ (by rw [hr]; omega) (by decide), hr, h5, toNat_ofNat_lt _ (by omega)]

/-- The tile holding an edge's slot serves the edge's type. -/
theorem tg_hit (te : TE)
    (hcounts : ∀ t : Fin 6, countsA te (ix1 t) = BitVec.ofNat 32 (cnt (tyFn te) t)) (e : Fin 240000) :
    tgA te (ix1 (tileOf ⟨slot (tyFn te) e, slot_lt_P te e⟩)) = BitVec.ofNat 32 (tyFn te e).val := by
  rw [tg_apply te hcounts]
  show BitVec.ofNat 32 (min (Finset.univ.filter fun t : Fin 6 =>
    bd (tyFn te) t ≤ slot (tyFn te) e / 8192 * 8192).card 5) = _
  rw [tile_group (tyFn te) e]
  have := (tyFn te e).isLt
  rw [Nat.min_eq_left (by omega)]

end Cert.Chain2

end
-- ==== Proof.LibScatterSet.lean ====
/-
  A SCATTER WHOSE BODY RETURNS THE UPDATE, READ AT AN INDEX. The host scatter is the left fold, over the update numbers
  in row-major order, of the step "update `n` replaces the element at its result index when that index is inside the
  operand, and is dropped when it is not". With the body `fun _ b => b` the step overwrites, so the fold read at an
  index `q` is the update of the LAST number in the list that lands on `q`, and the operand's element when none does.
  Two consequences for any list of update numbers: when no listed update lands on `q` the fold leaves `q` alone, and
  when every listed update that lands on `q` is one and the same number `n0` (and `n0` is listed) the fold holds
  update `n0` at `q`. For a vector operand `[N]` with one index word per update (scatter indices `[E, 1]`, updates
  `[E]`: `x.at[idx].set(u)`) update `e` lands on `p` exactly when its index word, read signed, is `p`; so at a `p`
  no index word names the scatter returns `x p`, and when the index words that name some in-range position are
  pairwise distinct it returns `u e` at the position update `e` names.
-/
import Idealize.ShloMosaic.PureOps
import Idealize.ShloMosaic.Lib.ValueIdx
import proofs.«420624_j70128226009226_3_alg».proof.Proof.LibScatterSum

open Idealize.ShloMosaic Idealize.ShloMosaic.ValueIdx

namespace Cert.LibScatterSet

section Fold
variable {α : Type} {s si u : Shape} {w : Nat}
  (d : ScatterDims s si u) (idx : IVec si w) (upd : u.Idx → α)

/-- One step of the scatter whose body returns the update: update number `n` (row-major) replaces the element at
    its result index when that is inside the operand, and is dropped when it is not. -/
def setStep (r : s.Idx → α) (n : Fin u.numel) : s.Idx → α :=
  match d.resultIdx? (u.rowMajor.symm n) idx with
  | some i => fun i' => if i' = i then upd (u.rowMajor.symm n) else r i'
  | none => r

/-- The scatter is the left fold of that step over all update numbers in order. -/
theorem scatter_eq_foldl (x : s.Idx → α) :
    Host.scatter d (fun _ b => b) x idx upd = (List.finRange u.numel).foldl (setStep d idx upd) x := rfl

/-- A step whose update does not land on `q` leaves `q` alone. -/
theorem setStep_of_ne (r : s.Idx → α) (n : Fin u.numel) (q : s.Idx)
    (hq : d.resultIdx? (u.rowMajor.symm n) idx ≠ some q) : setStep d idx upd r n q = r q := by
  unfold setStep
  generalize d.resultIdx? (u.rowMajor.symm n) idx = o at hq ⊢
  cases o with
  | none => rfl
  | some i =>
    have hne : q ≠ i := fun e => hq (by rw [e])
    exact if_neg hne

/-- A step whose update lands on `q` puts the update there. -/
theorem setStep_of_eq (r : s.Idx → α) (n : Fin u.numel) (q : s.Idx)
    (hq : d.resultIdx? (u.rowMajor.symm n) idx = some q) : setStep d idx upd r n q = upd (u.rowMajor.symm n) := by
  unfold setStep
  rw [hq]
  exact if_pos rfl

/-- When no listed update lands on `q`, the fold leaves `q` alone. -/
theorem foldl_miss (L : List (Fin u.numel)) (r : s.Idx → α) (q : s.Idx)
    (hL : ∀ n ∈ L, d.resultIdx? (u.rowMajor.symm n) idx ≠ some q) :
    L.foldl (setStep d idx upd) r q = r q := by
  induction L generalizing r with
  | nil => rfl
  | cons n L ih =>
    rw [List.foldl_cons, ih _ (fun m hm => hL m (List.mem_cons_of_mem _ hm)),
      setStep_of_ne d idx upd r n q (hL n (List.mem_cons_self ..))]

/-- When `n0` is listed and lands on `q`, and every listed update landing on `q` is `n0`, the fold holds update
    `n0` at `q`: after the last occurrence of `n0` nothing lands on `q` any more. -/
theorem foldl_hit (L : List (Fin u.numel)) (r : s.Idx → α) (q : s.Idx) (n0 : Fin u.numel)
    (hmem : n0 ∈ L) (h0 : d.resultIdx? (u.rowMajor.symm n0) idx = some q)
    (huniq : ∀ n ∈ L, d.resultIdx? (u.rowMajor.symm n) idx = some q → n = n0) :
    L.foldl (setStep d idx upd) r q = upd (u.rowMajor.symm n0) := by
  induction L generalizing r with
  | nil => exact absurd hmem (List.not_mem_nil)
  | cons n L ih =>
    rw [List.foldl_cons]
    have huniq' : ∀ m ∈ L, d.resultIdx? (u.rowMajor.symm m) idx = some q → m = n0 :=
      fun m hm => huniq m (List.mem_cons_of_mem _ hm)
    by_cases hL : n0 ∈ L
    · exact ih _ hL huniq'
    · have hn : n = n0 := by
        rcases List.mem_cons.1 hmem with e | e
        · exact e.symm
        · exact absurd e hL
      rw [hn, foldl_miss d idx upd L _ q (fun m hm e => hL (huniq' m hm e ▸ hm)),
        setStep_of_eq d idx upd r n0 q h0]
end Fold

section Vec
variable {α : Type} {N E w : Nat}

/-- `x.at[idx].set(u)` into a vector, read at a position `p` that no index word names (read signed): no update
    lands on `p`, so the scatter returns the operand's element. No distinctness is needed. -/
theorem set_vec_miss
    (h : ScatterDims.WF (⟨1, ![N]⟩ : Shape) (⟨2, ![E, 1]⟩ : Shape) (⟨1, ![E]⟩ : Shape) [] [0] [0] 1)
    (x : (⟨1, ![N]⟩ : Shape).Idx → α) (idx : IVec (⟨2, ![E, 1]⟩ : Shape) w) (upd : (⟨1, ![E]⟩ : Shape).Idx → α)
    (p : Fin N) (hp : ∀ e : Fin E, (idx (ix2 e (0 : Fin 1))).toInt ≠ (p.val : ℤ)) :
    Host.scatter (⟨[], [0], [0], 1, h⟩ : ScatterDims (⟨1, ![N]⟩ : Shape) (⟨2, ![E, 1]⟩ : Shape) (⟨1, ![E]⟩ : Shape))
      (fun _ b => b) x idx upd (ix1 p) = x (ix1 p) := by
  rw [scatter_eq_foldl]
  refine foldl_miss _ idx upd _ x (ix1 p) ?_
  intro n _ hn
  exact hp _ ((Cert.LibScatterSum.vec_resultIdx_iff h _ idx p).1 hn)

/-- `x.at[idx].set(u)` into a vector, read at the position `p` that update `e`'s index word names, when two updates
    whose index words name the same in-range position are the same update: update `e` is the only one landing on
    `p`, so the scatter returns `u e` there. -/
theorem set_vec_hit
    (h : ScatterDims.WF (⟨1, ![N]⟩ : Shape) (⟨2, ![E, 1]⟩ : Shape) (⟨1, ![E]⟩ : Shape) [] [0] [0] 1)
    (x : (⟨1, ![N]⟩ : Shape).Idx → α) (idx : IVec (⟨2, ![E, 1]⟩ : Shape) w) (upd : (⟨1, ![E]⟩ : Shape).Idx → α)
    (hinj : ∀ e e' : Fin E, ∀ p : Fin N, (idx (ix2 e (0 : Fin 1))).toInt = (p.val : ℤ) →
      (idx (ix2 e' (0 : Fin 1))).toInt = (p.val : ℤ) → e = e')
    (e : Fin E) (p : Fin N) (hp : (idx (ix2 e (0 : Fin 1))).toInt = (p.val : ℤ)) :
    Host.scatter (⟨[], [0], [0], 1, h⟩ : ScatterDims (⟨1, ![N]⟩ : Shape) (⟨2, ![E, 1]⟩ : Shape) (⟨1, ![E]⟩ : Shape))
      (fun _ b => b) x idx upd (ix1 p) = upd (ix1 e) := by
  rw [scatter_eq_foldl]
  have key := foldl_hit (Cert.LibScatterSum.vecDims h) idx upd (List.finRange _) x (ix1 p)
    ((⟨1, ![E]⟩ : Shape).rowMajor (ix1 e)) (List.mem_finRange _)
    (by rw [Equiv.symm_apply_apply]; exact (Cert.LibScatterSum.vec_resultIdx_iff h (ix1 e) idx p).2 hp)
    (by
      intro n _ hn
      have hn' := (Cert.LibScatterSum.vec_resultIdx_iff h _ idx p).1 hn
      have he : ((⟨1, ![E]⟩ : Shape).rowMajor.symm n) 0 = e := hinj _ _ p hn' hp
      exact (Equiv.symm_apply_eq _).1 ((eq_ix1 _).trans (congrArg ix1 he)))
  rw [Equiv.symm_apply_apply] at key
  exact key
end Vec

/-- The lemma's left side is the scatter of the literal record at the literal sizes. -/
example (hwf : ScatterDims.WF (⟨1, ![294912]⟩ : Shape) (⟨2, ![240000, 1]⟩ : Shape) (⟨1, ![240000]⟩ : Shape) [] [0] [0] 1)
    (x : (⟨1, ![294912]⟩ : Shape).Idx → ℕ) (i : IVec (⟨2, ![240000, 1]⟩ : Shape) 32) (u : (⟨1, ![240000]⟩ : Shape).Idx → ℕ)
    (p : Fin 294912) (hp : ∀ e : Fin 240000, (i (ix2 e (0 : Fin 1))).toInt ≠ (p.val : ℤ)) :
    Host.scatter (⟨[], [0], [0], 1, hwf⟩ : ScatterDims ⟨1, ![294912]⟩ ⟨2, ![240000, 1]⟩ ⟨1, ![240000]⟩) (fun _ b => b) x i u (ix1 p)
      = x (ix1 p) :=
  set_vec_miss hwf x i u p hp

example (hwf : ScatterDims.WF (⟨1, ![294912]⟩ : Shape) (⟨2, ![240000, 1]⟩ : Shape) (⟨1, ![240000]⟩ : Shape) [] [0] [0] 1)
    (x : (⟨1, ![294912]⟩ : Shape).Idx → ℕ) (i : IVec (⟨2, ![240000, 1]⟩ : Shape) 32) (u : (⟨1, ![240000]⟩ : Shape).Idx → ℕ)
    (hinj : ∀ e e' : Fin 240000, ∀ p : Fin 294912, (i (ix2 e (0 : Fin 1))).toInt = (p.val : ℤ) →
      (i (ix2 e' (0 : Fin 1))).toInt = (p.val : ℤ) → e = e')
    (e : Fin 240000) (p : Fin 294912) (hp : (i (ix2 e (0 : Fin 1))).toInt = (p.val : ℤ)) :
    Host.scatter (⟨[], [0], [0], 1, hwf⟩ : ScatterDims ⟨1, ![294912]⟩ ⟨2, ![240000, 1]⟩ ⟨1, ![240000]⟩) (fun _ b => b) x i u (ix1 p)
      = u (ix1 e) :=
  set_vec_hit hwf x i u hinj e p hp

end Cert.LibScatterSet
-- ==== Proof.Chain3.lean ====
/-
  The three slot tables read at a slot. Each table is a scatter whose body returns the update: every edge writes its
  word (its source, its target, or its target when its type is in range and the number of nodes otherwise) at the
  slot its index word names, into a table filled with one word (zero, zero, the number of nodes). The index word of
  edge e is its slot, a natural number below the number of slots, so the "negative index moved up" select keeps it
  and, read signed, it is the slot. Distinct edges have distinct slots, so at the slot of edge e the table holds
  edge e's word, and at a slot no edge has it holds the fill word.
-/
import proofs.«420624_j70128226009226_3_alg».proof.Proof.KSpec
import proofs.«420624_j70128226009226_3_alg».proof.Proof.Common
import proofs.«420624_j70128226009226_3_alg».proof.Proof.SlotMath
import proofs.«420624_j70128226009226_3_alg».proof.Proof.LibScatterSet
import Idealize.ShloMosaic.Lib.ValueIdx
import Idealize.ShloMosaic.Lib.Pipeline.Value
import Idealize.ShloMosaic.Lib.Affine

noncomputable section

namespace Cert.Chain3

open Cert.KSpec Cert.Common Cert.SlotMath Idealize.ShloMosaic Idealize.ShloMosaic.ValueIdx
open Cert.KernelIdeal Cert.KernelIdeal.Facts₀

/-- A natural number below 2^31, as a 32-bit word read signed, is itself. -/
theorem toInt_ofNat_small (n : Nat) (h : n < 2147483648) : (BitVec.ofNat 32 n).toInt = (n : ℤ) := by
  rw [BitVec.toInt_eq_toNat_cond, BitVec.toNat_ofNat, Nat.mod_eq_of_lt (by omega)]
  rw [if_pos (by omega)]

/-- The index column at edge e: the select between the edge's slot word moved up by the number of slots and the slot
    word itself, on whether the slot word is negative. -/
theorem slotIdx_apply (te : TE) (e : Fin 240000) :
    slotIdxA te (ix2 e (0 : Fin 1))
      = Scalar.select (IntOp.cmpi .slt (posA te (ix1 e)) 0#32) (IntOp.addi (posA te (ix1 e)) 294912#32) (posA te (ix1 e)) := by
  unfold slotIdxA
  rw [broadcastInDim_apply _ _ _ (ix2 e (0 : Fin 1)) (ix1 e) (by
    intro a
    have ha : a = 0 := Subsingleton.elim _ _
    subst ha
    rfl)]
  rfl

/-- The index word of edge e, read signed, is the edge's slot: the slot is not negative, so the select keeps it. -/
theorem slotIdx_toInt (te : TE) (hpos : ∀ e : Fin 240000, posA te (ix1 e) = BitVec.ofNat 32 (slot (tyFn te) e))
    (hlt : ∀ e : Fin 240000, slot (tyFn te) e < 294912) (e : Fin 240000) :
    (slotIdxA te (ix2 e (0 : Fin 1))).toInt = (slot (tyFn te) e : ℤ) := by
  have hl := hlt e
  have hI : (BitVec.ofNat 32 (slot (tyFn te) e)).toInt = (slot (tyFn te) e : ℤ) := toInt_ofNat_small _ (by omega)
  rw [slotIdx_apply, hpos e]
  have hc : IntOp.cmpi .slt (BitVec.ofNat 32 (slot (tyFn te) e)) 0#32 = 0#1 := by
    apply eq_zero_of_ne_one
    intro h1
    have h2 := IntOp.cmpi_slt.1 h1
    rw [hI, show (0#32 : BitVec 32).toInt = 0 from by decide] at h2
    omega
  rw [hc, select_zero]
  exact hI

/-- Two edges whose index words name the same slot are the same edge. -/
theorem slotIdx_inj (te : TE) (hpos : ∀ e : Fin 240000, posA te (ix1 e) = BitVec.ofNat 32 (slot (tyFn te) e))
    (hlt : ∀ e : Fin 240000, slot (tyFn te) e < 294912) :
    ∀ e e' : Fin 240000, ∀ p : Fin 294912, (slotIdxA te (ix2 e (0 : Fin 1))).toInt = (p.val : ℤ) →
      (slotIdxA te (ix2 e' (0 : Fin 1))).toInt = (p.val : ℤ) → e = e' := by
  intro e e' p h1 h2
  rw [slotIdx_toInt te hpos hlt] at h1 h2
  exact slot_inj (tyFn te) (by omega)

/-- The source table at the slot of edge e holds the source of edge e. -/
theorem psrc_hit (te : TE) (hpos : ∀ e : Fin 240000, posA te (ix1 e) = BitVec.ofNat 32 (slot (tyFn te) e))
    (hlt : ∀ e : Fin 240000, slot (tyFn te) e < 294912) (e : Fin 240000) :
    psrcA te (ix1 (⟨slot (tyFn te) e, hlt e⟩ : Fin 294912)) = srcA te (ix1 e) := by
  unfold psrcA
  exact Cert.LibScatterSet.set_vec_hit scatter_S294912_S240000x1_S240000_n_0_0_1_wf _ (slotIdxA te) (srcA te)
    (slotIdx_inj te hpos hlt) e ⟨slot (tyFn te) e, hlt e⟩ (slotIdx_toInt te hpos hlt e)

/-- The target table at the slot of edge e holds the target of edge e. -/
theorem ptgtG_hit (te : TE) (hpos : ∀ e : Fin 240000, posA te (ix1 e) = BitVec.ofNat 32 (slot (tyFn te) e))
    (hlt : ∀ e : Fin 240000, slot (tyFn te) e < 294912) (e : Fin 240000) :
    ptgtGA te (ix1 (⟨slot (tyFn te) e, hlt e⟩ : Fin 294912)) = tgtA te (ix1 e) := by
  unfold ptgtGA
  exact Cert.LibScatterSet.set_vec_hit scatter_S294912_S240000x1_S240000_n_0_0_1_wf _ (slotIdxA te) (tgtA te)
    (slotIdx_inj te hpos hlt) e ⟨slot (tyFn te) e, hlt e⟩ (slotIdx_toInt te hpos hlt e)

/-- The target table of the final sum at the slot of edge e holds the target of edge e, every type being in range:
    the update is the target where the type is in range. -/
theorem ptgtS_hit (te : TE) (hpos : ∀ e : Fin 240000, posA te (ix1 e) = BitVec.ofNat 32 (slot (tyFn te) e))
    (hlt : ∀ e : Fin 240000, slot (tyFn te) e < 294912) (hvalid : ∀ e : Fin 240000, validA te (ix1 e) = 1#1)
    (e : Fin 240000) :
    ptgtSA te (ix1 (⟨slot (tyFn te) e, hlt e⟩ : Fin 294912)) = tgtA te (ix1 e) := by
  unfold ptgtSA
  refine (Cert.LibScatterSet.set_vec_hit scatter_S294912_S240000x1_S240000_n_0_0_1_wf _ (slotIdxA te) _
    (slotIdx_inj te hpos hlt) e ⟨slot (tyFn te) e, hlt e⟩ (slotIdx_toInt te hpos hlt e)).trans ?_
  rw [select_apply, hvalid e, select_one]

/-- The target table of the final sum at a slot no edge has holds the number of nodes, the fill word. -/
theorem ptgtS_miss (te : TE) (hpos : ∀ e : Fin 240000, posA te (ix1 e) = BitVec.ofNat 32 (slot (tyFn te) e))
    (hlt : ∀ e : Fin 240000, slot (tyFn te) e < 294912) (p : Fin 294912)
    (hp : ∀ e : Fin 240000, slot (tyFn te) e ≠ p.val) :
    ptgtSA te (ix1 p) = 200000#32 := by
  unfold ptgtSA
  refine (Cert.LibScatterSet.set_vec_miss scatter_S294912_S240000x1_S240000_n_0_0_1_wf _ (slotIdxA te) _ p ?_).trans rfl
  intro e he
  rw [slotIdx_toInt te hpos hlt e] at he
  exact hp e (by omega)

end Cert.Chain3

end
-- ==== Proof.HostReads.lean ====
/-
  The float-side host operations around the launch, read at an index at the ideal values (a float is an extended
  real; narrowing and widening a float are the identity).

  * A slot table `t` turned into row indices of the node table is a column whose word at `(p, 0)` is `t p`, moved
    up by the number of nodes when negative; the row gather reads that word signed and clamps it into the table, which
    is the row `rowOf (t p)`. Hence the node rows gathered by slot are `se (rowOf (t p), k)`.
  * The two halves of the weights are slices of the second axis at offsets 0 and 128.
  * The tail widens the messages, adds them into 200001 rows of zeros by the slot target table (slot `p` lands on
    the row its word, read signed, names; a word naming no row adds nothing) and keeps the first 200000 rows: row
    `n` is the sum of the messages of the slots whose target word is `n`.
-/
import proofs.«420624_j70128226009226_3_alg».proof.Proof.KSpec
import proofs.«420624_j70128226009226_3_alg».proof.Proof.Common
import proofs.«420624_j70128226009226_3_alg».proof.Proof.LibGatherRows
import proofs.«420624_j70128226009226_3_alg».proof.Proof.LibScatterSum
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

noncomputable section

namespace Cert.HostReads

open Cert.KSpec Cert.Common Idealize.ShloMosaic Idealize.ShloMosaic.ValueIdx
open Cert.KernelIdeal Cert.KernelIdeal.Facts₀
open scoped BigOperators

/-! ## A slot table as a column -/

/-- A slot table laid out as a column reads, at `(p, 0)`, the table at `p`. -/
theorem col_apply {α : Type} (v : S294912.Idx → α) (p : Fin 294912) :
    broadcastInDim S294912x1 ![0] bcast_S294912_S294912x1_0 v (ix2 p (0 : Fin 1)) = v (ix1 p) := by
  refine broadcastInDim_apply _ _ v (ix2 p (0 : Fin 1)) (ix1 p) fun a => ?_
  match a with
  | ⟨0, _⟩ =>
    show p.val = if (294912 : ℕ) = 1 then 0 else p.val
    rw [if_neg (by decide)]

/-- A scalar word spread over the slots reads that word at every slot. -/
theorem cst_apply (c : BitVec 32) (j : S294912.Idx) :
    broadcastInDim S294912 ![] bcast_S_S294912 (cst c) j = c := by
  rw [StableHlo.Predicate.bcast_scalar bcast_S_S294912 h_S_]
  rfl

/-- The row index column of a slot table reads, at `(p, 0)`, the table's word at `p` moved up by the number of nodes
    when it is negative. -/
theorem rowIdx_apply (t : IVec S294912 32) (p : Fin 294912) :
    rowIdxA t (ix2 p (0 : Fin 1)) = wrapRow (t (ix1 p)) := by
  unfold rowIdxA
  rw [col_apply]
  show Scalar.select (IntOp.cmpi .slt (t (ix1 p)) (broadcastInDim S294912 ![] bcast_S_S294912 (cst 0#32) (ix1 p)))
      (IntOp.addi (t (ix1 p)) (broadcastInDim S294912 ![] bcast_S_S294912 (cst 200000#32) (ix1 p))) (t (ix1 p)) = _
  rw [cst_apply, cst_apply]
  rfl

/-! ## The gathered node rows -/

/-- The row gather of the node table by a slot table's row indices reads, at `(p, k)`, the node table's row
    `rowOf (t p)` at column `k`. -/
theorem gatherRows_apply {α : Type} (x : S200000x128.Idx → α) (t : IVec S294912 32) (p : Fin 294912) (k : Fin 128) :
    Host.gather gather_S200000x128_S294912x1_S294912x128_1_0_n_n_0_1_1128 x (rowIdxA t) (ix2 p k)
      = x (ix2 (rowOf (t (ix1 p))) k) := by
  have h := Cert.LibGatherRows.gather_rows_apply (N := 200000) (K := 128) (E := 294912) (by decide)
    gather_S200000x128_S294912x1_S294912x128_1_0_n_n_0_1_1128_wf x (rowIdxA t) p k
  refine h.trans ?_
  refine congrArg (fun r : Fin 200000 => x (ix2 r k)) (Fin.ext ?_)
  show min (rowIdxA t (ix2 p (0 : Fin 1))).toInt.toNat (200000 - 1) = min (wrapRow (t (ix1 p))).toInt.toNat (200000 - 1)
  rw [rowIdx_apply]

/-- The node rows gathered by the slots' sources. -/
theorem xs_apply (se : FVec Ideal S200000x128 .f32) (te : TE) (p : Fin 294912) (k : Fin 128) :
    xsA (F := Ideal) se te (ix2 p k) = se (ix2 (rowOf (psrcA te (ix1 p))) k) := by
  unfold xsA
  rw [truncf_apply]
  exact gatherRows_apply se (psrcA te) p k

/-- The node rows gathered by the slots' targets. -/
theorem xt_apply (se : FVec Ideal S200000x128 .f32) (te : TE) (p : Fin 294912) (k : Fin 128) :
    xtA (F := Ideal) se te (ix2 p k) = se (ix2 (rowOf (ptgtGA te (ix1 p))) k) := by
  unfold xtA
  rw [truncf_apply]
  exact gatherRows_apply se (ptgtGA te) p k

/-! ## The two halves of the weights -/

/-- The weights' first 128 rows of each type. -/
theorem wtop_apply (W : FVec Ideal S6x256x128 .f32) (t : Fin 6) (k h : Fin 128) :
    wtopA (F := Ideal) W (ix3 t k h) = W (ix3 t (⟨k.val, by omega⟩ : Fin 256) h) := by
  unfold wtopA
  refine (extractStridedSlice_apply _ _ _ (ix3 t k h) (ix3 t (⟨k.val, by omega⟩ : Fin 256) h) fun a => ?_).trans ?_
  · match a with
    | ⟨0, _⟩ => show t.val = 0 + t.val; omega
    | ⟨1, _⟩ => show k.val = 0 + k.val; omega
    | ⟨2, _⟩ => show h.val = 0 + h.val; omega
  · rfl

/-- The weights' last 128 rows of each type. -/
theorem wbot_apply (W : FVec Ideal S6x256x128 .f32) (t : Fin 6) (k h : Fin 128) :
    wbotA (F := Ideal) W (ix3 t k h) = W (ix3 t (⟨128 + k.val, by omega⟩ : Fin 256) h) := by
  unfold wbotA
  refine (extractStridedSlice_apply _ _ _ (ix3 t k h) (ix3 t (⟨128 + k.val, by omega⟩ : Fin 256) h) fun a => ?_).trans ?_
  · match a with
    | ⟨0, _⟩ => show t.val = 0 + t.val; omega
    | ⟨1, _⟩ => show 128 + k.val = 128 + k.val; rfl
    | ⟨2, _⟩ => show h.val = 0 + h.val; omega
  · rfl

/-! ## The tail -/

/-- The 200001 rows of zeros the sum starts from. -/
theorem zeros_apply (j : S200001x128.Idx) :
    broadcastInDim S200001x128 ![] bcast_S_S200001x128 (constant (F := Ideal) S_ .f32 0x00000000#32) j = (0 : EReal) := by
  rw [StableHlo.Predicate.bcast_scalar bcast_S_S200001x128 h_S_, constant_apply]
  exact Ideal.ofBits_zero_f32

/-- What follows the launch: row `n` of the result, in column `h`, is the sum of the messages of the slots whose
    target word, read signed, is `n`. -/
theorem tail_apply (pt : IVec S294912 32) (msgs : FVec Ideal S294912x128 .bf16) (n : Fin 200000) (h : Fin 128) :
    tailA (F := Ideal) pt msgs (ix2 n h)
      = ∑ p ∈ Finset.univ.filter (fun p : Fin 294912 => (pt (ix1 p)).toInt = (n.val : ℤ)), msgs (ix2 p h) := by
  unfold tailA
  refine (extractStridedSlice_apply _ _ _ (ix2 n h) (ix2 (⟨n.val, by omega⟩ : Fin 200001) h) fun a => ?_).trans ?_
  · match a with
    | ⟨0, _⟩ => show n.val = 0 + n.val; omega
    | ⟨1, _⟩ => show h.val = 0 + h.val; omega
  · unfold Host.scatterAdd
    rw [Ideal.hostScatterAdd_def]
    refine (Cert.LibScatterSum.scatterAdd_rows scatter_S200001x128_S294912x1_S294912x128_1_0_0_1_wf _ _ _
      (⟨n.val, by omega⟩ : Fin 200001) h).trans ?_
    rw [zeros_apply, zero_add]
    refine Finset.sum_congr (Finset.filter_congr fun e _ => ?_) (fun e _ => rfl)
    rw [col_apply]

end Cert.HostReads

end
-- ==== Proof.Final.lean ====
/-
  The closing sum.  The result row n of the program is the sum, over the slots whose target word read signed is n,
  of the slot's message.  A slot no edge lands in carries the word 200000, which is no row below 200000, so every
  slot counted is the slot of some edge, and that edge's target word is the slot's; the slots counted are therefore
  the image, under the injective map from an edge to its slot, of the edges whose target word is n.  At the slot of
  an edge the slot's message is the edge's message: the two gathered rows are the rows of the edge's source and target
  words, the tile's type is the edge's type, and the two weight halves are the first and last 128 rows of that type.
-/
import proofs.«420624_j70128226009226_3_alg».proof.Proof.KSpec
import proofs.«420624_j70128226009226_3_alg».proof.Proof.Common
import proofs.«420624_j70128226009226_3_alg».proof.Proof.SlotMath
import Mathlib.Algebra.BigOperators.Group.Finset.Basic

noncomputable section

open Idealize.ShloMosaic Idealize.ShloMosaic.ValueIdx Cert.KernelIdeal Cert.KSpec Cert.Common Cert.SlotMath
open scoped BigOperators

namespace Cert.Final

/-- The word 200000 read signed is 200000. -/
theorem toInt_200000 : (200000#32 : BitVec 32).toInt = 200000 := by decide

/-- The slots whose word is a row n below 200000 are the slots of the edges whose word is n: given that an edge's
    slot carries the edge's word and that a slot of no edge carries 200000. -/
theorem slots_eq_image (sl : Fin 240000 → Fin 294912) (ps : Fin 294912 → BitVec 32) (tw : Fin 240000 → BitVec 32)
    (hat : ∀ e, ps (sl e) = tw e)
    (hmiss : ∀ p : Fin 294912, (∀ e, sl e ≠ p) → ps p = 200000#32) (n : Fin 200000) :
    (Finset.univ.filter fun p : Fin 294912 => (ps p).toInt = (n.val : ℤ))
      = (Finset.univ.filter fun e : Fin 240000 => (tw e).toInt = (n.val : ℤ)).image sl := by
  ext p
  simp only [Finset.mem_filter, Finset.mem_univ, true_and, Finset.mem_image]
  constructor
  · intro hp
    by_cases hex : ∃ e, sl e = p
    · obtain ⟨e, he⟩ := hex
      refine ⟨e, ?_, he⟩
      rw [← hat e, he]; exact hp
    · exfalso
      have h2 := hmiss p (fun e he => hex ⟨e, he⟩)
      rw [h2, toInt_200000] at hp
      have := n.isLt
      omega
  · rintro ⟨e, he, rfl⟩
    rw [hat e]; exact he

theorem kernel_sum
    (se : FVec Ideal S200000x128 .f32) (te : TE) (W : FVec Ideal S6x256x128 .f32)
    (msgs : FVec Ideal S294912x128 .bf16) (tg : Fin 36 → Fin 6)
    (hlt : ∀ e : Fin 240000, slot (tyFn te) e < 294912)
    (htg : ∀ e : Fin 240000, tg (tileOf ⟨slot (tyFn te) e, hlt e⟩) = tyFn te e)
    (hsrc : ∀ e : Fin 240000, psrcA te (ix1 (⟨slot (tyFn te) e, hlt e⟩ : Fin 294912)) = te (ix2 (1 : Fin 3) e))
    (htgtG : ∀ e : Fin 240000, ptgtGA te (ix1 (⟨slot (tyFn te) e, hlt e⟩ : Fin 294912)) = te (ix2 (2 : Fin 3) e))
    (htgtS : ∀ e : Fin 240000, ptgtSA te (ix1 (⟨slot (tyFn te) e, hlt e⟩ : Fin 294912)) = te (ix2 (2 : Fin 3) e))
    (hmiss : ∀ p : Fin 294912, (∀ e : Fin 240000, slot (tyFn te) e ≠ p.val) → ptgtSA te (ix1 p) = 200000#32)
    (hxs : ∀ (p : Fin 294912) (k : Fin 128), xsA (F := Ideal) se te (ix2 p k) = se (ix2 (rowOf (psrcA te (ix1 p))) k))
    (hxt : ∀ (p : Fin 294912) (k : Fin 128), xtA (F := Ideal) se te (ix2 p k) = se (ix2 (rowOf (ptgtGA te (ix1 p))) k))
    (hwt : ∀ (t : Fin 6) (k h : Fin 128), wtopA (F := Ideal) W (ix3 t k h) = W (ix3 t (⟨k.val, by omega⟩ : Fin 256) h))
    (hwb : ∀ (t : Fin 6) (k h : Fin 128), wbotA (F := Ideal) W (ix3 t k h) = W (ix3 t (⟨128 + k.val, by omega⟩ : Fin 256) h))
    (htail : ∀ (n : Fin 200000) (h : Fin 128), tailA (F := Ideal) (ptgtSA te) msgs (ix2 n h)
        = ∑ p ∈ Finset.univ.filter (fun p : Fin 294912 => (ptgtSA te (ix1 p)).toInt = (n.val : ℤ)), msgs (ix2 p h))
    (hmsgs : ∀ (p : Fin 294912) (h : Fin 128), msgs (ix2 p h) = slotMsg (xsA (F := Ideal) se te) (xtA (F := Ideal) se te) (wtopA (F := Ideal) W) (wbotA (F := Ideal) W) tg p h)
    (n : Fin 200000) (h : Fin 128) :
    tailA (F := Ideal) (ptgtSA te) msgs (ix2 n h)
      = ∑ e ∈ Finset.univ.filter (fun e : Fin 240000 => (te (ix2 (2 : Fin 3) e)).toInt = (n.val : ℤ)),
          edgeMsg se W (tyFn te e) (te (ix2 (1 : Fin 3) e)) (te (ix2 (2 : Fin 3) e)) h := by
  -- an edge's slot, as a slot index; distinct edges have distinct slots
  let sl : Fin 240000 → Fin 294912 := fun e => ⟨slot (tyFn te) e, hlt e⟩
  have hinj : Function.Injective sl := by
    intro a b hab
    have h1 : slot (tyFn te) a = slot (tyFn te) b := Fin.mk.inj hab
    exact slot_inj (tyFn te) h1
  -- the slots counted are the slots of the edges counted
  have himg := slots_eq_image sl (fun p => ptgtSA te (ix1 p)) (fun e => te (ix2 (2 : Fin 3) e)) htgtS
    (fun p hp => hmiss p (fun e he => hp e (Fin.ext he))) n
  rw [htail n h, himg, Finset.sum_image (fun a _ b _ hab => hinj hab)]
  -- at an edge's slot the slot's message is the edge's
  refine Finset.sum_congr rfl (fun e _ => ?_)
  rw [hmsgs (sl e) h]
  unfold slotMsg edgeMsg
  rw [htg e]
  congr 1
  · refine Finset.sum_congr rfl (fun k _ => ?_)
    rw [hxs (sl e) k, hwt (tyFn te e) k h, hsrc e]
  · refine Finset.sum_congr rfl (fun k _ => ?_)
    rw [hxt (sl e) k, hwb (tyFn te e) k h, htgtG e]

end Cert.Final

end
-- ==== Proof.lean ====
/-
  The claim: the grouped-by-type message kernel against its masked reference.

  Both programs send, for every edge, one message to the edge's target node: the source's and the target's rows
  of the node table side by side (256 numbers) against the 256 × 128 weights of the edge's type; a node's result
  row is the sum of the messages sent to it.  The reference computes all six types' products for every edge and
  keeps the one whose type matches.  The kernel instead gives every edge a slot: the edges of one type, in their
  original order, fill a run of slots whose length is the type's count rounded up to whole tiles of 8192, the
  runs laid end to end in type order; it lays sources and targets out by slot, lets each tile of 8192 slots
  multiply by the two halves of ONE type's weights (the type whose run the tile lies in), and sums the slots'
  messages by target, the unfilled slots aimed at a row past the last node that is then dropped.  With every
  edge type in 1 … 6 the slot map is injective, the tile of an edge's slot serves the edge's type, and the
  256-term product splits into its two 128-term halves; so the sum over the slots aimed at a node is the sum
  over the edges aimed at it.  A change of float format is the identity at the ideal values; no law used here
  needs finiteness (only that addition on the extended reals is commutative and associative, and 0 + x = x).
-/
import proofs.«420624_j70128226009226_3_alg».proof.Defs
import proofs.«420624_j70128226009226_3_alg».proof.Proof.Gen.Kernel
import proofs.«420624_j70128226009226_3_alg».proof.Proof.Gen.Kernel.Skeleton
import proofs.«420624_j70128226009226_3_alg».proof.Proof.Gen.Kernel.Launch
import proofs.«420624_j70128226009226_3_alg».proof.Proof.Gen.Kernel.Points
import proofs.«420624_j70128226009226_3_alg».proof.Proof.Gen.Kernel.Frame
import proofs.«420624_j70128226009226_3_alg».proof.Proof.Gen.KernelIdeal
import proofs.«420624_j70128226009226_3_alg».proof.Proof.Gen.KernelIdeal.Skeleton
import proofs.«420624_j70128226009226_3_alg».proof.Proof.Gen.KernelIdeal.Launch
import proofs.«420624_j70128226009226_3_alg».proof.Proof.Gen.KernelIdeal.Points
import proofs.«420624_j70128226009226_3_alg».proof.Proof.Gen.KernelIdeal.Frame
import proofs.«420624_j70128226009226_3_alg».proof.Proof.Gen.ReferenceIdeal
import proofs.«420624_j70128226009226_3_alg».proof.Proof.Gen.ReferenceIdeal.Run
import proofs.«420624_j70128226009226_3_alg».proof.Proof.Gen.ReferenceIdeal.Read
import proofs.«420624_j70128226009226_3_alg».proof.Proof.Gen.Pre_finite_inputs
import proofs.«420624_j70128226009226_3_alg».proof.Proof.OkPre
import proofs.«420624_j70128226009226_3_alg».proof.Proof.OkPreBits
import proofs.«420624_j70128226009226_3_alg».proof.Proof.PreDecode
import proofs.«420624_j70128226009226_3_alg».proof.Proof.KHostVals
import proofs.«420624_j70128226009226_3_alg».proof.Proof.KHostValsT
import proofs.«420624_j70128226009226_3_alg».proof.Proof.KHostValsS
import proofs.«420624_j70128226009226_3_alg».proof.Proof.KHostValsG
import proofs.«420624_j70128226009226_3_alg».proof.Proof.KernelRun
import proofs.«420624_j70128226009226_3_alg».proof.Proof.RefRead
import proofs.«420624_j70128226009226_3_alg».proof.Proof.Chain1
import proofs.«420624_j70128226009226_3_alg».proof.Proof.Chain1b
import proofs.«420624_j70128226009226_3_alg».proof.Proof.Chain2
import proofs.«420624_j70128226009226_3_alg».proof.Proof.Chain3
import proofs.«420624_j70128226009226_3_alg».proof.Proof.HostReads
import proofs.«420624_j70128226009226_3_alg».proof.Proof.Final
import Idealize.ShloMosaic.Adequacy
import Idealize.ShloMosaic.Init

noncomputable section

namespace Cert.Proof

open Idealize.ShloMosaic Idealize.ShloMosaic.ValueIdx Idealize.SL.Sem
open Cert.Common Cert.SlotMath

/-! ## The kernel's result row by row -/

section KernelValue
open Cert.KernelIdeal Cert.KernelIdeal.Gen Cert.KSpec Cert.KHostVals

variable (m : (ℓ : Loc nD τ sig) → Buf (Elt Ideal) ℓ)

/-- The tile of an edge's slot serves the edge's type: the tile table is the stage `tgA`, which at that tile is
    the type index. -/
theorem tg_of_slot (hO : Ok (F := Ideal) m) (c : Dev nD) (hok : TyOk (teOf m c))
    (e : Fin 240000) :
    Cert.KernelRun.tgOf m hO (tileOf ⟨slot (tyFn (teOf m c)) e, Cert.Chain2.slot_lt_P (teOf m c) e⟩) = tyFn (teOf m c) e := by
  obtain rfl : c = 0 := Subsingleton.elim _ _
  have h87 : (tbl m 0 : IVec S36 32) = Cert.KSpec.tgA (teOf m 0) := v87_eq m 0
  have hhit := Cert.Chain2.tg_hit (teOf m 0) (Cert.Chain1.counts_apply (teOf m 0) hok) e
  have hw : (tbl m 0 : IVec S36 32) (ix1 (tileOf ⟨slot (tyFn (teOf m 0)) e, Cert.Chain2.slot_lt_P (teOf m 0) e⟩))
      = BitVec.ofNat 32 (tyFn (teOf m 0) e).val := (congrFun h87 _).trans hhit
  apply Fin.ext
  rw [Cert.KernelRun.tgOf_val]
  refine (congrArg BitVec.toNat hw).trans ?_
  exact Cert.Chain2.toNat_ofNat_lt _ (by have := (tyFn (teOf m 0) e).isLt; omega)

/-- Row n, column h of the kernel program's result: the sum, over the edges whose target word is n, of the edge's
    message. -/
theorem kernel_value (hO : Ok (F := Ideal) m) (c : Dev nD) (hok : TyOk (teOf m c)) (n : Fin 200000) (h : Fin 128) :
    tailA (F := Ideal) (V m c main_v74) (Cert.KernelRun.msgsOf m hO c) (ix2 n h)
      = ∑ e ∈ Finset.univ.filter (fun e : Fin 240000 => ((teOf m c) (ix2 (2 : Fin 3) e)).toInt = (n.val : ℤ)),
          edgeMsg (seOf m c) (wOf m c) (tyFn (teOf m c) e) ((teOf m c) (ix2 (1 : Fin 3) e)) ((teOf m c) (ix2 (2 : Fin 3) e)) h := by
  have hcounts := Cert.Chain1.counts_apply (teOf m c) hok
  have htidx := Cert.Chain1.tidx_apply (teOf m c) hok
  have hrank := Cert.Chain1.rank_apply (teOf m c) hok
  have hlocal := Cert.Chain1b.local_apply (teOf m c) hrank htidx
  have hpos := Cert.Chain2.pos_apply (teOf m c) hcounts htidx hlocal
  have hlt := Cert.Chain2.slot_lt_P (teOf m c)
  have hvalid := Cert.Chain1.valid_apply (teOf m c) hok
  rw [show (V m c main_v74 : IVec S294912 32) = ptgtSA (teOf m c) from v74_eq m c]
  refine Cert.Final.kernel_sum (seOf m c) (teOf m c) (wOf m c) (Cert.KernelRun.msgsOf m hO c) (Cert.KernelRun.tgOf m hO) hlt
    (fun e => tg_of_slot m hO c hok e)
    (fun e => (Cert.Chain3.psrc_hit (teOf m c) hpos hlt e).trans (Cert.Chain1.src_apply (teOf m c) e))
    (fun e => (Cert.Chain3.ptgtG_hit (teOf m c) hpos hlt e).trans (Cert.Chain1.tgt_apply (teOf m c) e))
    (fun e => (Cert.Chain3.ptgtS_hit (teOf m c) hpos hlt hvalid e).trans (Cert.Chain1.tgt_apply (teOf m c) e))
    (Cert.Chain3.ptgtS_miss (teOf m c) hpos hlt)
    (Cert.HostReads.xs_apply (seOf m c) (teOf m c)) (Cert.HostReads.xt_apply (seOf m c) (teOf m c))
    (Cert.HostReads.wtop_apply (wOf m c)) (Cert.HostReads.wbot_apply (wOf m c))
    (Cert.HostReads.tail_apply (ptgtSA (teOf m c)) (Cert.KernelRun.msgsOf m hO c))
    (fun p h => ?_) n h
  rw [Cert.KernelRun.msgsOf_apply m hO c p h,
    show (V m c main_v95 : FVec Ideal S294912x128 .bf16) = xsA (seOf m c) (teOf m c) from v95_eq m c,
    show (V m c main_v103 : FVec Ideal S294912x128 .bf16) = xtA (seOf m c) (teOf m c) from v103_eq m c,
    show (V m c main_v105 : FVec Ideal S6x128x128 .bf16) = wtopA (wOf m c) from v105_eq m c,
    show (V m c main_v106 : FVec Ideal S6x128x128 .bf16) = wbotA (wOf m c) from v106_eq m c]

end KernelValue

/-! ## The claims -/

theorem frame_p : Cert.frame_Kernel := fun m ρ _ => Cert.Kernel.Gen.frame m ρ (Cert.OkPreBits.ok m)
theorem frame_pi : Cert.frame_KernelIdeal := fun m ρ _ => Cert.KernelIdeal.Gen.frame m ρ (Cert.OkPre.ok m)
theorem frame_ri : Cert.frame_ReferenceIdeal := fun m ρ _ =>
  (θ_run Cert.ReferenceIdeal.defs _ _).mono (fun _ h c => (h c).2) (Cert.ReferenceIdeal.Value.run (F := Ideal) m ρ)

/-- No operation of the kernel is rewritten by the idealization. -/
theorem preserves : Cert.preserves_Kernel_KernelIdeal := trivial

/-- From memories agreeing on the three arguments both programs end, and their results agree entry by entry: each is,
    at row n, the sum of the messages of the edges whose target is n. -/
theorem algebraic : Cert.algebraic_KernelIdeal_ReferenceIdeal := by
  intro m ρ m' ρ' hpre hagree
  have hO : Cert.KernelIdeal.Gen.Ok (F := Ideal) m := Cert.OkPre.ok m
  refine ⟨fun c => Cert.KSpec.tailA (F := Ideal) (Cert.KernelIdeal.Gen.V m c Cert.KernelIdeal.main_v74) (Cert.KernelRun.msgsOf m hO c),
    Cert.KernelRun.run_val m ρ hO, ?_⟩
  refine (θ_run Cert.ReferenceIdeal.defs _ _).mono (fun _ h c => ⟨(h c).1.trans ?_, (h c).2⟩)
    (Cert.ReferenceIdeal.Value.run (F := Ideal) m' ρ')
  have hok : TyOk (Cert.KHostVals.teOf m c) := Cert.PreDecode.etype_range _ _ _ (hpre c)
  rw [Cert.ReferenceIdeal.Read.val_main_v72_eq, (hagree c).1, (hagree c).2.1, (hagree c).2.2]
  funext i
  obtain ⟨n, h, rfl⟩ : ∃ (n : Fin 200000) (h : Fin 128), i = ix2 n h := ⟨i 0, i 1, eq_ix2 i⟩
  exact (Cert.RefRead.ref_result _ _ _ hok n h).trans (kernel_value m hO c hok n h).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
